-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v36)) (v2 : (c : Dev Cert.KernelIdeal.nD) → Buf (Elt Ideal) ((c.tc : Thread Cert.KernelIdeal.nD Cert.KernelIdeal.τ).loc Cert.KernelIdeal.main_v42)) (v3 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_v42) = v2 c
          ∧ r.2.mem ((c.tc : Thread Cert.KernelIdeal.nD Cert.KernelIdeal.τ).loc Cert.KernelIdeal.main_v20) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v105) = v2 c
          ∧ r.2.mem ((c.tc : Thread Cert.ReferenceIdeal.nD Cert.ReferenceIdeal.τ).loc Cert.ReferenceIdeal.main_v93) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x512x512 : Shape := ⟨4, ![4, 64, 512, 512]⟩
abbrev S4x512x512 : Shape := ⟨3, ![4, 512, 512]⟩
abbrev S19x64 : Shape := ⟨2, ![19, 64]⟩
abbrev S_ : Shape := ⟨0, ![]⟩

class Facts : Prop where
  bcast_S_S4x64x512x512 : S_.BroadcastsInDim S4x64x512x512 (![] : Fin 0 → Fin S4x64x512x512.rank)
  reducesTo_S4x64x512x512_S_d0_1_2_3 : S4x64x512x512.ReducesTo [0, 1, 2, 3] S_
  h_S_ : 0 < S_.numel
  bcast_S_S19x64 : S_.BroadcastsInDim S19x64 (![] : Fin 0 → Fin S19x64.rank)
  reducesTo_S19x64_S_d0_1 : S19x64.ReducesTo [0, 1] S_
  bcast_S_S4x512x512 : S_.BroadcastsInDim S4x512x512 (![] : Fin 0 → Fin S4x512x512.rank)
  reducesTo_S4x512x512_S_d0_1_2 : S4x512x512.ReducesTo [0, 1, 2] S_

variable [Facts]

def fn_part1 {F : FTy → Type} [FloatOps F] (main_arg1 : IVec S4x512x512 32) (main_v13 : IVec S_ 1) (main_v15 : IVec S4x512x512 1) (main_c_5 : IVec S_ 32) : IVec S_ 1 :=
  let main_v16 : IVec S4x512x512 32 := broadcastInDim S4x512x512 ![] bcast_S_S4x512x512 main_c_5
  let main_v17 : IVec S4x512x512 1 := cmpi .slt main_arg1 main_v16
  let main_v18 : IVec S4x512x512 1 := andi main_v15 main_v17
  let main_c_6 : IVec S_ 1 := constantI S_ 1 1#1
  let main_v19 : IVec S_ 1 := (fun x v => Host.reduce IntOp.andi x v reducesTo_S4x512x512_S_d0_1_2 h_S_) main_v18 main_c_6
  let main_v20 : IVec S_ 1 := andi main_v13 main_v19
  main_v20

def fn {F : FTy → Type} [FloatOps F] (main_arg0 : FVec F S4x64x512x512 .f32) (main_arg1 : IVec S4x512x512 32) (main_arg2 : FVec F S19x64 .f32) (main_arg3 : FVec F S19x64 .f32) : IVec S_ 1 :=
  let main_v0 : FVec F S4x64x512x512 .f32 := Host.absf main_arg0
  let main_cst : FVec F S_ .f32 := constant S_ .f32 0x7F800000#32
  let main_v1 : FVec F S4x64x512x512 .f32 := broadcastInDim S4x64x512x512 ![] bcast_S_S4x64x512x512 main_cst
  let main_v2 : IVec S4x64x512x512 1 := cmpf .olt main_v0 main_v1
  let main_c : IVec S_ 1 := constantI S_ 1 1#1
  let main_v3 : IVec S_ 1 := (fun x v => Host.reduce IntOp.andi x v reducesTo_S4x64x512x512_S_d0_1_2_3 h_S_) main_v2 main_c
  let main_v4 : FVec F S19x64 .f32 := Host.absf main_arg2
  let main_cst_0 : FVec F S_ .f32 := constant S_ .f32 0x7F800000#32
  let main_v5 : FVec F S19x64 .f32 := broadcastInDim S19x64 ![] bcast_S_S19x64 main_cst_0
  let main_v6 : IVec S19x64 1 := cmpf .olt main_v4 main_v5
  let main_c_1 : IVec S_ 1 := constantI S_ 1 1#1
  let main_v7 : IVec S_ 1 := (fun x v => Host.reduce IntOp.andi x v reducesTo_S19x64_S_d0_1 h_S_) main_v6 main_c_1
  let main_v8 : IVec S_ 1 := andi main_v3 main_v7
  let main_v9 : FVec F S19x64 .f32 := Host.absf main_arg3
  let main_cst_2 : FVec F S_ .f32 := constant S_ .f32 0x7F800000#32
  let main_v10 : FVec F S19x64 .f32 := broadcastInDim S19x64 ![] bcast_S_S19x64 main_cst_2
  let main_v11 : IVec S19x64 1 := cmpf .olt main_v9 main_v10
  let main_c_3 : IVec S_ 1 := constantI S_ 1 1#1
  let main_v12 : IVec S_ 1 := (fun x v => Host.reduce IntOp.andi x v reducesTo_S19x64_S_d0_1 h_S_) main_v11 main_c_3
  let main_v13 : IVec S_ 1 := andi main_v8 main_v12
  let main_c_4 : IVec S_ 32 := constantI S_ 32 0#32
  let main_v14 : IVec S4x512x512 32 := broadcastInDim S4x512x512 ![] bcast_S_S4x512x512 main_c_4
  let main_v15 : IVec S4x512x512 1 := cmpi .sge main_arg1 main_v14
  let main_c_5 : IVec S_ 32 := constantI S_ 32 19#32
  fn_part1 (F := F) main_arg1 main_v13 main_v15 main_c_5
-- ==== Kernel.lean ====
abbrev S4x64x512x512 : Shape := ⟨4, ![4, 64, 512, 512]⟩
abbrev S4x512x512 : Shape := ⟨3, ![4, 512, 512]⟩
abbrev S19x64 : Shape := ⟨2, ![19, 64]⟩
abbrev S4x19x64 : Shape := ⟨3, ![4, 19, 64]⟩
abbrev S1x64x32x512 : Shape := ⟨4, ![1, 64, 32, 512]⟩
abbrev S1x32x512 : Shape := ⟨3, ![1, 32, 512]⟩
abbrev S1x19x64 : Shape := ⟨3, ![1, 19, 64]⟩
abbrev S64x32x512 : Shape := ⟨3, ![64, 32, 512]⟩
abbrev S32x512 : Shape := ⟨2, ![32, 512]⟩
abbrev S64x32 : Shape := ⟨2, ![64, 32]⟩
abbrev S64 : Shape := ⟨1, ![64]⟩
abbrev S1x1x64 : Shape := ⟨3, ![1, 1, 64]⟩
abbrev S_ : Shape := ⟨0, ![]⟩
abbrev S4x19x1 : Shape := ⟨3, ![4, 19, 1]⟩
abbrev S4x19 : Shape := ⟨2, ![4, 19]⟩
abbrev S64x1x1 : Shape := ⟨3, ![64, 1, 1]⟩

abbrev nBuf : Space → Nat
  | .hbm => 71
  | .vmem => 24
  | .smem => 0
  | _ => 0

abbrev bufTy : (tb : Table) → Fin (tcTables nBuf tb) → BufTy
  | .hbm, ⟨0, _⟩ => ⟨S4x64x512x512, .f32⟩
  | .hbm, ⟨1, _⟩ => ⟨S4x512x512, .i32⟩
  | .hbm, ⟨2, _⟩ => ⟨S19x64, .f32⟩
  | .hbm, ⟨3, _⟩ => ⟨S19x64, .f32⟩
  | .hbm, ⟨4, _⟩ => ⟨S4x19x64, .f32⟩
  | .hbm, ⟨5, _⟩ => ⟨S4x19x64, .f32⟩
  | .hbm, ⟨6, _⟩ => ⟨S4x19x64, .f32⟩
  | .hbm, ⟨7, _⟩ => ⟨S_, .f32⟩
  | .hbm, ⟨8, _⟩ => ⟨S4x19x64, .f32⟩
  | .hbm, ⟨9, _⟩ => ⟨S4x19x64, .f32⟩
  | .hbm, ⟨10, _⟩ => ⟨S4x19x64, .f32⟩
  | .hbm, ⟨11, _⟩ => ⟨S4x19x64, .f32⟩
  | .hbm, ⟨12, _⟩ => ⟨S4x19x64, .f32⟩
  | .hbm, ⟨13, _⟩ => ⟨S4x19x64, .f32⟩
  | .hbm, ⟨14, _⟩ => ⟨S_, .f32⟩
  | .hbm, ⟨15, _⟩ => ⟨S4x19x64, .f32⟩
  | .hbm, ⟨16, _⟩ => ⟨S4x19x64, .f32⟩
  | .hbm, ⟨17, _⟩ => ⟨S_, .f32⟩
  | .hbm, ⟨18, _⟩ => ⟨S4x19x64, .f32⟩
  | .hbm, ⟨19, _⟩ => ⟨S4x19x64, .f32⟩
  | .hbm, ⟨20, _⟩ => ⟨S4x19x64, .f32⟩
  | .hbm, ⟨21, _⟩ => ⟨S_, .f32⟩
  | .hbm, ⟨22, _⟩ => ⟨S4x19x64, .f32⟩
  | .hbm, ⟨23, _⟩ => ⟨S4x19x64, .f32⟩
  | .hbm, ⟨24, _⟩ => ⟨S4x19x64, .f32⟩
  | .hbm, ⟨25, _⟩ => ⟨S_, .f32⟩
  | .hbm, ⟨26, _⟩ => ⟨S4x19x64, .f32⟩
  | .hbm, ⟨27, _⟩ => ⟨S4x19x64, .f32⟩
  | .hbm, ⟨28, _⟩ => ⟨S4x19x1, .f32⟩
  | .hbm, ⟨29, _⟩ => ⟨S4x19, .f32⟩
  | .hbm, ⟨30, _⟩ => ⟨S_, .f32⟩
  | .hbm, ⟨31, _⟩ => ⟨S4x19, .f32⟩
  | .hbm, ⟨32, _⟩ => ⟨S4x19, .i1⟩
  | .hbm, ⟨33, _⟩ => ⟨S4x19x1, .i1⟩
  | .hbm, ⟨34, _⟩ => ⟨S_, .f32⟩
  | .hbm, ⟨35, _⟩ => ⟨S_, .f32⟩
  | .hbm, ⟨36, _⟩ => ⟨S4x19x64, .i1⟩
  | .hbm, ⟨37, _⟩ => ⟨S4x19x64, .f32⟩
  | .hbm, ⟨38, _⟩ => ⟨S4x19x64, .f32⟩
  | .hbm, ⟨39, _⟩ => ⟨S_, .f32⟩
  | .hbm, ⟨40, _⟩ => ⟨S_, .f32⟩
  | .hbm, ⟨41, _⟩ => ⟨S4x19x64, .i1⟩
  | .hbm, ⟨42, _⟩ => ⟨S4x19x64, .f32⟩
  | .hbm, ⟨43, _⟩ => ⟨S4x19x64, .f32⟩
  | .hbm, ⟨44, _⟩ => ⟨S1x19x64, .f32⟩
  | .hbm, ⟨45, _⟩ => ⟨S4x19x64, .f32⟩
  | .hbm, ⟨46, _⟩ => ⟨S_, .f32⟩
  | .hbm, ⟨47, _⟩ => ⟨S_, .f32⟩
  | .hbm, ⟨48, _⟩ => ⟨S4x19x64, .i1⟩
  | .hbm, ⟨49, _⟩ => ⟨S4x19x64, .f32⟩
  | .hbm, ⟨50, _⟩ => ⟨S4x19x64, .f32⟩
  | .hbm, ⟨51, _⟩ => ⟨S1x19x64, .f32⟩
  | .hbm, ⟨52, _⟩ => ⟨S4x19x64, .f32⟩
  | .hbm, ⟨53, _⟩ => ⟨S_, .f32⟩
  | .hbm, ⟨54, _⟩ => ⟨S_, .f32⟩
  | .hbm, ⟨55, _⟩ => ⟨S4x19x64, .i1⟩
  | .hbm, ⟨56, _⟩ => ⟨S4x19x64, .f32⟩
  | .hbm, ⟨57, _⟩ => ⟨S4x19x64, .f32⟩
  | .hbm, ⟨58, _⟩ => ⟨S4x64x512x512, .f32⟩
  | .hbm, ⟨59, _⟩ => ⟨S4x19x1, .i1⟩
  | .hbm, ⟨60, _⟩ => ⟨S1x19x64, .f32⟩
  | .hbm, ⟨61, _⟩ => ⟨S4x19x1, .f32⟩
  | .hbm, ⟨62, _⟩ => ⟨S4x19x64, .f32⟩
  | .hbm, ⟨63, _⟩ => ⟨S4x19x64, .f32⟩
  | .hbm, ⟨64, _⟩ => ⟨S4x19x64, .f32⟩
  | .hbm, ⟨65, _⟩ => ⟨S4x19x1, .i1⟩
  | .hbm, ⟨66, _⟩ => ⟨S1x19x64, .f32⟩
  | .hbm, ⟨67, _⟩ => ⟨S4x19x1, .f32⟩
  | .hbm, ⟨68, _⟩ => ⟨S4x19x64, .f32⟩
  | .hbm, ⟨69, _⟩ => ⟨S4x19x64, .f32⟩
  | .hbm, ⟨70, _⟩ => ⟨S4x19x64, .f32⟩
  | .local _ .vmem, ⟨0, _⟩ => ⟨S1x64x32x512, .f32⟩
  | .local _ .vmem, ⟨1, _⟩ => ⟨S1x64x32x512, .f32⟩
  | .local _ .vmem, ⟨2, _⟩ => ⟨S1x32x512, .i32⟩
  | .local _ .vmem, ⟨3, _⟩ => ⟨S1x32x512, .i32⟩
  | .local _ .vmem, ⟨4, _⟩ => ⟨S1x19x64, .f32⟩
  | .local _ .vmem, ⟨5, _⟩ => ⟨S1x19x64, .f32⟩
  | .local _ .vmem, ⟨6, _⟩ => ⟨S1x19x64, .f32⟩
  | .local _ .vmem, ⟨7, _⟩ => ⟨S1x19x64, .f32⟩
  | .local _ .vmem, ⟨8, _⟩ => ⟨S1x19x64, .f32⟩
  | .local _ .vmem, ⟨9, _⟩ => ⟨S1x19x64, .f32⟩
  | .local _ .vmem, ⟨10, _⟩ => ⟨S1x64x32x512, .f32⟩
  | .local _ .vmem, ⟨11, _⟩ => ⟨S1x64x32x512, .f32⟩
  | .local _ .vmem, ⟨12, _⟩ => ⟨S1x32x512, .i32⟩
  | .local _ .vmem, ⟨13, _⟩ => ⟨S1x32x512, .i32⟩
  | .local _ .vmem, ⟨14, _⟩ => ⟨S1x19x64, .f32⟩
  | .local _ .vmem, ⟨15, _⟩ => ⟨S1x19x64, .f32⟩
  | .local _ .vmem, ⟨16, _⟩ => ⟨S1x19x64, .f32⟩
  | .local _ .vmem, ⟨17, _⟩ => ⟨S1x19x64, .f32⟩
  | .local _ .vmem, ⟨18, _⟩ => ⟨S1x19x64, .f32⟩
  | .local _ .vmem, ⟨19, _⟩ => ⟨S1x19x64, .f32⟩
  | .local _ .vmem, ⟨20, _⟩ => ⟨S1x19x64, .f32⟩
  | .local _ .vmem, ⟨21, _⟩ => ⟨S1x19x64, .f32⟩
  | .local _ .vmem, ⟨22, _⟩ => ⟨S1x64x32x512, .f32⟩
  | .local _ .vmem, ⟨23, _⟩ => ⟨S1x64x32x512, .f32⟩
  | _, _ => ⟨S4x64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v22 : Ref sig .tc := ⟨.hbm, 38, rfl⟩
abbrev main_cst_6 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_7 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_8 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x19x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x19x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x19x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x64x32x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x32x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x19x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x19x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x19x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x19x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x64x32x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  inb_S1x19x64_S1x19x64_0_0_0 : ∀ a, (![0, 0, 0] : Fin 3 → Nat) a + S1x19x64.size a ≤ S1x19x64.size a
  h_S1x19x64 : 0 < S1x19x64.numel
  shapeCasts_S1x19x64_S19x64 : S1x19x64.ShapeCasts S19x64
  shapeCasts_S19x64_S1x19x64 : S19x64.ShapeCasts S1x19x64
  inb_S1x64x32x512_S1x64x32x512_0_0_0_0 : ∀ a, (![0, 0, 0, 0] : Fin 4 → Nat) a + S1x64x32x512.size a ≤ S1x64x32x512.size a
  h_S1x64x32x512 : 0 < S1x64x32x512.numel
  shapeCasts_S1x64x32x512_S64x32x512 : S1x64x32x512.ShapeCasts S64x32x512
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  natLt_1_32 : 1 < 32
  shapeCasts_S32x512_S1x32x512 : S32x512.ShapeCasts S1x32x512
  shapeCasts_S1x32x512_S1x32x512 : S1x32x512.ShapeCasts S1x32x512
  broadcasts_S1x32x512_S64x32x512 : S1x32x512.Broadcasts S64x32x512
  reduces_S64x32x512_S64x32 : S64x32x512.Reduces [2] S64x32
  reduces_S64x32_S64 : S64x32.Reduces [1] S64
  inb_S1x19x64_S1x1x64_0_0_0 : ∀ a, (![0, 0, 0] : Fin 3 → Nat) a + S1x1x64.size a ≤ S1x19x64.size a
  h_S1x1x64 : 0 < S1x1x64.numel
  shapeCasts_S1x1x64_S64 : S1x1x64.ShapeCasts S64
  shapeCasts_S64_S1x1x64 : S64.ShapeCasts S1x1x64
  inb_S1x19x64_S1x1x64_0_1_0 : ∀ a, (![0, 1, 0] : Fin 3 → Nat) a + S1x1x64.size a ≤ S1x19x64.size a
  inb_S1x19x64_S1x1x64_0_2_0 : ∀ a, (![0, 2, 0] : Fin 3 → Nat) a + S1x1x64.size a ≤ S1x19x64.size a
  inb_S1x19x64_S1x1x64_0_3_0 : ∀ a, (![0, 3, 0] : Fin 3 → Nat) a + S1x1x64.size a ≤ S1x19x64.size a
  inb_S1x19x64_S1x1x64_0_4_0 : ∀ a, (![0, 4, 0] : Fin 3 → Nat) a + S1x1x64.size a ≤ S1x19x64.size a
  inb_S1x19x64_S1x1x64_0_5_0 : ∀ a, (![0, 5, 0] : Fin 3 → Nat) a + S1x1x64.size a ≤ S1x19x64.size a
  inb_S1x19x64_S1x1x64_0_6_0 : ∀ a, (![0, 6, 0] : Fin 3 → Nat) a + S1x1x64.size a ≤ S1x19x64.size a
  inb_S1x19x64_S1x1x64_0_7_0 : ∀ a, (![0, 7, 0] : Fin 3 → Nat) a + S1x1x64.size a ≤ S1x19x64.size a
  inb_S1x19x64_S1x1x64_0_8_0 : ∀ a, (![0, 8, 0] : Fin 3 → Nat) a + S1x1x64.size a ≤ S1x19x64.size a
  inb_S1x19x64_S1x1x64_0_9_0 : ∀ a, (![0, 9, 0] : Fin 3 → Nat) a + S1x1x64.size a ≤ S1x19x64.size a
  inb_S1x19x64_S1x1x64_0_10_0 : ∀ a, (![0, 10, 0] : Fin 3 → Nat) a + S1x1x64.size a ≤ S1x19x64.size a
  inb_S1x19x64_S1x1x64_0_11_0 : ∀ a, (![0, 11, 0] : Fin 3 → Nat) a + S1x1x64.size a ≤ S1x19x64.size a
  inb_S1x19x64_S1x1x64_0_12_0 : ∀ a, (![0, 12, 0] : Fin 3 → Nat) a + S1x1x64.size a ≤ S1x19x64.size a
  inb_S1x19x64_S1x1x64_0_13_0 : ∀ a, (![0, 13, 0] : Fin 3 → Nat) a + S1x1x64.size a ≤ S1x19x64.size a
  inb_S1x19x64_S1x1x64_0_14_0 : ∀ a, (![0, 14, 0] : Fin 3 → Nat) a + S1x1x64.size a ≤ S1x19x64.size a
  inb_S1x19x64_S1x1x64_0_15_0 : ∀ a, (![0, 15, 0] : Fin 3 → Nat) a + S1x1x64.size a ≤ S1x19x64.size a
  inb_S1x19x64_S1x1x64_0_16_0 : ∀ a, (![0, 16, 0] : Fin 3 → Nat) a + S1x1x64.size a ≤ S1x19x64.size a
  inb_S1x19x64_S1x1x64_0_17_0 : ∀ a, (![0, 17, 0] : Fin 3 → Nat) a + S1x1x64.size a ≤ S1x19x64.size a
  inb_S1x19x64_S1x1x64_0_18_0 : ∀ a, (![0, 18, 0] : Fin 3 → Nat) a + S1x1x64.size a ≤ S1x19x64.size a
  bcast_S_S4x19x64 : S_.BroadcastsInDim S4x19x64 (![] : Fin 0 → Fin S4x19x64.rank)
  slices_S4x19x64_S4x19x1_0_0_0 : S4x19x64.Slices ![0, 0, 0] S4x19x1
  shapeCasts_S4x19x1_S4x19 : S4x19x1.ShapeCasts S4x19
  bcast_S_S4x19 : S_.BroadcastsInDim S4x19 (![] : Fin 0 → Fin S4x19.rank)
  bcast_S4x19_S4x19x1_0_1 : S4x19.BroadcastsInDim S4x19x1 (![0, 1] : Fin 2 → Fin S4x19x1.rank)
  bcast_S4x19x1_S4x19x64_0_1_2 : S4x19x1.BroadcastsInDim S4x19x64 (![0, 1, 2] : Fin 3 → Fin S4x19x64.rank)
  bcast_S19x64_S1x19x64_1_2 : S19x64.BroadcastsInDim S1x19x64 (![1, 2] : Fin 2 → Fin S1x19x64.rank)
  bcast_S1x19x64_S4x19x64_0_1_2 : S1x19x64.BroadcastsInDim S4x19x64 (![0, 1, 2] : Fin 3 → Fin S4x19x64.rank)
  shapeCasts_S64_S64x1x1 : S64.ShapeCasts S64x1x1
  broadcasts_S64x1x1_S64x32x512 : S64x1x1.Broadcasts S64x32x512
  shapeCasts_S64x32x512_S1x64x32x512 : S64x32x512.ShapeCasts S1x64x32x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x32x512.size a ≤ S4x64x512x512.size a
  hwx0_0 : ∀ i : grid0.Coords, EltTy.bits .f32 = 32 ∨ (Rect.block (s := S4x64x512x512) S1x64x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x512.size a ≤ S4x512x512.size a
  hwx0_1 : ∀ i : grid0.Coords, EltTy.bits .i32 = 32 ∨ (Rect.block (s := S4x512x512) S1x32x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x19x64.size a ≤ S4x19x64.size a
  hwx0_2 : ∀ i : grid0.Coords, EltTy.bits .f32 = 32 ∨ (Rect.block (s := S4x19x64) S1x19x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x19x64.size a ≤ S4x19x64.size a
  hwx0_3 : ∀ i : grid0.Coords, EltTy.bits .f32 = 32 ∨ (Rect.block (s := S4x19x64) S1x19x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x19x64.size a ≤ S4x19x64.size a
  hwx0_4 : ∀ i : grid0.Coords, EltTy.bits .f32 = 32 ∨ (Rect.block (s := S4x19x64) S1x19x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x32x512.size a ≤ S4x64x512x512.size a
  hwx1_0 : ∀ i : grid1.Coords, EltTy.bits .f32 = 32 ∨ (Rect.block (s := S4x64x512x512) S1x64x32x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x32x512.size a ≤ S4x512x512.size a
  hwx1_1 : ∀ i : grid1.Coords, EltTy.bits .i32 = 32 ∨ (Rect.block (s := S4x512x512) S1x32x512.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x19x64.size a ≤ S4x19x64.size a
  hwx1_2 : ∀ i : grid1.Coords, EltTy.bits .f32 = 32 ∨ (Rect.block (s := S4x19x64) S1x19x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x19x64.size a ≤ S4x19x64.size a
  hwx1_3 : ∀ i : grid1.Coords, EltTy.bits .f32 = 32 ∨ (Rect.block (s := S4x19x64) S1x19x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x19x64.size a ≤ S4x19x64.size a
  hwx1_4 : ∀ i : grid1.Coords, EltTy.bits .f32 = 32 ∨ (Rect.block (s := S4x19x64) S1x19x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x19x64.size a ≤ S4x19x64.size a
  hwx1_5 : ∀ i : grid1.Coords, EltTy.bits .f32 = 32 ∨ (Rect.block (s := S4x19x64) S1x19x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x64x32x512.size a ≤ S4x64x512x512.size a
  hwx1_6 : ∀ i : grid1.Coords, EltTy.bits .f32 = 32 ∨ (Rect.block (s := S4x64x512x512) S1x64x32x512.size (cc1_transform_6 i) (hinb1_6 i)).WholeWords (EltTy.packing .f32)

variable [Facts₀]

abbrev win0_0 : Pipeline.Window sig grid0 :=
  Pipeline.Window.ofSpec (Memref.whole main_arg0) S1x64x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x19x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x19x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x19x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1x64x32x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x32x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x19x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x19x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x19x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x19x64.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v30) S1x64x32x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4x64x512x512 : Shape := ⟨4, ![4, 64, 512, 512]⟩
abbrev S4x512x512 : Shape := ⟨3, ![4, 512, 512]⟩
abbrev S19x64 : Shape := ⟨2, ![19, 64]⟩
abbrev S4x64x262144 : Shape := ⟨3, ![4, 64, 262144]⟩
abbrev S4x262144x64 : Shape := ⟨3, ![4, 262144, 64]⟩
abbrev S1048576x64 : Shape := ⟨2, ![1048576, 64]⟩
abbrev S4x262144 : Shape := ⟨2, ![4, 262144]⟩
abbrev S4 : Shape := ⟨1, ![4]⟩
abbrev S4x1 : Shape := ⟨2, ![4, 1]⟩
abbrev S_ : Shape := ⟨0, ![]⟩
abbrev S1048576 : Shape := ⟨1, ![1048576]⟩
abbrev S76 : Shape := ⟨1, ![76]⟩
abbrev S1048576x1 : Shape := ⟨2, ![1048576, 1]⟩
abbrev S76x64 : Shape := ⟨2, ![76, 64]⟩
abbrev S76x1 : Shape := ⟨2, ![76, 1]⟩
abbrev S4x19 : Shape := ⟨2, ![4, 19]⟩
abbrev S4x19x1 : Shape := ⟨3, ![4, 19, 1]⟩
abbrev S1x19x64 : Shape := ⟨3, ![1, 19, 64]⟩
abbrev S4x19x64 : Shape := ⟨3, ![4, 19, 64]⟩

abbrev nBuf : Space → Nat
  | .hbm => 147
  | .vmem => 0
  | .smem => 0
  | _ => 0

abbrev hbmTy0_0 (i : Nat) : BufTy := match i % 128 with
  | 0 => ⟨S4x64x512x512, .f32⟩
  | 1 => ⟨S4x512x512, .i32⟩
  | 2 => ⟨S19x64, .f32⟩
  | 3 => ⟨S19x64, .f32⟩
  | 4 => ⟨S4x64x262144, .f32⟩
  | 5 => ⟨S4x262144x64, .f32⟩
  | 6 => ⟨S1048576x64, .f32⟩
  | 7 => ⟨S4x262144, .i32⟩
  | 8 => ⟨S4, .i32⟩
  | 9 => ⟨S4x1, .i32⟩
  | 10 => ⟨S_, .i32⟩
  | 11 => ⟨S4x1, .i32⟩
  | 12 => ⟨S4x1, .i32⟩
  | 13 => ⟨S4x262144, .i32⟩
  | 14 => ⟨S4x262144, .i32⟩
  | 15 => ⟨S1048576, .i32⟩
  | 16 => ⟨S_, .f32⟩
  | 17 => ⟨S1048576, .f32⟩
  | 18 => ⟨S_, .f32⟩
  | 19 => ⟨S76, .f32⟩
  | 20 => ⟨S1048576x1, .i32⟩
  | 21 => ⟨S76, .f32⟩
  | 22 => ⟨S_, .f32⟩
  | 23 => ⟨S76x64, .f32⟩
  | 24 => ⟨S1048576x1, .i32⟩
  | 25 => ⟨S76x64, .f32⟩
  | 26 => ⟨S1048576x64, .f32⟩
  | 27 => ⟨S_, .f32⟩
  | 28 => ⟨S76x64, .f32⟩
  | 29 => ⟨S1048576x1, .i32⟩
  | 30 => ⟨S76x64, .f32⟩
  | 31 => ⟨S_, .f32⟩
  | 32 => ⟨S76, .f32⟩
  | 33 => ⟨S76, .f32⟩
  | 34 => ⟨S76x1, .f32⟩
  | 35 => ⟨S76x64, .f32⟩
  | 36 => ⟨S76x64, .f32⟩
  | 37 => ⟨S76x64, .f32⟩
  | 38 => ⟨S76x64, .f32⟩
  | 39 => ⟨S76x64, .f32⟩
  | 40 => ⟨S76x64, .f32⟩
  | 41 => ⟨S_, .f32⟩
  | 42 => ⟨S76, .f32⟩
  | 43 => ⟨S76, .f32⟩
  | 44 => ⟨S_, .f32⟩
  | 45 => ⟨S76, .f32⟩
  | 46 => ⟨S76, .f32⟩
  | 47 => ⟨S76x1, .f32⟩
  | 48 => ⟨S76x64, .f32⟩
  | 49 => ⟨S76x64, .f32⟩
  | 50 => ⟨S_, .f32⟩
  | 51 => ⟨S76x64, .f32⟩
  | 52 => ⟨S76x64, .f32⟩
  | 53 => ⟨S76x64, .f32⟩
  | 54 => ⟨S_, .f32⟩
  | 55 => ⟨S76x64, .f32⟩
  | 56 => ⟨S76x64, .f32⟩
  | 57 => ⟨S_, .f32⟩
  | 58 => ⟨S76, .f32⟩
  | 59 => ⟨S76, .i1⟩
  | 60 => ⟨S_, .i32⟩
  | 61 => ⟨S1048576, .i32⟩
  | 62 => ⟨S1048576, .i1⟩
  | 63 => ⟨S_, .i32⟩
  | 64 => ⟨S1048576, .i32⟩
  | 65 => ⟨S1048576, .i32⟩
  | 66 => ⟨S1048576, .i32⟩
  | 67 => ⟨S1048576x1, .i32⟩
  | 68 => ⟨S1048576, .i1⟩
  | 69 => ⟨S1048576x1, .i1⟩
  | 70 => ⟨S_, .i32⟩
  | 71 => ⟨S1048576, .i32⟩
  | 72 => ⟨S1048576, .i1⟩
  | 73 => ⟨S_, .i32⟩
  | 74 => ⟨S1048576, .i32⟩
  | 75 => ⟨S1048576, .i32⟩
  | 76 => ⟨S1048576, .i32⟩
  | 77 => ⟨S1048576x1, .i32⟩
  | 78 => ⟨S1048576x64, .f32⟩
  | 79 => ⟨S_, .f32⟩
  | 80 => ⟨S_, .f32⟩
  | 81 => ⟨S1048576x64, .i1⟩
  | 82 => ⟨S1048576x64, .f32⟩
  | 83 => ⟨S1048576x64, .f32⟩
  | 84 => ⟨S_, .i32⟩
  | 85 => ⟨S1048576, .i32⟩
  | 86 => ⟨S1048576, .i1⟩
  | 87 => ⟨S_, .i32⟩
  | 88 => ⟨S1048576, .i32⟩
  | 89 => ⟨S1048576, .i32⟩
  | 90 => ⟨S1048576, .i32⟩
  | 91 => ⟨S1048576x1, .i32⟩
  | 92 => ⟨S1048576x64, .f32⟩
  | 93 => ⟨S_, .f32⟩
  | 94 => ⟨S_, .f32⟩
  | 95 => ⟨S1048576x64, .i1⟩
  | 96 => ⟨S1048576x64, .f32⟩
  | 97 => ⟨S1048576x64, .f32⟩
  | 98 => ⟨S1048576, .i32⟩
  | 99 => ⟨S_, .i32⟩
  | 100 => ⟨S1048576, .i32⟩
  | 101 => ⟨S1048576, .i1⟩
  | 102 => ⟨S_, .i32⟩
  | 103 => ⟨S1048576, .i32⟩
  | 104 => ⟨S1048576, .i32⟩
  | 105 => ⟨S1048576, .i32⟩
  | 106 => ⟨S1048576x1, .i32⟩
  | 107 => ⟨S1048576x64, .f32⟩
  | 108 => ⟨S_, .f32⟩
  | 109 => ⟨S_, .f32⟩
  | 110 => ⟨S1048576x64, .i1⟩
  | 111 => ⟨S1048576x64, .f32⟩
  | 112 => ⟨S1048576x64, .f32⟩
  | 113 => ⟨S_, .i32⟩
  | 114 => ⟨S1048576, .i32⟩
  | 115 => ⟨S1048576, .i1⟩
  | 116 => ⟨S_, .i32⟩
  | 117 => ⟨S1048576, .i32⟩
  | 118 => ⟨S1048576, .i32⟩
  | 119 => ⟨S1048576, .i32⟩
  | 120 => ⟨S1048576x1, .i32⟩
  | 121 => ⟨S1048576x64, .f32⟩
  | 122 => ⟨S_, .f32⟩
  | 123 => ⟨S_, .f32⟩
  | 124 => ⟨S1048576x64, .i1⟩
  | 125 => ⟨S1048576x64, .f32⟩
  | 126 => ⟨S1048576x64, .f32⟩
  | 127 => ⟨S1048576x64, .f32⟩
  | _ => ⟨S4x64x512x512, .f32⟩

abbrev hbmTy0_1 (i : Nat) : BufTy := match i % 128 with
  | 0 => ⟨S1048576x64, .f32⟩
  | 1 => ⟨S1048576x64, .f32⟩
  | 2 => ⟨S1048576x64, .f32⟩
  | 3 => ⟨S4x262144x64, .f32⟩
  | 4 => ⟨S4x64x262144, .f32⟩
  | 5 => ⟨S4x64x512x512, .f32⟩
  | 6 => ⟨S4x19, .i1⟩
  | 7 => ⟨S4x19x1, .i1⟩
  | 8 => ⟨S1x19x64, .f32⟩
  | 9 => ⟨S4x19x1, .f32⟩
  | 10 => ⟨S4x19x64, .f32⟩
  | 11 => ⟨S4x19x64, .f32⟩
  | 12 => ⟨S4x19x64, .f32⟩
  | 13 => ⟨S4x19x1, .i1⟩
  | 14 => ⟨S1x19x64, .f32⟩
  | 15 => ⟨S4x19x1, .f32⟩
  | 16 => ⟨S4x19x64, .f32⟩
  | 17 => ⟨S4x19x64, .f32⟩
  | 18 => ⟨S4x19x64, .f32⟩
  | _ => ⟨S4x64x512x512, .f32⟩

abbrev hbmTy (i : Nat) : BufTy := match i / 128 with
  | 0 => hbmTy0_0 i
  | 1 => hbmTy0_1 i
  | _ => ⟨S4x64x512x512, .f32⟩

abbrev bufTy : (tb : Table) → Fin (tcTables nBuf tb) → BufTy
  | .hbm, ⟨i, _⟩ => hbmTy i
  | _, _ => ⟨S4x64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_c_9 : Ref sig .tc := ⟨.hbm, 60, rfl⟩
abbrev main_v45 : Ref sig .tc := ⟨.hbm, 61, rfl⟩
abbrev main_v46 : Ref sig .tc := ⟨.hbm, 62, rfl⟩
abbrev main_c_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_11 : Ref sig .tc := ⟨.hbm, 70, rfl⟩
abbrev main_v53 : Ref sig .tc := ⟨.hbm, 71, rfl⟩
abbrev main_v54 : Ref sig .tc := ⟨.hbm, 72, rfl⟩
abbrev main_c_12 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_13 : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_v60 : Ref sig .tc := ⟨.hbm, 83, rfl⟩
abbrev main_c_14 : Ref sig .tc := ⟨.hbm, 84, rfl⟩
abbrev main_v61 : Ref sig .tc := ⟨.hbm, 85, rfl⟩
abbrev main_v62 : Ref sig .tc := ⟨.hbm, 86, rfl⟩
abbrev main_c_15 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_16 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_v68 : Ref sig .tc := ⟨.hbm, 97, rfl⟩
abbrev main_v69 : Ref sig .tc := ⟨.hbm, 98, rfl⟩
abbrev main_c_17 : Ref sig .tc := ⟨.hbm, 99, rfl⟩
abbrev main_v70 : Ref sig .tc := ⟨.hbm, 100, rfl⟩
abbrev main_v71 : Ref sig .tc := ⟨.hbm, 101, rfl⟩
abbrev main_c_18 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_19 : Ref sig .tc := ⟨.hbm, 108, rfl⟩
abbrev main_call2_v0 : Ref sig .tc := ⟨.hbm, 109, rfl⟩
abbrev main_call2_v1 : Ref sig .tc := ⟨.hbm, 110, rfl⟩
abbrev main_call2_v2 : Ref sig .tc := ⟨.hbm, 111, rfl⟩
abbrev main_v77 : Ref sig .tc := ⟨.hbm, 112, rfl⟩
abbrev main_c_20 : Ref sig .tc := ⟨.hbm, 113, rfl⟩
abbrev main_v78 : Ref sig .tc := ⟨.hbm, 114, rfl⟩
abbrev main_v79 : Ref sig .tc := ⟨.hbm, 115, rfl⟩
abbrev main_c_21 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_22 : Ref sig .tc := ⟨.hbm, 122, rfl⟩
abbrev main_call3_v0 : Ref sig .tc := ⟨.hbm, 123, rfl⟩
abbrev main_call3_v1 : Ref sig .tc := ⟨.hbm, 124, rfl⟩
abbrev main_call3_v2 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩

abbrev nD : Nat := 1
abbrev τ : Topo := Topo.v7x

variable {F : FTy → Type} [FloatOps F]

class Facts₀ : Prop where
  shapeCasts_S4x64x512x512_S4x64x262144 : S4x64x512x512.ShapeCasts S4x64x262144
  transposes_S4x64x262144_S4x262144x64_0_2_1 : S4x64x262144.Transposes [0, 2, 1] S4x262144x64
  shapeCasts_S4x262144x64_S1048576x64 : S4x262144x64.ShapeCasts S1048576x64
  shapeCasts_S4x512x512_S4x262144 : S4x512x512.ShapeCasts S4x262144
  bcast_S4_S4x1_0 : S4.BroadcastsInDim S4x1 (![0] : Fin 1 → Fin S4x1.rank)
  bcast_S_S4x1 : S_.BroadcastsInDim S4x1 (![] : Fin 0 → Fin S4x1.rank)
  bcast_S4x1_S4x262144_0_1 : S4x1.BroadcastsInDim S4x262144 (![0, 1] : Fin 2 → Fin S4x262144.rank)
  shapeCasts_S4x262144_S1048576 : S4x262144.ShapeCasts S1048576
  bcast_S_S1048576 : S_.BroadcastsInDim S1048576 (![] : Fin 0 → Fin S1048576.rank)
  bcast_S_S76 : S_.BroadcastsInDim S76 (![] : Fin 0 → Fin S76.rank)
  bcast_S1048576_S1048576x1_0 : S1048576.BroadcastsInDim S1048576x1 (![0] : Fin 1 → Fin S1048576x1.rank)
  bcast_S_S76x64 : S_.BroadcastsInDim S76x64 (![] : Fin 0 → Fin S76x64.rank)
  bcast_S76_S76x1_0 : S76.BroadcastsInDim S76x1 (![0] : Fin 1 → Fin S76x1.rank)
  bcast_S76x1_S76x64_0_1 : S76x1.BroadcastsInDim S76x64 (![0, 1] : Fin 2 → Fin S76x64.rank)
  bcast_S1048576x1_S1048576x64_0_1 : S1048576x1.BroadcastsInDim S1048576x64 (![0, 1] : Fin 2 → Fin S1048576x64.rank)
  bcast_S_S1048576x64 : S_.BroadcastsInDim S1048576x64 (![] : Fin 0 → Fin S1048576x64.rank)
  shapeCasts_S1048576x64_S4x262144x64 : S1048576x64.ShapeCasts S4x262144x64
  transposes_S4x262144x64_S4x64x262144_0_2_1 : S4x262144x64.Transposes [0, 2, 1] S4x64x262144
  shapeCasts_S4x64x262144_S4x64x512x512 : S4x64x262144.ShapeCasts S4x64x512x512
  shapeCasts_S76_S4x19 : S76.ShapeCasts S4x19
  bcast_S4x19_S4x19x1_0_1 : S4x19.BroadcastsInDim S4x19x1 (![0, 1] : Fin 2 → Fin S4x19x1.rank)
  bcast_S19x64_S1x19x64_1_2 : S19x64.BroadcastsInDim S1x19x64 (![1, 2] : Fin 2 → Fin S1x19x64.rank)
  bcast_S4x19x1_S4x19x64_0_1_2 : S4x19x1.BroadcastsInDim S4x19x64 (![0, 1, 2] : Fin 3 → Fin S4x19x64.rank)
  bcast_S1x19x64_S4x19x64_0_1_2 : S1x19x64.BroadcastsInDim S4x19x64 (![0, 1, 2] : Fin 3 → Fin S4x19x64.rank)
  scatter_S76_S1048576x1_S1048576_n_0_0_1_wf : ScatterDims.WF S76 S1048576x1 S1048576 [] [0] [0] 1
  scatter_S76x64_S1048576x1_S1048576x64_1_0_0_1_wf : ScatterDims.WF S76x64 S1048576x1 S1048576x64 [1] [0] [0] 1
  gather_S76_S1048576x1_S1048576_n_0_n_n_0_1_1_wf : GatherDims.WF S76 S1048576x1 S1048576 [] [0] [] [0] [] 1 ![1]
  gather_S76x64_S1048576x1_S1048576x64_1_0_n_n_0_1_164_wf : GatherDims.WF S76x64 S1048576x1 S1048576x64 [1] [0] [] [0] [] 1 ![1, 64]
  gather_S19x64_S1048576x1_S1048576x64_1_0_n_n_0_1_164_wf : GatherDims.WF S19x64 S1048576x1 S1048576x64 [1] [0] [] [0] [] 1 ![1, 64]

variable [Facts₀]

def scatter_S76_S1048576x1_S1048576_n_0_0_1 : ScatterDims S76 S1048576x1 S1048576 where
  updateWindowDims := []
  insertedWindowDims := [0]
  scatterDimsToOperandDims := [0]
  indexVectorDim := 1
  wf := scatter_S76_S1048576x1_S1048576_n_0_0_1_wf
def scatter_S76x64_S1048576x1_S1048576x64_1_0_0_1 : ScatterDims S76x64 S1048576x1 S1048576x64 where
  updateWindowDims := [1]
  insertedWindowDims := [0]
  scatterDimsToOperandDims := [0]
  indexVectorDim := 1
  wf := scatter_S76x64_S1048576x1_S1048576x64_1_0_0_1_wf
def gather_S76_S1048576x1_S1048576_n_0_n_n_0_1_1 : GatherDims S76 S1048576x1 S1048576 where
  offsetDims := []
  collapsedSliceDims := [0]
  operandBatchingDims := []
  startIndicesBatchingDims := []
  startIndexMap := [0]
  indexVectorDim := 1
  sliceSizes := ![1]
  wf := gather_S76_S1048576x1_S1048576_n_0_n_n_0_1_1_wf
def gather_S76x64_S1048576x1_S1048576x64_1_0_n_n_0_1_164 : GatherDims S76x64 S1048576x1 S1048576x64 where
  offsetDims := [1]
  collapsedSliceDims := [0]
  operandBatchingDims := []
  startIndicesBatchingDims := []
  startIndexMap := [0]
  indexVectorDim := 1
  sliceSizes := ![1, 64]
  wf := gather_S76x64_S1048576x1_S1048576x64_1_0_n_n_0_1_164_wf
def gather_S19x64_S1048576x1_S1048576x64_1_0_n_n_0_1_164 : GatherDims S19x64 S1048576x1 S1048576x64 where
  offsetDims := [1]
  collapsedSliceDims := [0]
  operandBatchingDims := []
  startIndicesBatchingDims := []
  startIndexMap := [0]
  indexVectorDim := 1
  sliceSizes := ![1, 64]
  wf := gather_S19x64_S1048576x1_S1048576x64_1_0_n_n_0_1_164_wf

class Facts : Prop extends Facts₀ where

variable [Facts]
-- ==== Proof.Spec.lean ====
/-
  The mathematics both programs compute, stated once over literal shapes and the extended reals, with no program in sight.

  Inputs: a feature map x[b, c, h, w] (4 × 64 × 512 × 512), a label map y[b, h, w] with labels in 0 … 18, and two
  style tables sm[k, c], ss[k, c] (19 × 64).  For a batch entry b and a class k:
    cntS  = the number of pixels of b labelled k,
    sum1  = the sum of x over those pixels, per channel,
    sum2  = the sum of x² over those pixels, per channel
  (each written as a sum over ALL pixels of b of the term times the indicator `ind` of the label).  From these three
  numbers a class's mean, its unbiased standard deviation (+ ε) and its validity (more than six pixels) follow by the
  scalar chain below, and the result at a pixel is the affine map (x − mean) / std · ss + sm of the pixel's own class,
  the tables replaced by (0, 1, 0, 1) where the class is not valid.
-/
import Idealize.ShloMosaic.PureOps.Ideal
import Idealize.ShloMosaic.Lib.ValueIdx

noncomputable section

namespace AdaIN

open Idealize.ShloMosaic Idealize.ShloMosaic.ValueIdx

/-! ## Shapes -/

abbrev SX : Shape := ⟨4, ![4, 64, 512, 512]⟩
abbrev SY : Shape := ⟨3, ![4, 512, 512]⟩
abbrev ST : Shape := ⟨2, ![19, 64]⟩
abbrev SBKC : Shape := ⟨3, ![4, 19, 64]⟩
abbrev SBK : Shape := ⟨2, ![4, 19]⟩
/-- One grid point's block of x: a batch entry's 64 channels × 32 rows × 512 columns. -/
abbrev SXB : Shape := ⟨4, ![1, 64, 32, 512]⟩
/-- One grid point's block of y. -/
abbrev SYB : Shape := ⟨3, ![1, 32, 512]⟩

/-! ## The four literals -/

def c0 : EReal := Ideal.ofBits .f32 0x00000000#32
def c1 : EReal := Ideal.ofBits .f32 0x3F800000#32
def c6 : EReal := Ideal.ofBits .f32 0x40C00000#32
def ceps : EReal := Ideal.ofBits .f32 0x3727C5AC#32

/-! ## The indicator of a label and the three statistics -/

/-- 1 where the label word is class k, 0 elsewhere. -/
def ind (yv : BitVec 32) (k : Fin 19) : EReal := if yv = BitVec.ofNat 32 k.val then 1 else 0

/-- The class of a label word (labels are in range: the word's value; the remainder makes it total). -/
def cls (yv : BitVec 32) : Fin 19 := ⟨yv.toNat % 19, Nat.mod_lt _ (by decide)⟩

def cntS (y : SY.Idx → BitVec 32) (b : Fin 4) (k : Fin 19) : EReal :=
  ∑ h : Fin 512, ∑ w : Fin 512, ind (y (ix3 b h w)) k

def sum1 (x : SX.Idx → EReal) (y : SY.Idx → BitVec 32) (b : Fin 4) (k : Fin 19) (c : Fin 64) : EReal :=
  ∑ h : Fin 512, ∑ w : Fin 512, x (ix4 b c h w) * ind (y (ix3 b h w)) k

def sum2 (x : SX.Idx → EReal) (y : SY.Idx → BitVec 32) (b : Fin 4) (k : Fin 19) (c : Fin 64) : EReal :=
  ∑ h : Fin 512, ∑ w : Fin 512, x (ix4 b c h w) * ind (y (ix3 b h w)) k * x (ix4 b c h w)

/-- The same three sums over one block of 32 rows (a grid point of the statistics pass). -/
def tileN (y1 : SYB.Idx → BitVec 32) (k : Fin 19) : EReal :=
  ∑ r : Fin 32, ∑ w : Fin 512, ind (y1 (ix3 0 r w)) k

def tile1 (x0 : SXB.Idx → EReal) (y1 : SYB.Idx → BitVec 32) (k : Fin 19) (c : Fin 64) : EReal :=
  ∑ r : Fin 32, ∑ w : Fin 512, x0 (ix4 0 c r w) * ind (y1 (ix3 0 r w)) k

def tile2 (x0 : SXB.Idx → EReal) (y1 : SYB.Idx → BitVec 32) (k : Fin 19) (c : Fin 64) : EReal :=
  ∑ r : Fin 32, ∑ w : Fin 512, x0 (ix4 0 c r w) * ind (y1 (ix3 0 r w)) k * x0 (ix4 0 c r w)

/-! ## The scalar chain from (sum1, sum2, count) to the tables -/

def nSafe (n : EReal) : EReal := max n c1
def meanOf (s1 n : EReal) : EReal := Ideal.div s1 (nSafe n)
def varOf (s1 s2 n : EReal) : EReal :=
  Ideal.div (s2 - nSafe n * meanOf s1 n * meanOf s1 n) (max (n - c1) c1)
def stdOf (s1 s2 n : EReal) : EReal := Ideal.sqrt (max (varOf s1 s2 n) c0) + ceps
/-- A class takes part when it covers more than six pixels (nv: the count the test reads). -/
def validOf (nv : EReal) : BitVec 1 := Ideal.cmp .ogt nv c6

def meanT (s1 n nv : EReal) : EReal := Scalar.select (validOf nv) (meanOf s1 n) c0
def stdT (s1 s2 n nv : EReal) : EReal := Scalar.select (validOf nv) (stdOf s1 s2 n) c1
def smT (nv smv : EReal) : EReal := Scalar.select (validOf nv) smv c0
def ssT (nv ssv : EReal) : EReal := Scalar.select (validOf nv) ssv c1

/-- The affine map of one pixel. -/
def affine (xv mean std ssv smv : EReal) : EReal := Ideal.div (xv - mean) std * ssv + smv

/-- A validity bit as a number. -/
def bitf (v : BitVec 1) : EReal := ((v.toNat : ℝ) : EReal)

/-! ## The four results -/

def outAt (x : SX.Idx → EReal) (y : SY.Idx → BitVec 32) (sm ss : ST.Idx → EReal) (b : Fin 4) (c : Fin 64) (h w : Fin 512) : EReal :=
  let k := cls (y (ix3 b h w))
  let n := cntS y b k
  affine (x (ix4 b c h w)) (meanT (sum1 x y b k c) n n) (stdT (sum1 x y b k c) (sum2 x y b k c) n n)
    (ssT n (ss (ix2 k c))) (smT n (sm (ix2 k c)))

def validAt (y : SY.Idx → BitVec 32) (b : Fin 4) (k : Fin 19) : BitVec 1 := validOf (cntS y b k)

def styleAt (y : SY.Idx → BitVec 32) (tab : ST.Idx → EReal) (b : Fin 4) (k : Fin 19) (c : Fin 64) : EReal :=
  bitf (validAt y b k) * tab (ix2 k c)

/-- The labels are in range. -/
def InRange (y : SY.Idx → BitVec 32) : Prop := ∀ i, 0 ≤ (y i).toInt ∧ (y i).toInt < 19

end AdaIN

end
-- ==== Proof.Pre.lean ====
/-
  The precondition, read back: where the printed predicate is all ones, every label word lies in 0 … 18.
  The predicate is a conjunction whose last conjunct says `0 ≤ y ∧ y < 19` of every label: an and-reduction, over all
  label positions, of the bitwise and of two signed comparisons of the label word with the constants 0 and 19.
-/
import proofs.«404495_j52321291600115_2_alg».proof.Pre_finite_inputs
import proofs.«404495_j52321291600115_2_alg».proof.Proof.Spec
import Idealize.ShloMosaic.Lib.ReduceAll

noncomputable section

namespace Cert.Pre_finite_inputs.Val

open Cert.Pre_finite_inputs Idealize.ShloMosaic AdaIN

instance : Subsingleton S_.Idx := ⟨fun a b => funext fun d => d.elim0⟩

/-- A predicate that holds puts every label in range: the last conjunct is an and-reduction over all label positions,
    so each position's bit is set, and that bit is the conjunction of `0 ≤ y` and `y < 19` read signed. -/
theorem inRange_of_pre [Facts] {F : FTy → Type} [FloatOps F] (x : FVec F S4x64x512x512 .f32) (y : IVec S4x512x512 32)
    (sm ss : FVec F S19x64 .f32) (h : fn (F := F) x y sm ss = fun _ => 1#1) : InRange y := by
  intro i
  have h0 := congrFun h ValueIdx.ix0
  dsimp only [fn, fn_part1] at h0
  obtain ⟨-, h1⟩ := IntOp.andi_eq_one.1 h0
  have h2 := Host.reduce_andi_all _ _ _ _ _ h1 i
  obtain ⟨h3, h4⟩ := IntOp.andi_eq_one.1 h2
  have h5 := IntOp.cmpi_sge.1 h3
  have h6 := IntOp.cmpi_slt.1 h4
  exact ⟨h5, h6⟩

end Cert.Pre_finite_inputs.Val

end
-- ==== Proof.Stats0A.lean ====
import proofs.«404495_j52321291600115_2_alg».proof.Proof.Spec
import proofs.«404495_j52321291600115_2_alg».proof.Proof.Gen.KernelIdeal.Frame
import Idealize.ShloMosaic.Lib.ValueLayout
import Idealize.ShloMosaic.Lib.Pipeline.Value
import Idealize.ShloMosaic.PureOps.Ideal.Laws
import Idealize.ShloMosaic.Lib.StableHlo.Predicate

noncomputable section

namespace Cert.KernelIdeal.Val

open Idealize.ShloMosaic Idealize.ShloMosaic.TcCoe Idealize.SL.Sem Idealize.ShloMosaic.ValueIdx AdaIN
open Cert.KernelIdeal Cert.KernelIdeal.Gen

/-! A grid point that opens a batch entry (row block 0) clears the three accumulators and then adds its block's sums:
    row k of each accumulator ends at the block's sum for class k. -/

/-! ## One label's indicator, and a class's mask over the block -/

/-- The indicator of a label as the body computes it: the comparison's bit, widened to a word, read as a number. -/
theorem sa_mask_elem (y q : BitVec 32) :
    Scalar.sitofp (F := Ideal) .f32 ((IntOp.cmpi .eq y q).setWidth 32) = if y = q then 1 else 0 := by
  rw [Ideal.scalar_sitofp_def]
  by_cases h : y = q
  · rw [if_pos h, StableHlo.Predicate.cmpi_eq_iff.mpr h]
    norm_num
  · rw [if_neg h, eq_zero_of_ne_one (fun e => h (StableHlo.Predicate.cmpi_eq_iff.mp e))]
    norm_num

/-- The mask of class `q` over the block: the labels compared with `q`, as numbers, repeated along the channels. -/
abbrev sa_maskOf (v6 : IVec S32x512 32) (q : BitVec 32) : FVec Ideal S64x32x512 .f32 :=
  broadcastTo S64x32x512 (shapeCast S1x32x512 (shapeCast S1x32x512 (sitofp (F := Ideal) .f32 (extui 32 (cmpi .eq v6 (broadcast S32x512 q)) natLt_1_32)) shapeCasts_S32x512_S1x32x512) shapeCasts_S1x32x512_S1x32x512) broadcasts_S1x32x512_S64x32x512

/-- At channel `c`, row `r`, column `w` the mask is the indicator of the label at `(r, w)`. -/
theorem sa_mask_apply (v6 : IVec S32x512 32) (q : BitVec 32) (c : Fin 64) (r : Fin 32) (w : Fin 512) :
    sa_maskOf v6 q (ix3 c r w) = if v6 (ix2 r w) = q then 1 else 0 := by
  refine (broadcastTo_apply _ _ (ix3 c r w) (ix3 (0 : Fin 1) r w) ?_).trans ?_
  · intro a
    match a with
    | ⟨0, _⟩ => rfl
    | ⟨1, _⟩ => rfl
    | ⟨2, _⟩ => rfl
  rw [shapeCast_self]
  refine (shapeCast_ab_1ab_apply _ _ 0 r w).trans ?_
  exact sa_mask_elem _ _

/-- The two nested sums (over the columns, then over the rows) of a block, at a channel: the double sum. -/
theorem sa_red2_apply (src : FVec Ideal S64x32x512 .f32) (c : Fin 64) :
    multiReduction .add [1] S64 (multiReduction .add [2] S64x32 src 0x00000000#32 reduces_S64x32x512_S64x32 (.inl rfl) rfl) 0x00000000#32 reduces_S64x32_S64 (.inl rfl) rfl (ix1 c)
      = ∑ r : Fin 32, ∑ w : Fin 512, src (ix3 c r w) := by
  refine (Ideal.multiReduction_add_single _ 0x00000000#32 reduces_S64x32_S64 (.inl rfl) rfl (ix1 c)).trans ?_
  refine Finset.sum_congr rfl fun r _ => ?_
  refine (Ideal.multiReduction_add_single src 0x00000000#32 reduces_S64x32x512_S64x32 (.inl rfl) rfl _).trans ?_
  refine Finset.sum_congr rfl fun w _ => ?_
  refine congrArg src (funext fun a => ?_)
  match a with
  | ⟨0, _⟩ => rfl
  | ⟨1, _⟩ => rfl
  | ⟨2, _⟩ => rfl

/-! ## An accumulator block filled row by row over a zero block -/

theorem sa_hz3 : (![0, 0, 0] : Fin 3 → Nat) = fun _ => 0 := funext fun a => by fin_cases a <;> rfl
theorem sa_hz4 : (![0, 0, 0, 0] : Fin 4 → Nat) = fun _ => 0 := funext fun a => by fin_cases a <;> rfl

/-- The rows below `j` of the block hold `G`, the rows from `j` on hold zero. -/
def sa_RowsDone (G : Fin 19 → Fin 64 → EReal) (j : ℕ) (T : List (View.Piece (Elt Ideal) S1x19x64 .f32)) : Prop :=
  ∀ (k : Fin 19) (ch : Fin 64), (View.canon T (ix3 0 k ch) : EReal) = if k.val < j then G k ch else 0

/-- A block of zeros has no row done. -/
theorem sa_rowsDone_base (G : Fin 19 → Fin 64 → EReal) (inb) (w : S1x19x64.Idx → EReal)
    (hw : ∀ (k : Fin 19) (ch : Fin 64), w (ix3 0 k ch) = 0) :
    sa_RowsDone G 0 [(⟨Rect.unit ![0, 0, 0] S1x19x64.size inb, w⟩ : View.Piece (Elt Ideal) S1x19x64 .f32)] := by
  intro k ch
  rw [View.canon_unit_zero sa_hz3, if_neg (Nat.not_lt_zero _)]
  exact hw k ch

/-- Storing row `j` as what it held plus `G`'s row makes one more row done: the rows below keep `G`, row `j` held zero,
    the rows above are not touched. -/
theorem sa_rowsDone_step (G : Fin 19 → Fin 64 → EReal) (j : ℕ) (hj : j < 19) (inb) (w : S1x1x64.Idx → EReal)
    (T : List (View.Piece (Elt Ideal) S1x19x64 .f32)) (hT : sa_RowsDone G j T)
    (hw : ∀ ch : Fin 64, w (ix3 0 0 ch) = (View.canon T (ix3 0 ⟨j, hj⟩ ch) : EReal) + G ⟨j, hj⟩ ch) :
    sa_RowsDone G (j + 1) ((⟨Rect.unit ![0, j, 0] ![1, 1, 64] inb, w⟩ : View.Piece (Elt Ideal) S1x19x64 .f32) :: T) := by
  intro k ch
  by_cases hk : k.val = j
  · have he : (Rect.unit ![0, j, 0] ![1, 1, 64] inb : Rect S1x19x64).emb (ix3 0 0 ch) = ix3 0 k ch := by
      funext a
      match a with
      | ⟨0, _⟩ => exact Fin.ext (by show 0 + 1 * 0 = 0; omega)
      | ⟨1, _⟩ => exact Fin.ext (by show j + 1 * 0 = k.val; omega)
      | ⟨2, _⟩ => exact Fin.ext (by show 0 + 1 * ch.val = ch.val; omega)
    rw [← he, View.canon_cons_emb, hw ch, if_pos (by omega), hT ⟨j, hj⟩ ch, if_neg (Nat.lt_irrefl j), zero_add]
    exact congrArg (fun q => G q ch) (Fin.ext hk.symm)
  · rw [View.canon_cons_of_not_mem _ _ (by
      rw [Rect.mem_set_unit]
      intro h
      have h1 := h 1
      have e1 : (![0, j, 0] : Fin 3 → Nat) 1 = j := rfl
      have e2 : ((ix3 (0 : Fin 1) k ch : S1x19x64.Idx) 1 : Nat) = k.val := rfl
      have e3 : (![1, 1, 64] : Fin 3 → Nat) 1 = 1 := rfl
      rw [e1, e2, e3] at h1
      omega), hT k ch]
    by_cases hlt : k.val < j
    · rw [if_pos hlt, if_pos (by omega)]
    · rw [if_neg hlt, if_neg (by omega)]

/-! ## One row's store and the body's loads, read at an element -/

/-- Row `j` loaded after the stores `T` is what they leave there. -/
theorem sa_load_row {sg : RefSig} (vw : View sg .tc .vmem S1x19x64 .f32) (T : List (View.Piece (Elt Ideal) S1x19x64 .f32)) (j : ℕ) (hj : j < 19) (inb)
    (ch : Fin 64) :
    vw.readCov T (Rect.unit ![0, j, 0] ![1, 1, 64] inb : Rect S1x19x64).toLoadRect (ix3 0 0 ch) = View.canon T (ix3 0 ⟨j, hj⟩ ch) := by
  rw [View.readCov_eq_canon']
  refine congrArg (View.canon T) (funext fun a => ?_)
  match a with
  | ⟨0, _⟩ => exact Fin.ext (by show 0 + 1 * 0 = 0; omega)
  | ⟨1, _⟩ => exact Fin.ext (by show j + 1 * 0 = j; omega)
  | ⟨2, _⟩ => exact Fin.ext (by show 0 + 1 * ch.val = ch.val; omega)

/-- A row's stored value, at a channel: the row as loaded plus the class's sum `S` there. -/
theorem sa_row_form (S : FVec Ideal S64 .f32) (v : Vec Ideal S1x1x64 .f32) (ch : Fin 64) :
    (shapeCast S1x1x64 (addf (shapeCast S64 v shapeCasts_S1x1x64_S64) S) shapeCasts_S64_S1x1x64 : FVec Ideal S1x1x64 .f32)
      (ix3 0 0 ch) = v (ix3 0 0 ch) + S (ix1 ch) := by
  refine (shapeCast_apply _ _ (ix3 (0 : Fin 1) (0 : Fin 1) ch) (ix1 ch) ?_).trans ?_
  · rw [Shape.rowMajor_val_one, Shape.rowMajor_val_three]
    show ch.val = (0 * 1 + 0) * 64 + ch.val
    omega
  show shapeCast S64 v shapeCasts_S1x1x64_S64 (ix1 ch) + S (ix1 ch) = _
  refine congrArg (· + S (ix1 ch)) (shapeCast_apply v _ (ix1 ch) (ix3 (0 : Fin 1) (0 : Fin 1) ch) ?_)
  rw [Shape.rowMajor_val_one, Shape.rowMajor_val_three]
  show (0 * 1 + 0) * 64 + ch.val = ch.val
  omega

/-- The block of x as the body holds it (its leading unit axis dropped). -/
theorem sa_x_load (arg2 : Memref sig .tc .vmem S1x64x32x512 .f32) (harg2 : arg2.IsWhole) (x0 : Vec Ideal S1x64x32x512 .f32) (c : Fin 64) (r : Fin 32) (w : Fin 512) :
    (shapeCast S64x32x512 (View.readAt (Elt Ideal) arg2.view (Rect.unit ![0, 0, 0, 0] S1x64x32x512.size inb_S1x64x32x512_S1x64x32x512_0_0_0_0).toLoadRect (harg2.unread x0)) shapeCasts_S1x64x32x512_S64x32x512 : FVec Ideal S64x32x512 .f32) (ix3 c r w)
      = x0 (ix4 0 c r w) := by
  refine (shapeCast_1abc_abc_apply _ _ c r w).trans ?_
  rw [View.readAt_eq_ld, harg2.read_unread]
  exact congrFun (View.ld_unit_zero (S := S1x64x32x512) sa_hz4 _ x0) _

/-- The block of labels as the body holds it (its leading unit axis dropped). -/
theorem sa_y_load (arg3 : Memref sig .tc .vmem S1x32x512 .i32) (harg3 : arg3.IsWhole) (x1 : Vec Ideal S1x32x512 .i32) (r : Fin 32) (w : Fin 512) :
    (shapeCast S32x512 (View.readAt (Elt Ideal) arg3.view (Rect.unit ![0, 0, 0] S1x32x512.size inb_S1x32x512_S1x32x512_0_0_0).toLoadRect (harg3.unread x1)) shapeCasts_S1x32x512_S32x512 : IVec S32x512 32) (ix2 r w)
      = x1 (ix3 0 r w) := by
  refine (shapeCast_1ab_ab_apply _ _ r w).trans ?_
  rw [View.readAt_eq_ld, harg3.read_unread]
  exact congrFun (View.ld_unit_zero (S := S1x32x512) sa_hz3 _ x1) _

/-- The block of zeros the accumulators are cleared with. -/
theorem sa_zero_form (k : Fin 19) (ch : Fin 64) :
    (shapeCast S1x19x64 (broadcast S19x64 (Scalar.ofBits (F := Ideal) .f32 0x00000000#32)) shapeCasts_S19x64_S1x19x64 : FVec Ideal S1x19x64 .f32) (ix3 0 k ch) = 0 := by
  refine (shapeCast_ab_1ab_apply _ _ 0 k ch).trans ?_
  exact Ideal.ofBits_zero_f32

/-! ## A class's three sums over the block -/

/-- The sum of x over the class's pixels. -/
theorem sa_sum1_form (v4 : FVec Ideal S64x32x512 .f32) (v6 : IVec S32x512 32) (x0 : Vec Ideal S1x64x32x512 .f32) (x1 : Vec Ideal S1x32x512 .i32)
    (hv4 : ∀ c r w, v4 (ix3 c r w) = x0 (ix4 0 c r w)) (hv6 : ∀ r w, v6 (ix2 r w) = x1 (ix3 0 r w)) (k : Fin 19) (q : BitVec 32) (hq : q = BitVec.ofNat 32 k.val) (ch : Fin 64) :
    multiReduction .add [1] S64 (multiReduction .add [2] S64x32 (mulf v4 (sa_maskOf v6 q)) 0x00000000#32 reduces_S64x32x512_S64x32 (.inl rfl) rfl) 0x00000000#32 reduces_S64x32_S64 (.inl rfl) rfl (ix1 ch)
      = tile1 x0 x1 k ch := by
  refine (sa_red2_apply _ ch).trans ?_
  unfold tile1 ind
  refine Finset.sum_congr rfl fun r _ => Finset.sum_congr rfl fun w _ => ?_
  show v4 (ix3 ch r w) * sa_maskOf v6 q (ix3 ch r w) = _
  rw [hv4, sa_mask_apply, hv6, hq]

/-- The sum of x² over the class's pixels. -/
theorem sa_sum2_form (v4 : FVec Ideal S64x32x512 .f32) (v6 : IVec S32x512 32) (x0 : Vec Ideal S1x64x32x512 .f32) (x1 : Vec Ideal S1x32x512 .i32)
    (hv4 : ∀ c r w, v4 (ix3 c r w) = x0 (ix4 0 c r w)) (hv6 : ∀ r w, v6 (ix2 r w) = x1 (ix3 0 r w)) (k : Fin 19) (q : BitVec 32) (hq : q = BitVec.ofNat 32 k.val) (ch : Fin 64) :
    multiReduction .add [1] S64 (multiReduction .add [2] S64x32 (mulf (mulf v4 (sa_maskOf v6 q)) v4) 0x00000000#32 reduces_S64x32x512_S64x32 (.inl rfl) rfl) 0x00000000#32 reduces_S64x32_S64 (.inl rfl) rfl (ix1 ch)
      = tile2 x0 x1 k ch := by
  refine (sa_red2_apply _ ch).trans ?_
  unfold tile2 ind
  refine Finset.sum_congr rfl fun r _ => Finset.sum_congr rfl fun w _ => ?_
  show v4 (ix3 ch r w) * sa_maskOf v6 q (ix3 ch r w) * v4 (ix3 ch r w) = _
  rw [hv4, sa_mask_apply, hv6, hq]

/-- The number of the class's pixels (the same at every channel). -/
theorem sa_sumN_form (v6 : IVec S32x512 32) (x1 : Vec Ideal S1x32x512 .i32)
    (hv6 : ∀ r w, v6 (ix2 r w) = x1 (ix3 0 r w)) (k : Fin 19) (q : BitVec 32) (hq : q = BitVec.ofNat 32 k.val) (ch : Fin 64) :
    multiReduction .add [1] S64 (multiReduction .add [2] S64x32 (sa_maskOf v6 q) 0x00000000#32 reduces_S64x32x512_S64x32 (.inl rfl) rfl) 0x00000000#32 reduces_S64x32_S64 (.inl rfl) rfl (ix1 ch)
      = tileN x1 k := by
  refine (sa_red2_apply _ ch).trans ?_
  unfold tileN ind
  refine Finset.sum_congr rfl fun r _ => Finset.sum_congr rfl fun w _ => ?_
  rw [sa_mask_apply, hv6, hq]

open Lean Elab Tactic Meta in
/-- Opens, in the goal, the names that stand for the body's intermediate values (its loads, and the vectors one class's
    statements hand to the next) and for its printed arithmetic; the named lists of stores stay closed. -/
elab "sa_open" : tactic => do
  let g ← getMainGoal
  let isVal (n : Name) : Bool :=
    match n with
    | .str (.str _ "sl") last => last.startsWith "r" || last.startsWith "v"
    | .str _ last => last.startsWith "k0_pay"
    | _ => false
  let t ← instantiateMVars (← g.getType)
  let t' ← Meta.deltaExpand t isVal
  replaceMainGoal [← g.replaceTargetDefEq t']

/-! ## The three accumulators after the point -/

theorem out_A_2 (c : Dev nD) (i : grid0.Coords) (arg2 : Memref sig .tc .vmem S1x64x32x512 .f32) (harg2 : arg2.IsWhole) (arg3 : Memref sig .tc .vmem S1x32x512 .i32) (harg3 : arg3.IsWhole) (arg4 : Memref sig .tc .vmem S1x19x64 .f32) (harg4 : arg4.IsWhole) (arg5 : Memref sig .tc .vmem S1x19x64 .f32) (harg5 : arg5.IsWhole) (arg6 : Memref sig .tc .vmem S1x19x64 .f32) (harg6 : arg6.IsWhole) (hc0 : cond0_0 i)
    (x0 : Vec Ideal S1x64x32x512 .f32) (x1 : Vec Ideal S1x32x512 .i32) (k : Fin 19) (ch : Fin 64) :
    out0_A_2 (F := Ideal) c i arg2 harg2 arg3 harg3 arg4 harg4 arg5 harg5 arg6 harg6 hc0 x0 x1 (ix3 0 k ch) = tile1 x0 x1 k ch := by
  unfold out0_A_2
  rw [View.read_writes_eq_canon _ _ _ (cover0_A_2 c i arg2 harg2 arg3 harg3 arg4 harg4 arg5 harg5 arg6 harg6 hc0 x0 x1)]
  unfold kernelRun0_A
  dsimp only
  refine (?_ : sa_RowsDone (tile1 x0 x1) 19 _) k ch |>.trans (if_pos k.isLt)
  iterate 19
    refine sa_rowsDone_step _ _ (by decide) _ _ _ ?_ ?_
    rotate_left
    · intro ch'
      sa_open
      dsimp only
      refine (sa_row_form _ _ ch').trans ?_
      refine congrArg₂ (· + ·) (sa_load_row _ _ _ _ _ ch') ?_
      refine sa_sum1_form _ _ x0 x1 ?_ ?_ _ _ ?_ ch'
      · exact sa_x_load arg2 harg2 x0
      · exact sa_y_load arg3 harg3 x1
      · rfl
  refine sa_rowsDone_base _ _ _ ?_
  sa_open
  exact sa_zero_form

theorem out_A_3 (c : Dev nD) (i : grid0.Coords) (arg2 : Memref sig .tc .vmem S1x64x32x512 .f32) (harg2 : arg2.IsWhole) (arg3 : Memref sig .tc .vmem S1x32x512 .i32) (harg3 : arg3.IsWhole) (arg4 : Memref sig .tc .vmem S1x19x64 .f32) (harg4 : arg4.IsWhole) (arg5 : Memref sig .tc .vmem S1x19x64 .f32) (harg5 : arg5.IsWhole) (arg6 : Memref sig .tc .vmem S1x19x64 .f32) (harg6 : arg6.IsWhole) (hc0 : cond0_0 i)
    (x0 : Vec Ideal S1x64x32x512 .f32) (x1 : Vec Ideal S1x32x512 .i32) (k : Fin 19) (ch : Fin 64) :
    out0_A_3 (F := Ideal) c i arg2 harg2 arg3 harg3 arg4 harg4 arg5 harg5 arg6 harg6 hc0 x0 x1 (ix3 0 k ch) = tile2 x0 x1 k ch := by
  unfold out0_A_3
  rw [View.read_writes_eq_canon _ _ _ (cover0_A_3 c i arg2 harg2 arg3 harg3 arg4 harg4 arg5 harg5 arg6 harg6 hc0 x0 x1)]
  unfold kernelRun0_A
  dsimp only
  refine (?_ : sa_RowsDone (tile2 x0 x1) 19 _) k ch |>.trans (if_pos k.isLt)
  iterate 19
    refine sa_rowsDone_step _ _ (by decide) _ _ _ ?_ ?_
    rotate_left
    · intro ch'
      sa_open
      dsimp only
      refine (sa_row_form _ _ ch').trans ?_
      refine congrArg₂ (· + ·) (sa_load_row _ _ _ _ _ ch') ?_
      refine sa_sum2_form _ _ x0 x1 ?_ ?_ _ _ ?_ ch'
      · exact sa_x_load arg2 harg2 x0
      · exact sa_y_load arg3 harg3 x1
      · rfl
  refine sa_rowsDone_base _ _ _ ?_
  sa_open
  exact sa_zero_form

theorem out_A_4 (c : Dev nD) (i : grid0.Coords) (arg2 : Memref sig .tc .vmem S1x64x32x512 .f32) (harg2 : arg2.IsWhole) (arg3 : Memref sig .tc .vmem S1x32x512 .i32) (harg3 : arg3.IsWhole) (arg4 : Memref sig .tc .vmem S1x19x64 .f32) (harg4 : arg4.IsWhole) (arg5 : Memref sig .tc .vmem S1x19x64 .f32) (harg5 : arg5.IsWhole) (arg6 : Memref sig .tc .vmem S1x19x64 .f32) (harg6 : arg6.IsWhole) (hc0 : cond0_0 i)
    (x0 : Vec Ideal S1x64x32x512 .f32) (x1 : Vec Ideal S1x32x512 .i32) (k : Fin 19) (ch : Fin 64) :
    out0_A_4 (F := Ideal) c i arg2 harg2 arg3 harg3 arg4 harg4 arg5 harg5 arg6 harg6 hc0 x0 x1 (ix3 0 k ch) = tileN x1 k := by
  unfold out0_A_4
  rw [View.read_writes_eq_canon _ _ _ (cover0_A_4 c i arg2 harg2 arg3 harg3 arg4 harg4 arg5 harg5 arg6 harg6 hc0 x0 x1)]
  unfold kernelRun0_A
  dsimp only
  refine (?_ : sa_RowsDone (fun k _ => tileN x1 k) 19 _) k ch |>.trans (if_pos k.isLt)
  iterate 19
    refine sa_rowsDone_step _ _ (by decide) _ _ _ ?_ ?_
    rotate_left
    · intro ch'
      sa_open
      dsimp only
      refine (sa_row_form _ _ ch').trans ?_
      refine congrArg₂ (· + ·) (sa_load_row _ _ _ _ _ ch') ?_
      refine sa_sumN_form _ x1 ?_ _ _ ?_ ch'
      · exact sa_y_load arg3 harg3 x1
      · rfl
  refine sa_rowsDone_base _ _ _ ?_
  sa_open
  exact sa_zero_form

end Cert.KernelIdeal.Val

end
-- ==== Proof.Stats0B.lean ====
import proofs.«404495_j52321291600115_2_alg».proof.Proof.Spec
import proofs.«404495_j52321291600115_2_alg».proof.Proof.Gen.KernelIdeal.Frame
import Idealize.ShloMosaic.Lib.ValueLayout
import Idealize.ShloMosaic.Lib.Pipeline.Value
import Idealize.ShloMosaic.Lib.StableHlo.Predicate
import Idealize.ShloMosaic.PureOps.Ideal.Laws

noncomputable section

namespace Cert.KernelIdeal.Val

open Idealize.ShloMosaic Idealize.ShloMosaic.TcCoe Idealize.SL.Sem Idealize.ShloMosaic.ValueIdx AdaIN
open Cert.KernelIdeal Cert.KernelIdeal.Gen

/-! A later grid point of a batch entry adds its block's sums to what the accumulators held (xo2, xo3, xo4).

Each accumulator block [1, 19, 64] is written by nineteen row stores, row k holding the old row k plus the class-k sum
of the point's input block. All nineteen are the restriction of ONE function of the block's index (`SB.G2`, `SB.G3`,
`SB.G4`), so the block read back is that function. Per element, over the extended reals: the mask of class k is the
indicator of the label (`SB.ind_word`, `SB.mask_apply`), and the two nested sums over the lanes and then the rows
are the double sum (`SB.red2`). -/

namespace SB

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Row k of the accumulator block, at lane ch: the index the row rectangle names. -/
theorem row_idx (k : Nat) (hk : k < 19) (inb : ∀ a, (![0, k, 0] : Fin 3 → Nat) a + (![1, 1, 64] : Fin 3 → Nat) a ≤ S1x19x64.size a) (ch : Fin 64) :
    (Rect.unit (s := S1x19x64) ![0, k, 0] ![1, 1, 64] inb).idx (ix3 (0 : Fin 1) (0 : Fin 1) ch)
      = ix3 (0 : Fin 1) (⟨k, hk⟩ : Fin 19) ch := by
  funext a
  apply Fin.ext
  match a with
  | ⟨0, _⟩ => rfl
  | ⟨1, _⟩ => show k + 1 * 0 = k; omega
  | ⟨2, _⟩ => show 0 + 1 * ch.val = ch.val; omega

/-- A widened equality bit, converted, is the indicator of the equality. -/
theorem ind_word (a kk : BitVec 32) :
    (FloatOps.sitofp (F := Ideal) .f32 ((IntOp.cmpi .eq a kk).setWidth 32) : EReal) = if a = kk then 1 else 0 := by
  show (((((IntOp.cmpi .eq a kk).setWidth 32).toInt : ℝ)) : EReal) = _
  by_cases h : a = kk
  · rw [if_pos h, StableHlo.Predicate.cmpi_eq_iff.mpr h]
    have e : ((1#1 : BitVec 1).setWidth 32).toInt = 1 := by decide
    rw [e]; simp
  · have h0 : IntOp.cmpi .eq a kk = 0#1 := eq_zero_of_ne_one (fun h1 => h (StableHlo.Predicate.cmpi_eq_iff.mp h1))
    rw [if_neg h, h0]
    have e : ((0#1 : BitVec 1).setWidth 32).toInt = 0 := by decide
    rw [e]; simp

/-- The class mask broadcast over the channels, read at (ch, r, w): the indicator of the label at (r, w). -/
theorem mask_apply (v6 : IVec S32x512 32) (kk : BitVec 32) (hlt : 1 < 32) (h1 : S32x512.ShapeCasts S1x32x512)
    (h2 : S1x32x512.ShapeCasts S1x32x512) (h3 : S1x32x512.Broadcasts S64x32x512) (ch : Fin 64) (r : Fin 32) (w : Fin 512) :
    broadcastTo S64x32x512 (shapeCast S1x32x512 (shapeCast S1x32x512
        (sitofp (F := Ideal) .f32 (extui 32 (cmpi .eq v6 (broadcast S32x512 kk)) hlt)) h1) h2) h3 (ix3 ch r w)
      = if v6 (ix2 r w) = kk then 1 else 0 := by
  refine (broadcastTo_apply _ h3 (ix3 ch r w) (ix3 (0 : Fin 1) r w) (fun a => ?_)).trans ?_
  · match a with
    | ⟨0, _⟩ => rfl
    | ⟨1, _⟩ => rfl
    | ⟨2, _⟩ => rfl
  rw [shapeCast_self]
  refine (shapeCast_ab_1ab_apply _ h1 (0 : Fin 1) r w).trans ?_
  exact ind_word (v6 (ix2 r w)) kk

/-- The two nested sums over the lanes then the rows of a [64, 32, 512] vector are the double sum. -/
theorem red2 (X : FVec Ideal S64x32x512 .f32) (h1 : S64x32x512.Reduces [2] S64x32) (h2 : S64x32.Reduces [1] S64)
    (hφ : FTy.f32 = FTy.f32 ∨ FTy.f32 = FTy.bf16) (hacc : (0x00000000#32 : BitVec 32) = 0x00000000#32) (ch : Fin 64) :
    multiReduction .add [1] S64 (multiReduction .add [2] S64x32 X 0x00000000#32 h1 hφ hacc) 0x00000000#32 h2 hφ hacc (ix1 ch)
      = ∑ r : Fin 32, ∑ w : Fin 512, X (ix3 ch r w) := by
  refine (Ideal.multiReduction_add_single _ 0x00000000#32 h2 hφ hacc (ix1 ch)).trans ?_
  refine Finset.sum_congr rfl fun r _ => ?_
  refine (Ideal.multiReduction_add_single X 0x00000000#32 h1 hφ hacc _).trans ?_
  refine Finset.sum_congr rfl fun w _ => ?_
  refine congrArg X (funext fun a => ?_)
  match a with
  | ⟨0, _⟩ => rfl
  | ⟨1, _⟩ => rfl
  | ⟨2, _⟩ => rfl

theorem up_apply (v : FVec Ideal S64 .f32) (h : S64.ShapeCasts S1x1x64) (ch : Fin 64) :
    shapeCast S1x1x64 v h (ix3 (0 : Fin 1) (0 : Fin 1) ch) = v (ix1 ch) :=
  shapeCast_apply v h _ _ (by
    rw [Shape.rowMajor_val_three, Shape.rowMajor_val_one]
    show ch.val = (0 * 1 + 0) * 64 + ch.val
    omega)

theorem dn_apply (v : Vec Ideal S1x1x64 .f32) (h : S1x1x64.ShapeCasts S64) (ch : Fin 64) :
    shapeCast S64 v h (ix1 ch) = v (ix3 (0 : Fin 1) (0 : Fin 1) ch) :=
  shapeCast_apply v h _ _ (by
    rw [Shape.rowMajor_val_three, Shape.rowMajor_val_one]
    show (0 * 1 + 0) * 64 + ch.val = ch.val
    omega)

theorem x_apply {α : Type} (v3 : S1x64x32x512.Idx → α) (h : S1x64x32x512.ShapeCasts S64x32x512) (ch : Fin 64) (r : Fin 32) (w : Fin 512) :
    shapeCast S64x32x512 v3 h (ix3 ch r w) = v3 (ix4 (0 : Fin 1) ch r w) :=
  shapeCast_1abc_abc_apply v3 h ch r w

theorem y_apply {α : Type} (v5 : S1x32x512.Idx → α) (h : S1x32x512.ShapeCasts S32x512) (r : Fin 32) (w : Fin 512) :
    shapeCast S32x512 v5 h (ix2 r w) = v5 (ix3 (0 : Fin 1) r w) :=
  shapeCast_1ab_ab_apply v5 h r w

end SB

namespace SB

/-- A load of row k of an accumulator block, at lane ch. -/
theorem ld_row (X : S1x19x64.Idx → EReal) (k : Nat) (hk : k < 19)
    (inb : ∀ a, (![0, k, 0] : Fin 3 → Nat) a + (![1, 1, 64] : Fin 3 → Nat) a ≤ S1x19x64.size a) (ch : Fin 64) :
    View.ld (Val := Elt Ideal) (e' := .f32) X (Rect.unit (s := S1x19x64) ![0, k, 0] ![1, 1, 64] inb) (ix3 (0 : Fin 1) (0 : Fin 1) ch)
      = X (ix3 (0 : Fin 1) (⟨k, hk⟩ : Fin 19) ch) :=
  congrArg X (row_idx k hk inb ch)

/-- A store of row k: it is one function G of the block's index on its rectangle as soon as it is at every lane. -/
theorem piece_ok (G : S1x19x64.Idx → EReal) (k : Nat) (hk : k < 19)
    (inb : ∀ a, (![0, k, 0] : Fin 3 → Nat) a + (![1, 1, 64] : Fin 3 → Nat) a ≤ S1x19x64.size a)
    (P : FVec Ideal S1x1x64 .f32)
    (h : ∀ ch : Fin 64, P (ix3 (0 : Fin 1) (0 : Fin 1) ch) = G (ix3 (0 : Fin 1) (⟨k, hk⟩ : Fin 19) ch)) :
    ∀ x : (Rect.unit (s := S1x19x64) ![0, k, 0] ![1, 1, 64] inb).shape.Idx,
      P x = G ((Rect.unit (s := S1x19x64) ![0, k, 0] ![1, 1, 64] inb).emb x) := by
  intro x
  obtain ⟨a, b, c, rfl⟩ : ∃ (a : Fin 1) (b : Fin 1) (c : Fin 64), x = ix3 a b c := ⟨x 0, x 1, x 2, eq_ix3 x⟩
  obtain rfl : a = 0 := Subsingleton.elim _ _
  obtain rfl : b = 0 := Subsingleton.elim _ _
  show P _ = G ((Rect.unit (s := S1x19x64) ![0, k, 0] ![1, 1, 64] inb).idx _)
  rw [row_idx k hk inb c]
  exact h c

/-- What a later grid point leaves in the first accumulator: the old contents plus the block's class sums. -/
def G2 (x0 : Vec Ideal S1x64x32x512 .f32) (x1 : Vec Ideal S1x32x512 .i32) (xo : Vec Ideal S1x19x64 .f32) : S1x19x64.Idx → EReal :=
  fun y => xo y + tile1 x0 x1 (y 1) (y 2)

end SB

namespace SB

/-- Row k of an accumulator block, loaded and flattened to its 64 lanes, at lane ch. -/
theorem dn_row (X : S1x19x64.Idx → EReal) (k : Nat) (hk : k < 19)
    (inb : ∀ a, (![0, k, 0] : Fin 3 → Nat) a + (![1, 1, 64] : Fin 3 → Nat) a ≤ S1x19x64.size a)
    (h : S1x1x64.ShapeCasts S64) (ch : Fin 64) :
    shapeCast (s := S1x1x64) (α := Ideal .f32) S64 (View.ld (Val := Elt Ideal) (e' := .f32) X (Rect.unit (s := S1x19x64) ![0, k, 0] ![1, 1, 64] inb)) h (ix1 ch)
      = X (ix3 (0 : Fin 1) (⟨k, hk⟩ : Fin 19) ch) :=
  (dn_apply _ h ch).trans (ld_row X k hk inb ch)

end SB

namespace SB

/-- The second accumulator: the old contents plus the block's class sums of squares. -/
def G3 (x0 : Vec Ideal S1x64x32x512 .f32) (x1 : Vec Ideal S1x32x512 .i32) (xo : Vec Ideal S1x19x64 .f32) : S1x19x64.Idx → EReal :=
  fun y => xo y + tile2 x0 x1 (y 1) (y 2)

/-- The third accumulator: the old contents plus the block's class counts (the same on every lane). -/
def G4 (x1 : Vec Ideal S1x32x512 .i32) (xo : Vec Ideal S1x19x64 .f32) : S1x19x64.Idx → EReal :=
  fun y => xo y + tileN x1 (y 1)

end SB

theorem out_B_2 (c : Dev nD) (i : grid0.Coords) (arg2 : Memref sig .tc .vmem S1x64x32x512 .f32) (harg2 : arg2.IsWhole) (arg3 : Memref sig .tc .vmem S1x32x512 .i32) (harg3 : arg3.IsWhole) (arg4 : Memref sig .tc .vmem S1x19x64 .f32) (harg4 : arg4.IsWhole) (arg5 : Memref sig .tc .vmem S1x19x64 .f32) (harg5 : arg5.IsWhole) (arg6 : Memref sig .tc .vmem S1x19x64 .f32) (harg6 : arg6.IsWhole) (hc0 : ¬cond0_0 i)
    (x0 : Vec Ideal S1x64x32x512 .f32) (x1 : Vec Ideal S1x32x512 .i32) (xo2 xo3 xo4 : Vec Ideal S1x19x64 .f32) (k : Fin 19) (ch : Fin 64) :
    out0_B_2 (F := Ideal) c i arg2 harg2 arg3 harg3 arg4 harg4 arg5 harg5 arg6 harg6 hc0 x0 x1 xo2 xo3 xo4 (ix3 0 k ch) = xo2 (ix3 0 k ch) + tile1 x0 x1 k ch := by
  unfold out0_B_2
  rw [View.read_writes_eq_canon _ _ _ (cover0_B_2 c i arg2 harg2 arg3 harg3 arg4 harg4 arg5 harg5 arg6 harg6 hc0 x0 x1 xo2 xo3 xo4)]
  -- the block read back is the one function every row store agrees with
  refine (View.canon_apply_of_pieces (SB.G2 x0 x1 xo2) _ ?_ (ix3 0 k ch) (cover0_B_2 c i arg2 harg2 arg3 harg3 arg4 harg4 arg5 harg5 arg6 harg6 hc0 x0 x1 xo2 xo3 xo4 (ix3 0 k ch))).trans rfl
  unfold kernelRun0_B
  dsimp only
  sl_unfold_words
  intro p hp
  simp only [List.mem_cons, List.not_mem_nil, or_false] at hp
  rcases hp with rfl | rfl | rfl | rfl | rfl | rfl | rfl | rfl | rfl | rfl | rfl | rfl | rfl | rfl | rfl | rfl | rfl | rfl | rfl
  -- row by row: the row is in range, its rectangle is in bounds, and at lane ch' the payload is the old entry plus the class sum
  all_goals
    refine SB.piece_ok _ _ ?_ ?_ _ (fun ch' => ?_)
  all_goals first
    | omega
    | decide
    | skip
  all_goals dsimp only
  all_goals simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, SB.up_apply, addf_apply, View.readAt_eq_ld, harg2.read_unread, harg3.read_unread, harg4.read_unread, View.ld_unit_zero (S := S1x64x32x512) SB.hz4, View.ld_unit_zero (S := S1x32x512) SB.hz3]
  all_goals rw [SB.red2]
  all_goals simp only [mulf_apply, SB.mask_apply, SB.x_apply, SB.y_apply]
  all_goals rw [SB.dn_row]
  all_goals first
    | omega
    | rfl

theorem out_B_3 (c : Dev nD) (i : grid0.Coords) (arg2 : Memref sig .tc .vmem S1x64x32x512 .f32) (harg2 : arg2.IsWhole) (arg3 : Memref sig .tc .vmem S1x32x512 .i32) (harg3 : arg3.IsWhole) (arg4 : Memref sig .tc .vmem S1x19x64 .f32) (harg4 : arg4.IsWhole) (arg5 : Memref sig .tc .vmem S1x19x64 .f32) (harg5 : arg5.IsWhole) (arg6 : Memref sig .tc .vmem S1x19x64 .f32) (harg6 : arg6.IsWhole) (hc0 : ¬cond0_0 i)
    (x0 : Vec Ideal S1x64x32x512 .f32) (x1 : Vec Ideal S1x32x512 .i32) (xo2 xo3 xo4 : Vec Ideal S1x19x64 .f32) (k : Fin 19) (ch : Fin 64) :
    out0_B_3 (F := Ideal) c i arg2 harg2 arg3 harg3 arg4 harg4 arg5 harg5 arg6 harg6 hc0 x0 x1 xo2 xo3 xo4 (ix3 0 k ch) = xo3 (ix3 0 k ch) + tile2 x0 x1 k ch := by
  unfold out0_B_3
  rw [View.read_writes_eq_canon _ _ _ (cover0_B_3 c i arg2 harg2 arg3 harg3 arg4 harg4 arg5 harg5 arg6 harg6 hc0 x0 x1 xo2 xo3 xo4)]
  -- the block read back is the one function every row store agrees with
  refine (View.canon_apply_of_pieces (SB.G3 x0 x1 xo3) _ ?_ (ix3 0 k ch) (cover0_B_3 c i arg2 harg2 arg3 harg3 arg4 harg4 arg5 harg5 arg6 harg6 hc0 x0 x1 xo2 xo3 xo4 (ix3 0 k ch))).trans rfl
  unfold kernelRun0_B
  dsimp only
  sl_unfold_words
  intro p hp
  simp only [List.mem_cons, List.not_mem_nil, or_false] at hp
  rcases hp with rfl | rfl | rfl | rfl | rfl | rfl | rfl | rfl | rfl | rfl | rfl | rfl | rfl | rfl | rfl | rfl | rfl | rfl | rfl
  -- row by row: the row is in range, its rectangle is in bounds, and at lane ch' the payload is the old entry plus the class sum
  all_goals
    refine SB.piece_ok _ _ ?_ ?_ _ (fun ch' => ?_)
  all_goals first
    | omega
    | decide
    | skip
  all_goals dsimp only
  all_goals simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, SB.up_apply, addf_apply, View.readAt_eq_ld, harg2.read_unread, harg3.read_unread, harg5.read_unread, View.ld_unit_zero (S := S1x64x32x512) SB.hz4, View.ld_unit_zero (S := S1x32x512) SB.hz3]
  all_goals rw [SB.red2]
  all_goals simp only [mulf_apply, SB.mask_apply, SB.x_apply, SB.y_apply]
  all_goals rw [SB.dn_row]
  all_goals first
    | omega
    | rfl

theorem out_B_4 (c : Dev nD) (i : grid0.Coords) (arg2 : Memref sig .tc .vmem S1x64x32x512 .f32) (harg2 : arg2.IsWhole) (arg3 : Memref sig .tc .vmem S1x32x512 .i32) (harg3 : arg3.IsWhole) (arg4 : Memref sig .tc .vmem S1x19x64 .f32) (harg4 : arg4.IsWhole) (arg5 : Memref sig .tc .vmem S1x19x64 .f32) (harg5 : arg5.IsWhole) (arg6 : Memref sig .tc .vmem S1x19x64 .f32) (harg6 : arg6.IsWhole) (hc0 : ¬cond0_0 i)
    (x0 : Vec Ideal S1x64x32x512 .f32) (x1 : Vec Ideal S1x32x512 .i32) (xo2 xo3 xo4 : Vec Ideal S1x19x64 .f32) (k : Fin 19) (ch : Fin 64) :
    out0_B_4 (F := Ideal) c i arg2 harg2 arg3 harg3 arg4 harg4 arg5 harg5 arg6 harg6 hc0 x0 x1 xo2 xo3 xo4 (ix3 0 k ch) = xo4 (ix3 0 k ch) + tileN x1 k := by
  unfold out0_B_4
  rw [View.read_writes_eq_canon _ _ _ (cover0_B_4 c i arg2 harg2 arg3 harg3 arg4 harg4 arg5 harg5 arg6 harg6 hc0 x0 x1 xo2 xo3 xo4)]
  -- the block read back is the one function every row store agrees with
  refine (View.canon_apply_of_pieces (SB.G4 x1 xo4) _ ?_ (ix3 0 k ch) (cover0_B_4 c i arg2 harg2 arg3 harg3 arg4 harg4 arg5 harg5 arg6 harg6 hc0 x0 x1 xo2 xo3 xo4 (ix3 0 k ch))).trans rfl
  unfold kernelRun0_B
  dsimp only
  sl_unfold_words
  intro p hp
  simp only [List.mem_cons, List.not_mem_nil, or_false] at hp
  rcases hp with rfl | rfl | rfl | rfl | rfl | rfl | rfl | rfl | rfl | rfl | rfl | rfl | rfl | rfl | rfl | rfl | rfl | rfl | rfl
  -- row by row: the row is in range, its rectangle is in bounds, and at lane ch' the payload is the old entry plus the class sum
  all_goals
    refine SB.piece_ok _ _ ?_ ?_ _ (fun ch' => ?_)
  all_goals first
    | omega
    | decide
    | skip
  all_goals dsimp only
  all_goals simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, SB.up_apply, addf_apply, View.readAt_eq_ld, harg2.read_unread, harg3.read_unread, harg6.read_unread, View.ld_unit_zero (S := S1x64x32x512) SB.hz4, View.ld_unit_zero (S := S1x32x512) SB.hz3]
  all_goals rw [SB.red2]
  all_goals simp only [mulf_apply, SB.mask_apply, SB.x_apply, SB.y_apply]
  all_goals rw [SB.dn_row]
  all_goals first
    | omega
    | rfl

end Cert.KernelIdeal.Val

end
-- ==== Proof.Stats.lean ====
import proofs.«404495_j52321291600115_2_alg».proof.Proof.Spec
import proofs.«404495_j52321291600115_2_alg».proof.Proof.Gen.KernelIdeal.Frame
import proofs.«404495_j52321291600115_2_alg».proof.Proof.Stats0A
import proofs.«404495_j52321291600115_2_alg».proof.Proof.Stats0B
import Idealize.ShloMosaic.Lib.Pipeline.Value

noncomputable section

namespace Cert.KernelIdeal.Val

open Idealize.ShloMosaic Idealize.ShloMosaic.TcCoe Idealize.SL.Sem Idealize.ShloMosaic.ValueIdx AdaIN
open Cert.KernelIdeal Cert.KernelIdeal.Gen
open Idealize.ShloMosaic.Pipeline (Dat)

/-! After the statistics pass the three result arrays hold, at (b, k, c), the sums over ALL pixels of batch entry b:
    the sixteen row blocks of b are added one grid point after the other, the first clearing the accumulator, and the
    block is written back where the batch entry changes. -/

/-! ## A running sum that restarts every sixteen points -/

/-- A quantity that restarts at the multiples of 16 with that point's addend and otherwise adds its point's addend to
    what the point before left is, at point n, the sum of the addends of the points from the last multiple of 16 to n. -/
theorem stats_restart_sum {N : ℕ} (f : (n : ℕ) → n < N → EReal) (a : ℕ → EReal)
    (h0 : ∀ (n : ℕ) (h : n < N), n % 16 = 0 → f n h = a n)
    (hs : ∀ (n : ℕ) (h : n + 1 < N), ¬(n + 1) % 16 = 0 → f (n + 1) h = f n (Nat.lt_of_succ_lt h) + a (n + 1)) :
    ∀ (n : ℕ) (h : n < N), f n h = ∑ s ∈ Finset.range (n % 16 + 1), a (n - n % 16 + s)
  | 0, h => by rw [h0 0 h rfl]; simp
  | n + 1, h => by
    by_cases hm : (n + 1) % 16 = 0
    · rw [h0 _ h hm, hm]; simp
    · rw [hs n h hm, stats_restart_sum f a h0 hs n (Nat.lt_of_succ_lt h)]
      have e1 : (n + 1) % 16 = n % 16 + 1 := by omega
      have e2 : n + 1 - (n + 1) % 16 = n - n % 16 := by omega
      rw [e2, e1, Finset.sum_range_succ _ (n % 16 + 1)]
      congr 2; omega

/-! ## Sixteen blocks of 32 rows are the 512 rows -/

/-- A sum over the 512 rows, split into sixteen blocks of 32. -/
theorem stats_sum_rows (g : Fin 512 → EReal) :
    ∑ j : Fin 16, ∑ r : Fin 32, g ⟨32 * j.val + r.val, by have := j.isLt; have := r.isLt; omega⟩ = ∑ h : Fin 512, g h := by
  rw [← Fintype.sum_prod_type' (f := fun (j : Fin 16) (r : Fin 32) => g ⟨32 * j.val + r.val, by have := j.isLt; have := r.isLt; omega⟩)]
  refine Fintype.sum_equiv (finProdFinEquiv (m := 16) (n := 32)) _ _ (fun p => ?_)
  congr 1
  apply Fin.ext
  show 32 * p.1.val + p.2.val = p.2.val + 32 * p.1.val
  omega

/-! ## Where a grid point's windows sit -/

/-- The x window at point t: batch entry t / 16, row block t % 16. -/
theorem stats_idx_x : ∀ t : Fin cfg0.N, win0_0.index t (0 : Fin 4) = t.val / 16 ∧ win0_0.index t (1 : Fin 4) = 0
    ∧ win0_0.index t (2 : Fin 4) = t.val % 16 ∧ win0_0.index t (3 : Fin 4) = 0 :=
  (by decide +kernel : ∀ t : Fin grid0.N, _)
/-- The label window at point t: batch entry t / 16, row block t % 16. -/
theorem stats_idx_y : ∀ t : Fin cfg0.N, win0_1.index t (0 : Fin 3) = t.val / 16 ∧ win0_1.index t (1 : Fin 3) = t.val % 16
    ∧ win0_1.index t (2 : Fin 3) = 0 :=
  (by decide +kernel : ∀ t : Fin grid0.N, _)
/-- The three result windows at point t: batch entry t / 16. -/
theorem stats_idx_o2 : ∀ t : Fin cfg0.N, win0_2.index t (0 : Fin 3) = t.val / 16 ∧ win0_2.index t (1 : Fin 3) = 0
    ∧ win0_2.index t (2 : Fin 3) = 0 :=
  (by decide +kernel : ∀ t : Fin grid0.N, _)
theorem stats_idx_o3 : ∀ t : Fin cfg0.N, win0_3.index t (0 : Fin 3) = t.val / 16 ∧ win0_3.index t (1 : Fin 3) = 0
    ∧ win0_3.index t (2 : Fin 3) = 0 :=
  (by decide +kernel : ∀ t : Fin grid0.N, _)
theorem stats_idx_o4 : ∀ t : Fin cfg0.N, win0_4.index t (0 : Fin 3) = t.val / 16 ∧ win0_4.index t (1 : Fin 3) = 0
    ∧ win0_4.index t (2 : Fin 3) = 0 :=
  (by decide +kernel : ∀ t : Fin grid0.N, _)

section Pass

variable (V : (c : Dev nD) → (b : Ref sig .tc) → Buf (Elt Ideal) ((c : Thread nD τ).loc b))

/-! ## The blocks a grid point reads -/

/-- The block of x a grid point reads. -/
abbrev stats_xblk (c : Dev nD) (t : Fin cfg0.N) : Vec Ideal S1x64x32x512 .f32 := iblk0 (F := Ideal) V c 0 t
/-- The block of labels a grid point reads. -/
abbrev stats_yblk (c : Dev nD) (t : Fin cfg0.N) : Vec Ideal S1x32x512 .i32 := iblk0 (F := Ideal) V c 1 t

/-- The x block of point t at (0, ch, r, w) is x at (t / 16, ch, 32 (t % 16) + r, w). -/
theorem stats_xblk_apply (c : Dev nD) (t : Fin cfg0.N) (ch : Fin 64) (r : Fin 32) (w : Fin 512) (b : Fin 4) (h : Fin 512)
    (hb : b.val = t.val / 16) (hh : h.val = 32 * (t.val % 16) + r.val) :
    stats_xblk V c t (ix4 0 ch r w) = (V c main_arg0 : SX.Idx → EReal) (ix4 b ch h w) := by
  obtain ⟨e0, e1, e2, e3⟩ := stats_idx_x t
  unfold stats_xblk iblk0
  rw [View.read_apply]
  show V c main_arg0 _ = V c main_arg0 _
  congr 1
  funext a
  apply Fin.ext
  match a with
  | ⟨0, _⟩ => show win0_0.index t 0 * 1 + 1 * 0 = b.val; rw [e0, hb]; omega
  | ⟨1, _⟩ => show win0_0.index t 1 * 64 + 1 * ch.val = ch.val; rw [e1]; omega
  | ⟨2, _⟩ => show win0_0.index t 2 * 32 + 1 * r.val = h.val; rw [e2, hh]; omega
  | ⟨3, _⟩ => show win0_0.index t 3 * 512 + 1 * w.val = w.val; rw [e3]; omega

/-- The label block of point t at (0, r, w) is the label at (t / 16, 32 (t % 16) + r, w). -/
theorem stats_yblk_apply (c : Dev nD) (t : Fin cfg0.N) (r : Fin 32) (w : Fin 512) (b : Fin 4) (h : Fin 512)
    (hb : b.val = t.val / 16) (hh : h.val = 32 * (t.val % 16) + r.val) :
    stats_yblk V c t (ix3 0 r w) = (V c main_arg1 : SY.Idx → BitVec 32) (ix3 b h w) := by
  obtain ⟨e0, e1, e2⟩ := stats_idx_y t
  unfold stats_yblk iblk0
  rw [View.read_apply]
  show V c main_arg1 _ = V c main_arg1 _
  congr 1
  funext a
  apply Fin.ext
  match a with
  | ⟨0, _⟩ => show win0_1.index t 0 * 1 + 1 * 0 = b.val; rw [e0, hb]; omega
  | ⟨1, _⟩ => show win0_1.index t 1 * 32 + 1 * r.val = h.val; rw [e1, hh]; omega
  | ⟨2, _⟩ => show win0_1.index t 2 * 512 + 1 * w.val = w.val; rw [e2]; omega

/-! ## The accumulators after each point -/

/-- The block sums of point n (zero past the grid). -/
def stats_add1 (c : Dev nD) (k : Fin 19) (ch : Fin 64) (n : ℕ) : EReal :=
  if h : n < cfg0.N then tile1 (stats_xblk V c ⟨n, h⟩) (stats_yblk V c ⟨n, h⟩) k ch else 0
def stats_add2 (c : Dev nD) (k : Fin 19) (ch : Fin 64) (n : ℕ) : EReal :=
  if h : n < cfg0.N then tile2 (stats_xblk V c ⟨n, h⟩) (stats_yblk V c ⟨n, h⟩) k ch else 0
def stats_addN (c : Dev nD) (k : Fin 19) (n : ℕ) : EReal :=
  if h : n < cfg0.N then tileN (stats_yblk V c ⟨n, h⟩) k else 0

/-- After point n the first accumulator holds, at (0, k, ch), the block sums of the points of n's batch entry up to n. -/
theorem stats_acc1 (c : Dev nD) (k : Fin 19) (ch : Fin 64) (n : ℕ) (h : n < cfg0.N) :
    (outsAt0 (F := Ideal) V c n h).1 (ix3 0 k ch) = ∑ s ∈ Finset.range (n % 16 + 1), stats_add1 V c k ch (n - n % 16 + s) := by
  refine stats_restart_sum (fun n h => (outsAt0 (F := Ideal) V c n h).1 (ix3 0 k ch)) (stats_add1 V c k ch) ?_ ?_ n h
  · intro n h hm
    show (outsAt0 (F := Ideal) V c (⟨n, h⟩ : Fin cfg0.N).val (⟨n, h⟩ : Fin cfg0.N).isLt).1 (ix3 0 k ch) = _
    rw [outsAt0_A V c ⟨n, h⟩ hm]
    dsimp only
    rw [stats_add1, dif_pos h]
    exact out_A_2 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr hm) (iblk0 V c 0 ⟨n, h⟩) (iblk0 V c 1 ⟨n, h⟩) k ch
  · intro n h hm
    show (outsAt0 (F := Ideal) V c (⟨n + 1, h⟩ : Fin cfg0.N).val (⟨n + 1, h⟩ : Fin cfg0.N).isLt).1 (ix3 0 k ch) = _
    rw [outsAt0_B V c ⟨n + 1, h⟩ hm]
    dsimp only
    rw [stats_add1, dif_pos h]
    exact out_B_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun h' => hm ((hcond0_0 ⟨n + 1, h⟩).mp h')) (iblk0 V c 0 ⟨n + 1, h⟩) (iblk0 V c 1 ⟨n + 1, h⟩) (outsAt0 V c n (Nat.lt_of_succ_lt h)).1 (outsAt0 V c n (Nat.lt_of_succ_lt h)).2.1 (outsAt0 V c n (Nat.lt_of_succ_lt h)).2.2 k ch

/-- The same for the second accumulator, the sums of squares. -/
theorem stats_acc2 (c : Dev nD) (k : Fin 19) (ch : Fin 64) (n : ℕ) (h : n < cfg0.N) :
    (outsAt0 (F := Ideal) V c n h).2.1 (ix3 0 k ch) = ∑ s ∈ Finset.range (n % 16 + 1), stats_add2 V c k ch (n - n % 16 + s) := by
  refine stats_restart_sum (fun n h => (outsAt0 (F := Ideal) V c n h).2.1 (ix3 0 k ch)) (stats_add2 V c k ch) ?_ ?_ n h
  · intro n h hm
    show (outsAt0 (F := Ideal) V c (⟨n, h⟩ : Fin cfg0.N).val (⟨n, h⟩ : Fin cfg0.N).isLt).2.1 (ix3 0 k ch) = _
    rw [outsAt0_A V c ⟨n, h⟩ hm]
    dsimp only
    rw [stats_add2, dif_pos h]
    exact out_A_3 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr hm) (iblk0 V c 0 ⟨n, h⟩) (iblk0 V c 1 ⟨n, h⟩) k ch
  · intro n h hm
    show (outsAt0 (F := Ideal) V c (⟨n + 1, h⟩ : Fin cfg0.N).val (⟨n + 1, h⟩ : Fin cfg0.N).isLt).2.1 (ix3 0 k ch) = _
    rw [outsAt0_B V c ⟨n + 1, h⟩ hm]
    dsimp only
    rw [stats_add2, dif_pos h]
    exact out_B_3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun h' => hm ((hcond0_0 ⟨n + 1, h⟩).mp h')) (iblk0 V c 0 ⟨n + 1, h⟩) (iblk0 V c 1 ⟨n + 1, h⟩) (outsAt0 V c n (Nat.lt_of_succ_lt h)).1 (outsAt0 V c n (Nat.lt_of_succ_lt h)).2.1 (outsAt0 V c n (Nat.lt_of_succ_lt h)).2.2 k ch

/-- The same for the third accumulator, the pixel counts (every channel holds the same count). -/
theorem stats_accN (c : Dev nD) (k : Fin 19) (ch : Fin 64) (n : ℕ) (h : n < cfg0.N) :
    (outsAt0 (F := Ideal) V c n h).2.2 (ix3 0 k ch) = ∑ s ∈ Finset.range (n % 16 + 1), stats_addN V c k (n - n % 16 + s) := by
  refine stats_restart_sum (fun n h => (outsAt0 (F := Ideal) V c n h).2.2 (ix3 0 k ch)) (stats_addN V c k) ?_ ?_ n h
  · intro n h hm
    show (outsAt0 (F := Ideal) V c (⟨n, h⟩ : Fin cfg0.N).val (⟨n, h⟩ : Fin cfg0.N).isLt).2.2 (ix3 0 k ch) = _
    rw [outsAt0_A V c ⟨n, h⟩ hm]
    dsimp only
    rw [stats_addN, dif_pos h]
    exact out_A_4 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr hm) (iblk0 V c 0 ⟨n, h⟩) (iblk0 V c 1 ⟨n, h⟩) k ch
  · intro n h hm
    show (outsAt0 (F := Ideal) V c (⟨n + 1, h⟩ : Fin cfg0.N).val (⟨n + 1, h⟩ : Fin cfg0.N).isLt).2.2 (ix3 0 k ch) = _
    rw [outsAt0_B V c ⟨n + 1, h⟩ hm]
    dsimp only
    rw [stats_addN, dif_pos h]
    exact out_B_4 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun h' => hm ((hcond0_0 ⟨n + 1, h⟩).mp h')) (iblk0 V c 0 ⟨n + 1, h⟩) (iblk0 V c 1 ⟨n + 1, h⟩) (outsAt0 V c n (Nat.lt_of_succ_lt h)).1 (outsAt0 V c n (Nat.lt_of_succ_lt h)).2.1 (outsAt0 V c n (Nat.lt_of_succ_lt h)).2.2 k ch

/-! ## A batch entry's sixteen blocks together -/

/-- The block sums of the sixteen points of batch entry b add up to the sum over all its pixels. -/
theorem stats_batch1 (c : Dev nD) (b : Fin 4) (k : Fin 19) (ch : Fin 64) :
    ∑ s ∈ Finset.range 16, stats_add1 V c k ch (16 * b.val + s) = sum1 (V c main_arg0) (V c main_arg1) b k ch := by
  have hN : cfg0.N = 64 := N_0
  have hb := b.isLt
  rw [Finset.sum_range]
  unfold sum1
  refine Eq.trans ?_ (stats_sum_rows _)
  refine Finset.sum_congr rfl fun j _ => ?_
  have hj := j.isLt
  have hlt : 16 * b.val + j.val < cfg0.N := by rw [hN]; omega
  rw [stats_add1, dif_pos hlt]
  unfold tile1
  refine Finset.sum_congr rfl fun r _ => Finset.sum_congr rfl fun w _ => ?_
  have hr := r.isLt
  rw [stats_xblk_apply V c ⟨16 * b.val + j.val, hlt⟩ ch r w b ⟨32 * j.val + r.val, by omega⟩
      (by show b.val = (16 * b.val + j.val) / 16; omega) (by show 32 * j.val + r.val = 32 * ((16 * b.val + j.val) % 16) + r.val; omega),
    stats_yblk_apply V c ⟨16 * b.val + j.val, hlt⟩ r w b ⟨32 * j.val + r.val, by omega⟩
      (by show b.val = (16 * b.val + j.val) / 16; omega) (by show 32 * j.val + r.val = 32 * ((16 * b.val + j.val) % 16) + r.val; omega)]

/-- The same for the sums of squares. -/
theorem stats_batch2 (c : Dev nD) (b : Fin 4) (k : Fin 19) (ch : Fin 64) :
    ∑ s ∈ Finset.range 16, stats_add2 V c k ch (16 * b.val + s) = sum2 (V c main_arg0) (V c main_arg1) b k ch := by
  have hN : cfg0.N = 64 := N_0
  have hb := b.isLt
  rw [Finset.sum_range]
  unfold sum2
  refine Eq.trans ?_ (stats_sum_rows _)
  refine Finset.sum_congr rfl fun j _ => ?_
  have hj := j.isLt
  have hlt : 16 * b.val + j.val < cfg0.N := by rw [hN]; omega
  rw [stats_add2, dif_pos hlt]
  unfold tile2
  refine Finset.sum_congr rfl fun r _ => Finset.sum_congr rfl fun w _ => ?_
  have hr := r.isLt
  rw [stats_xblk_apply V c ⟨16 * b.val + j.val, hlt⟩ ch r w b ⟨32 * j.val + r.val, by omega⟩
      (by show b.val = (16 * b.val + j.val) / 16; omega) (by show 32 * j.val + r.val = 32 * ((16 * b.val + j.val) % 16) + r.val; omega),
    stats_yblk_apply V c ⟨16 * b.val + j.val, hlt⟩ r w b ⟨32 * j.val + r.val, by omega⟩
      (by show b.val = (16 * b.val + j.val) / 16; omega) (by show 32 * j.val + r.val = 32 * ((16 * b.val + j.val) % 16) + r.val; omega)]

/-- The same for the pixel counts. -/
theorem stats_batchN (c : Dev nD) (b : Fin 4) (k : Fin 19) :
    ∑ s ∈ Finset.range 16, stats_addN V c k (16 * b.val + s) = cntS (V c main_arg1) b k := by
  have hN : cfg0.N = 64 := N_0
  have hb := b.isLt
  rw [Finset.sum_range]
  unfold cntS
  refine Eq.trans ?_ (stats_sum_rows _)
  refine Finset.sum_congr rfl fun j _ => ?_
  have hj := j.isLt
  have hlt : 16 * b.val + j.val < cfg0.N := by rw [hN]; omega
  rw [stats_addN, dif_pos hlt]
  unfold tileN
  refine Finset.sum_congr rfl fun r _ => Finset.sum_congr rfl fun w _ => ?_
  have hr := r.isLt
  rw [stats_yblk_apply V c ⟨16 * b.val + j.val, hlt⟩ r w b ⟨32 * j.val + r.val, by omega⟩
      (by show b.val = (16 * b.val + j.val) / 16; omega) (by show 32 * j.val + r.val = 32 * ((16 * b.val + j.val) % 16) + r.val; omega)]

/-! ## From the closing points' blocks to the three arrays -/

/-- The function the first result array ends at: at (b, k, ch) the sum of x over the pixels of b labelled k. -/
abbrev stats_G1 (c : Dev nD) : Buf (Elt Ideal) ((c : Thread nD τ).loc main_v0_0) :=
  fun i : S4x19x64.Idx => sum1 (V c main_arg0) (V c main_arg1) (i 0) (i 1) (i 2)
/-- The second: the sum of x² over those pixels. -/
abbrev stats_G2 (c : Dev nD) : Buf (Elt Ideal) ((c : Thread nD τ).loc main_v0_1) :=
  fun i : S4x19x64.Idx => sum2 (V c main_arg0) (V c main_arg1) (i 0) (i 1) (i 2)
/-- The third: the number of those pixels, in every channel. -/
abbrev stats_GN (c : Dev nD) : Buf (Elt Ideal) ((c : Thread nD τ).loc main_v0_2) :=
  fun i : S4x19x64.Idx => cntS (V c main_arg1) (i 0) (i 1)

/-- The point that closes a batch entry writes back that entry's block of the sums. -/
theorem stats_flushed2_eq (c : Dev nD) (t : Fin cfg0.N) (hf : (cfg0.win 2).flush t = true) :
    (dat0 V c).flushed 2 t = ((cfg0.win 2).blk t).view.read (Elt Ideal) (stats_G1 V c) := by
  have hN : cfg0.N = 64 := N_0
  have h15 : t.val % 16 = 15 := (flush0_2 t).mp hf
  have htl : t.val < 64 := lt_of_lt_of_eq t.isLt hN
  obtain ⟨e0, e1, e2⟩ := stats_idx_o2 t
  show (cfg0.win 2).cut (grid0.coords t) ((dat0 V c).after 2 t) = _
  rw [after0_2]
  funext y
  have hy0 : (y 0).val < 1 := (y 0).isLt
  have hy1 : (y 1).val < 19 := (y 1).isLt
  have hy2 : (y 2).val < 64 := (y 2).isLt
  have ey : (cfg0.win 2).xinj (grid0.coords t) y = ix3 (0 : Fin 1) ⟨(y 1).val, hy1⟩ ⟨(y 2).val, hy2⟩ := by
    funext a; apply Fin.ext
    match a with
    | ⟨0, _⟩ => show (y 0).val = 0; omega
    | ⟨1, _⟩ => rfl
    | ⟨2, _⟩ => rfl
  show (outsAt0 (F := Ideal) V c t.val t.isLt).1 ((cfg0.win 2).xinj (grid0.coords t) y) = _
  rw [ey, stats_acc1 V c _ _ t.val t.isLt]
  have hb : t.val / 16 < 4 := by omega
  have et : t.val - t.val % 16 = 16 * (⟨t.val / 16, hb⟩ : Fin 4).val := by show _ = 16 * (t.val / 16); omega
  rw [et, h15]
  show ∑ s ∈ Finset.range 16, _ = _
  rw [stats_batch1 V c ⟨t.val / 16, hb⟩, View.read_apply]
  show sum1 _ _ _ _ _ = sum1 _ _ (((cfg0.win 2).blk t).view.emb y 0) (((cfg0.win 2).blk t).view.emb y 1) (((cfg0.win 2).blk t).view.emb y 2)
  congr 1
  · apply Fin.ext; show t.val / 16 = win0_2.index t 0 * 1 + 1 * (y 0).val; rw [e0]; omega
  · apply Fin.ext; show (y 1).val = win0_2.index t 1 * 19 + 1 * (y 1).val; rw [e1]; omega
  · apply Fin.ext; show (y 2).val = win0_2.index t 2 * 64 + 1 * (y 2).val; rw [e2]; omega

/-- The same for the sums of squares. -/
theorem stats_flushed3_eq (c : Dev nD) (t : Fin cfg0.N) (hf : (cfg0.win 3).flush t = true) :
    (dat0 V c).flushed 3 t = ((cfg0.win 3).blk t).view.read (Elt Ideal) (stats_G2 V c) := by
  have hN : cfg0.N = 64 := N_0
  have h15 : t.val % 16 = 15 := (flush0_3 t).mp hf
  have htl : t.val < 64 := lt_of_lt_of_eq t.isLt hN
  obtain ⟨e0, e1, e2⟩ := stats_idx_o3 t
  show (cfg0.win 3).cut (grid0.coords t) ((dat0 V c).after 3 t) = _
  rw [after0_3]
  funext y
  have hy0 : (y 0).val < 1 := (y 0).isLt
  have hy1 : (y 1).val < 19 := (y 1).isLt
  have hy2 : (y 2).val < 64 := (y 2).isLt
  have ey : (cfg0.win 3).xinj (grid0.coords t) y = ix3 (0 : Fin 1) ⟨(y 1).val, hy1⟩ ⟨(y 2).val, hy2⟩ := by
    funext a; apply Fin.ext
    match a with
    | ⟨0, _⟩ => show (y 0).val = 0; omega
    | ⟨1, _⟩ => rfl
    | ⟨2, _⟩ => rfl
  show (outsAt0 (F := Ideal) V c t.val t.isLt).2.1 ((cfg0.win 3).xinj (grid0.coords t) y) = _
  rw [ey, stats_acc2 V c _ _ t.val t.isLt]
  have hb : t.val / 16 < 4 := by omega
  have et : t.val - t.val % 16 = 16 * (⟨t.val / 16, hb⟩ : Fin 4).val := by show _ = 16 * (t.val / 16); omega
  rw [et, h15]
  show ∑ s ∈ Finset.range 16, _ = _
  rw [stats_batch2 V c ⟨t.val / 16, hb⟩, View.read_apply]
  show sum2 _ _ _ _ _ = sum2 _ _ (((cfg0.win 3).blk t).view.emb y 0) (((cfg0.win 3).blk t).view.emb y 1) (((cfg0.win 3).blk t).view.emb y 2)
  congr 1
  · apply Fin.ext; show t.val / 16 = win0_3.index t 0 * 1 + 1 * (y 0).val; rw [e0]; omega
  · apply Fin.ext; show (y 1).val = win0_3.index t 1 * 19 + 1 * (y 1).val; rw [e1]; omega
  · apply Fin.ext; show (y 2).val = win0_3.index t 2 * 64 + 1 * (y 2).val; rw [e2]; omega

/-- The same for the pixel counts. -/
theorem stats_flushed4_eq (c : Dev nD) (t : Fin cfg0.N) (hf : (cfg0.win 4).flush t = true) :
    (dat0 V c).flushed 4 t = ((cfg0.win 4).blk t).view.read (Elt Ideal) (stats_GN V c) := by
  have hN : cfg0.N = 64 := N_0
  have h15 : t.val % 16 = 15 := (flush0_4 t).mp hf
  have htl : t.val < 64 := lt_of_lt_of_eq t.isLt hN
  obtain ⟨e0, e1, e2⟩ := stats_idx_o4 t
  show (cfg0.win 4).cut (grid0.coords t) ((dat0 V c).after 4 t) = _
  rw [after0_4]
  funext y
  have hy0 : (y 0).val < 1 := (y 0).isLt
  have hy1 : (y 1).val < 19 := (y 1).isLt
  have hy2 : (y 2).val < 64 := (y 2).isLt
  have ey : (cfg0.win 4).xinj (grid0.coords t) y = ix3 (0 : Fin 1) ⟨(y 1).val, hy1⟩ ⟨(y 2).val, hy2⟩ := by
    funext a; apply Fin.ext
    match a with
    | ⟨0, _⟩ => show (y 0).val = 0; omega
    | ⟨1, _⟩ => rfl
    | ⟨2, _⟩ => rfl
  show (outsAt0 (F := Ideal) V c t.val t.isLt).2.2 ((cfg0.win 4).xinj (grid0.coords t) y) = _
  rw [ey, stats_accN V c _ _ t.val t.isLt]
  have hb : t.val / 16 < 4 := by omega
  have et : t.val - t.val % 16 = 16 * (⟨t.val / 16, hb⟩ : Fin 4).val := by show _ = 16 * (t.val / 16); omega
  rw [et, h15]
  show ∑ s ∈ Finset.range 16, _ = _
  rw [stats_batchN V c ⟨t.val / 16, hb⟩, View.read_apply]
  show cntS _ _ _ = cntS _ (((cfg0.win 4).blk t).view.emb y 0) (((cfg0.win 4).blk t).view.emb y 1)
  congr 1
  · apply Fin.ext; show t.val / 16 = win0_4.index t 0 * 1 + 1 * (y 0).val; rw [e0]; omega
  · apply Fin.ext; show (y 1).val = win0_4.index t 1 * 19 + 1 * (y 1).val; rw [e1]; omega

/-- The four closing points' blocks are the four batch entries: the first array ends at the sums. -/
theorem stats_final1 (c : Dev nD) : (dat0 V c).arrAt 2 cfg0.N = stats_G1 V c :=
  (dat0 V c).arrAt_eq_of_cover 2 (stats_G1 V c) (stats_flushed2_eq V c) fun i => by
    have hN : cfg0.N = 64 := N_0
    have hi0 : (i 0).val < 4 := (i 0).isLt
    have hi1 : (i 1).val < 19 := (i 1).isLt
    have hi2 : (i 2).val < 64 := (i 2).isLt
    have ht : 16 * (i 0).val + 15 < cfg0.N := by rw [hN]; omega
    obtain ⟨e0, e1, e2⟩ := stats_idx_o2 ⟨16 * (i 0).val + 15, ht⟩
    refine ⟨⟨16 * (i 0).val + 15, ht⟩, (flush0_2 _).mpr (by show (16 * (i 0).val + 15) % 16 = 15; omega), ?_⟩
    show i ∈ ((View.whole main_v0_0).slice (win0_2.rect ⟨16 * (i 0).val + 15, ht⟩)).set
    rw [View.set_slice_whole, Rect.mem_set_unit]
    intro a
    match a with
    | ⟨0, _⟩ => show win0_2.index ⟨16 * (i 0).val + 15, ht⟩ 0 * 1 ≤ (i 0).val ∧ (i 0).val < win0_2.index ⟨16 * (i 0).val + 15, ht⟩ 0 * 1 + 1
                rw [e0]; show (16 * (i 0).val + 15) / 16 * 1 ≤ (i 0).val ∧ (i 0).val < (16 * (i 0).val + 15) / 16 * 1 + 1; omega
    | ⟨1, _⟩ => show win0_2.index ⟨16 * (i 0).val + 15, ht⟩ 1 * 19 ≤ (i 1).val ∧ (i 1).val < win0_2.index ⟨16 * (i 0).val + 15, ht⟩ 1 * 19 + 19
                rw [e1]; omega
    | ⟨2, _⟩ => show win0_2.index ⟨16 * (i 0).val + 15, ht⟩ 2 * 64 ≤ (i 2).val ∧ (i 2).val < win0_2.index ⟨16 * (i 0).val + 15, ht⟩ 2 * 64 + 64
                rw [e2]; omega

/-- The second array ends at the sums of squares. -/
theorem stats_final2 (c : Dev nD) : (dat0 V c).arrAt 3 cfg0.N = stats_G2 V c :=
  (dat0 V c).arrAt_eq_of_cover 3 (stats_G2 V c) (stats_flushed3_eq V c) fun i => by
    have hN : cfg0.N = 64 := N_0
    have hi0 : (i 0).val < 4 := (i 0).isLt
    have hi1 : (i 1).val < 19 := (i 1).isLt
    have hi2 : (i 2).val < 64 := (i 2).isLt
    have ht : 16 * (i 0).val + 15 < cfg0.N := by rw [hN]; omega
    obtain ⟨e0, e1, e2⟩ := stats_idx_o3 ⟨16 * (i 0).val + 15, ht⟩
    refine ⟨⟨16 * (i 0).val + 15, ht⟩, (flush0_3 _).mpr (by show (16 * (i 0).val + 15) % 16 = 15; omega), ?_⟩
    show i ∈ ((View.whole main_v0_1).slice (win0_3.rect ⟨16 * (i 0).val + 15, ht⟩)).set
    rw [View.set_slice_whole, Rect.mem_set_unit]
    intro a
    match a with
    | ⟨0, _⟩ => show win0_3.index ⟨16 * (i 0).val + 15, ht⟩ 0 * 1 ≤ (i 0).val ∧ (i 0).val < win0_3.index ⟨16 * (i 0).val + 15, ht⟩ 0 * 1 + 1
                rw [e0]; show (16 * (i 0).val + 15) / 16 * 1 ≤ (i 0).val ∧ (i 0).val < (16 * (i 0).val + 15) / 16 * 1 + 1; omega
    | ⟨1, _⟩ => show win0_3.index ⟨16 * (i 0).val + 15, ht⟩ 1 * 19 ≤ (i 1).val ∧ (i 1).val < win0_3.index ⟨16 * (i 0).val + 15, ht⟩ 1 * 19 + 19
                rw [e1]; omega
    | ⟨2, _⟩ => show win0_3.index ⟨16 * (i 0).val + 15, ht⟩ 2 * 64 ≤ (i 2).val ∧ (i 2).val < win0_3.index ⟨16 * (i 0).val + 15, ht⟩ 2 * 64 + 64
                rw [e2]; omega

/-- The third array ends at the pixel counts. -/
theorem stats_finalN (c : Dev nD) : (dat0 V c).arrAt 4 cfg0.N = stats_GN V c :=
  (dat0 V c).arrAt_eq_of_cover 4 (stats_GN V c) (stats_flushed4_eq V c) fun i => by
    have hN : cfg0.N = 64 := N_0
    have hi0 : (i 0).val < 4 := (i 0).isLt
    have hi1 : (i 1).val < 19 := (i 1).isLt
    have hi2 : (i 2).val < 64 := (i 2).isLt
    have ht : 16 * (i 0).val + 15 < cfg0.N := by rw [hN]; omega
    obtain ⟨e0, e1, e2⟩ := stats_idx_o4 ⟨16 * (i 0).val + 15, ht⟩
    refine ⟨⟨16 * (i 0).val + 15, ht⟩, (flush0_4 _).mpr (by show (16 * (i 0).val + 15) % 16 = 15; omega), ?_⟩
    show i ∈ ((View.whole main_v0_2).slice (win0_4.rect ⟨16 * (i 0).val + 15, ht⟩)).set
    rw [View.set_slice_whole, Rect.mem_set_unit]
    intro a
    match a with
    | ⟨0, _⟩ => show win0_4.index ⟨16 * (i 0).val + 15, ht⟩ 0 * 1 ≤ (i 0).val ∧ (i 0).val < win0_4.index ⟨16 * (i 0).val + 15, ht⟩ 0 * 1 + 1
                rw [e0]; show (16 * (i 0).val + 15) / 16 * 1 ≤ (i 0).val ∧ (i 0).val < (16 * (i 0).val + 15) / 16 * 1 + 1; omega
    | ⟨1, _⟩ => show win0_4.index ⟨16 * (i 0).val + 15, ht⟩ 1 * 19 ≤ (i 1).val ∧ (i 1).val < win0_4.index ⟨16 * (i 0).val + 15, ht⟩ 1 * 19 + 19
                rw [e1]; omega
    | ⟨2, _⟩ => show win0_4.index ⟨16 * (i 0).val + 15, ht⟩ 2 * 64 ≤ (i 2).val ∧ (i 2).val < win0_4.index ⟨16 * (i 0).val + 15, ht⟩ 2 * 64 + 64
                rw [e2]; omega

end Pass

theorem stats_s1 (V : (c : Dev nD) → (b : Ref sig .tc) → Buf (Elt Ideal) ((c : Thread nD τ).loc b)) (c : Dev nD) (b : Fin 4) (k : Fin 19) (ch : Fin 64) :
    ((dat0 (F := Ideal) V c).arrAt 2 cfg0.N : S4x19x64.Idx → EReal) (ix3 b k ch) = sum1 (V c main_arg0) (V c main_arg1) b k ch :=
  congrFun (stats_final1 V c) (ix3 b k ch)

theorem stats_s2 (V : (c : Dev nD) → (b : Ref sig .tc) → Buf (Elt Ideal) ((c : Thread nD τ).loc b)) (c : Dev nD) (b : Fin 4) (k : Fin 19) (ch : Fin 64) :
    ((dat0 (F := Ideal) V c).arrAt 3 cfg0.N : S4x19x64.Idx → EReal) (ix3 b k ch) = sum2 (V c main_arg0) (V c main_arg1) b k ch :=
  congrFun (stats_final2 V c) (ix3 b k ch)

theorem stats_cnt (V : (c : Dev nD) → (b : Ref sig .tc) → Buf (Elt Ideal) ((c : Thread nD τ).loc b)) (c : Dev nD) (b : Fin 4) (k : Fin 19) (ch : Fin 64) :
    ((dat0 (F := Ideal) V c).arrAt 4 cfg0.N : S4x19x64.Idx → EReal) (ix3 b k ch) = cntS (V c main_arg1) b k :=
  congrFun (stats_finalN V c) (ix3 b k ch)

end Cert.KernelIdeal.Val

end
-- ==== Proof.Apply.lean ====
import proofs.«404495_j52321291600115_2_alg».proof.Proof.Spec
import proofs.«404495_j52321291600115_2_alg».proof.Proof.Gen.KernelIdeal.Frame
import Idealize.ShloMosaic.Lib.Pipeline.Value
import Idealize.ShloMosaic.Lib.ValueLayout

noncomputable section

namespace Cert.KernelIdeal.Val

open Idealize.ShloMosaic Idealize.ShloMosaic.TcCoe Idealize.SL.Sem Idealize.ShloMosaic.ValueIdx AdaIN
open Cert.KernelIdeal Cert.KernelIdeal.Gen
open Idealize.ShloMosaic.Pipeline (Dat)

/-! The second pass blends nineteen affine maps with the label's indicators: where the labels are in range exactly one
    indicator is 1, and the result array holds, at a pixel, the affine map of the pixel's own class read off the four
    per-batch tables. -/

/-! ## Layout operations of the body read at an index -/

section Layout
variable {α : Type}

/-- A table row [1,1,64] re-laid to [64] then [64,1,1] and broadcast to [64,32,512] reads, at (ch, r, w), the row at ch. -/
theorem row_bcast_apply (v : S1x1x64.Idx → α) (h1 : S1x1x64.ShapeCasts S64) (h2 : S64.ShapeCasts S64x1x1)
    (h3 : S64x1x1.Broadcasts S64x32x512) (ch : Fin 64) (r : Fin 32) (w : Fin 512) :
    broadcastTo S64x32x512 (shapeCast S64x1x1 (shapeCast S64 v h1) h2) h3 (ix3 ch r w) = v (ix3 (0 : Fin 1) (0 : Fin 1) ch) := by
  rw [broadcastTo_apply _ h3 (ix3 ch r w) (ix3 ch (0 : Fin 1) (0 : Fin 1)) (fun a => by
    match a with
    | ⟨0, _⟩ => rfl
    | ⟨1, _⟩ => rfl
    | ⟨2, _⟩ => rfl)]
  rw [shapeCast_apply _ h2 (ix3 ch (0 : Fin 1) (0 : Fin 1)) (ix1 ch) (by
    rw [Shape.rowMajor_val_three, Shape.rowMajor_val_one]
    show ch.val = (ch.val * 1 + 0) * 1 + 0
    omega)]
  rw [shapeCast_apply _ h1 (ix1 ch) (ix3 (0 : Fin 1) (0 : Fin 1) ch) (by
    rw [Shape.rowMajor_val_three, Shape.rowMajor_val_one]
    show (0 * 1 + 0) * 64 + ch.val = ch.val
    omega)]

/-- A [32,512] map re-laid to [1,32,512] and broadcast to [64,32,512] reads, at (ch, r, w), the map at (r, w). -/
theorem map_bcast_apply (m : S32x512.Idx → α) (h1 : S32x512.ShapeCasts S1x32x512) (h2 : S1x32x512.ShapeCasts S1x32x512)
    (h3 : S1x32x512.Broadcasts S64x32x512) (ch : Fin 64) (r : Fin 32) (w : Fin 512) :
    broadcastTo S64x32x512 (shapeCast S1x32x512 (shapeCast S1x32x512 m h1) h2) h3 (ix3 ch r w) = m (ix2 r w) := by
  rw [shapeCast_self]
  rw [broadcastTo_apply _ h3 (ix3 ch r w) (ix3 (0 : Fin 1) r w) (fun a => by
    match a with
    | ⟨0, _⟩ => rfl
    | ⟨1, _⟩ => rfl
    | ⟨2, _⟩ => rfl)]
  exact shapeCast_ab_1ab_apply m h1 0 r w

end Layout

/-! ## The scalars of one class term -/

section Scalars

theorem cmpi_apply' {s : Shape} {w : ℕ} (p : CmpIPredicate) (x y : IVec s w) (i : s.Idx) : cmpi p x y i = IntOp.cmpi p (x i) (y i) := rfl

/-- The widened comparison with the class literal, read as a number, is the label's indicator. -/
theorem mask_val (yv : BitVec 32) (k : ℕ) (hk : k < 19) :
    FloatOps.sitofp (F := Ideal) .f32 ((IntOp.cmpi .eq yv (BitVec.ofNat 32 k)).setWidth 32) = ind yv ⟨k, hk⟩ := by
  have key : IntOp.cmpi .eq yv (BitVec.ofNat 32 k) = if yv = BitVec.ofNat 32 k then 1#1 else 0#1 := by
    unfold IntOp.cmpi
    by_cases h : yv = BitVec.ofNat 32 k
    · rw [if_pos h, h, beq_self_eq_true]; rfl
    · rw [if_neg h, beq_eq_false_iff_ne.mpr h]; rfl
  show (((((IntOp.cmpi .eq yv (BitVec.ofNat 32 k)).setWidth 32).toInt : ℤ) : ℝ) : EReal) = ind yv ⟨k, hk⟩
  rw [key]; unfold ind
  by_cases h : yv = BitVec.ofNat 32 k
  · rw [if_pos h, if_pos h]
    have e : ((1#1 : BitVec 1).setWidth 32).toInt = 1 := by decide
    rw [e]; norm_num
  · rw [if_neg h, if_neg h]
    have e : ((0#1 : BitVec 1).setWidth 32).toInt = 0 := by decide
    rw [e]; norm_num

theorem zero_val : (Scalar.ofBits (F := Ideal) .f32 0x00000000#32 : EReal) = 0 := by
  show Ideal.ofBits .f32 0x00000000#32 = 0
  simp [Ideal.ofBits, Ideal.ieee]

/-- The row of a [1,19,64] table block that the unit rectangle at (0, k, 0) of sizes [1,1,64] reads. -/
theorem row_idx (k : ℕ) (hk : k < 19) (inb : ∀ a, (![0, k, 0] : Fin 3 → ℕ) a + S1x1x64.size a ≤ S1x19x64.size a) (ch : Fin 64) :
    (Rect.unit (s := S1x19x64) ![0, k, 0] S1x1x64.size inb).idx (ix3 (0 : Fin 1) (0 : Fin 1) ch) = ix3 (0 : Fin 1) (⟨k, hk⟩ : Fin 19) ch := by
  funext a; apply Fin.ext
  match a with
  | ⟨0, _⟩ => rfl
  | ⟨1, _⟩ => show k + 1 * 0 = k; omega
  | ⟨2, _⟩ => show 0 + 1 * ch.val = ch.val; omega

end Scalars

/-! ## The blend of nineteen terms with one indicator set -/

section Blend

/-- The nineteen-term blend in the order the body adds it. -/
def blend (f m : Fin 19 → EReal) : EReal :=
  0 + f 0 * m 0 + f 1 * m 1 + f 2 * m 2 + f 3 * m 3 + f 4 * m 4 + f 5 * m 5 + f 6 * m 6 + f 7 * m 7 + f 8 * m 8 + f 9 * m 9 +
    f 10 * m 10 + f 11 * m 11 + f 12 * m 12 + f 13 * m 13 + f 14 * m 14 + f 15 * m 15 + f 16 * m 16 + f 17 * m 17 + f 18 * m 18

theorem blend_eq_sum (f m : Fin 19 → EReal) : blend f m = ∑ j, f j * m j := by
  unfold blend
  simp only [Fin.sum_univ_castSucc, Fin.sum_univ_zero]
  rfl

/-- A label in range, read unsigned, is below 19. -/
theorem toNat_lt (yv : BitVec 32) (h : 0 ≤ yv.toInt ∧ yv.toInt < 19) : yv.toNat < 19 := by
  have hlt := yv.isLt
  rw [BitVec.toInt_eq_toNat_cond] at h
  split at h <;> omega

/-- A label in range is the word of class j exactly when j is its class. -/
theorem eq_ofNat_iff (yv : BitVec 32) (h : yv.toNat < 19) (j : Fin 19) : yv = BitVec.ofNat 32 j.val ↔ j = cls yv := by
  have hj := j.isLt
  constructor
  · intro e
    apply Fin.ext
    show j.val = yv.toNat % 19
    have := congrArg BitVec.toNat e
    rw [BitVec.toNat_ofNat] at this
    omega
  · intro e
    apply BitVec.eq_of_toNat_eq
    rw [BitVec.toNat_ofNat]
    have : j.val = yv.toNat % 19 := congrArg Fin.val e
    omega

/-- With the label in range exactly one indicator is 1: the blend is its own class's term. -/
theorem blend_ind (f : Fin 19 → EReal) (yv : BitVec 32) (h : yv.toNat < 19) : blend f (fun j => ind yv j) = f (cls yv) := by
  rw [blend_eq_sum, Finset.sum_eq_single (cls yv)]
  · show f (cls yv) * ind yv (cls yv) = _
    unfold ind; rw [if_pos ((eq_ofNat_iff yv h _).mpr rfl), mul_one]
  · intro j _ hj
    show f j * ind yv j = 0
    unfold ind; rw [if_neg (fun e => hj ((eq_ofNat_iff yv h j).mp e)), mul_zero]
  · intro hh; exact absurd (Finset.mem_univ _) hh

end Blend

/-! ## The body's result block at an index -/

section Payload

theorem hz4 : (![0, 0, 0, 0] : Fin 4 → Nat) = fun _ => 0 := funext fun a => by fin_cases a <;> rfl
theorem hz3 : (![0, 0, 0] : Fin 3 → Nat) = fun _ => 0 := funext fun a => by fin_cases a <;> rfl

set_option maxHeartbeats 1000000 in
/-- What the body leaves at (0, ch, r, w) of its output block: the nineteen-term blend of the affine maps of the
    block's pixel, class j's read off row j of the four table blocks, with the indicators of the block's label. -/
theorem out_apply (x0 : Vec Ideal S1x64x32x512 .f32) (x1 : Vec Ideal S1x32x512 .i32) (x2 x3 x4 x5 : Vec Ideal S1x19x64 .f32)
    (ch : Fin 64) (r : Fin 32) (w : Fin 512) :
    out1_6 x0 x1 x2 x3 x4 x5 (ix4 (0 : Fin 1) ch r w)
      = blend (fun j => affine (x0 (ix4 (0 : Fin 1) ch r w)) (x2 (ix3 (0 : Fin 1) j ch)) (x3 (ix3 (0 : Fin 1) j ch))
            (x5 (ix3 (0 : Fin 1) j ch)) (x4 (ix3 (0 : Fin 1) j ch)))
          (fun j => ind (x1 (ix3 (0 : Fin 1) r w)) j) := by
  unfold out1_6
  rw [View.canon_unit_zero hz4]
  simp only [View.ld_unit_zero (S := S1x64x32x512) hz4, View.ld_unit_zero (S := S1x32x512) hz3]
  simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50]
  simp (disch := decide) only [shapeCast_abc_1abc_apply, addf_apply, mulf_apply, subf_apply, divf_apply, row_bcast_apply,
    map_bcast_apply, sitofp_apply, extui_apply, cmpi_apply', broadcast_apply, shapeCast_1abc_abc_apply,
    shapeCast_1ab_ab_apply, View.ld, row_idx, mask_val, zero_val]
  rfl

end Payload

/-! ## Each input block read where the output's block says -/

section Blocks

variable (V : (c : Dev nD) → (b : Ref sig .tc) → Buf (Elt Ideal) ((c : Thread nD τ).loc b))

theorem t_lt (t : Fin cfg1.N) : t.val < 64 := by
  have h := t.isLt
  have e : cfg1.N = 64 := N_1
  omega

/-- The batch entry of grid point t, and the pixel row of row r of its block. -/
def ptB (t : Fin cfg1.N) : Fin 4 := ⟨t.val / 16, by have := t_lt t; omega⟩
def ptRow (t : Fin cfg1.N) (r : Fin 32) : Fin 512 := ⟨t.val % 16 * 32 + r.val, by have := r.isLt; omega⟩

/-- The windows' index maps over the grid: point t is batch entry t / 16 and row block t % 16. -/
theorem idx_facts : ∀ t : Fin cfg1.N,
    win1_0.index t (0 : Fin 4) = t.val / 16 ∧ win1_0.index t (1 : Fin 4) = 0 ∧ win1_0.index t (2 : Fin 4) = t.val % 16 ∧ win1_0.index t (3 : Fin 4) = 0
    ∧ win1_1.index t (0 : Fin 3) = t.val / 16 ∧ win1_1.index t (1 : Fin 3) = t.val % 16 ∧ win1_1.index t (2 : Fin 3) = 0
    ∧ win1_2.index t (0 : Fin 3) = t.val / 16 ∧ win1_2.index t (1 : Fin 3) = 0 ∧ win1_2.index t (2 : Fin 3) = 0
    ∧ win1_3.index t (0 : Fin 3) = t.val / 16 ∧ win1_3.index t (1 : Fin 3) = 0 ∧ win1_3.index t (2 : Fin 3) = 0
    ∧ win1_4.index t (0 : Fin 3) = t.val / 16 ∧ win1_4.index t (1 : Fin 3) = 0 ∧ win1_4.index t (2 : Fin 3) = 0
    ∧ win1_5.index t (0 : Fin 3) = t.val / 16 ∧ win1_5.index t (1 : Fin 3) = 0 ∧ win1_5.index t (2 : Fin 3) = 0
    ∧ win1_6.index t (0 : Fin 4) = t.val / 16 ∧ win1_6.index t (1 : Fin 4) = 0 ∧ win1_6.index t (2 : Fin 4) = t.val % 16 ∧ win1_6.index t (3 : Fin 4) = 0 :=
  (by decide +kernel : ∀ t : Fin grid1.N, _)

theorem emb0 (t : Fin cfg1.N) (ch : Fin 64) (r : Fin 32) (w : Fin 512) :
    ((cfg1.win 0).blk t).view.emb (ix4 (0 : Fin 1) ch r w) = ix4 (ptB t) ch (ptRow t r) w := by
  obtain ⟨a0, a1, a2, a3, -⟩ := idx_facts t
  funext a; apply Fin.ext
  match a with
  | ⟨0, _⟩ => show win1_0.index t (0 : Fin 4) * 1 + 1 * 0 = t.val / 16; omega
  | ⟨1, _⟩ => show win1_0.index t (1 : Fin 4) * 64 + 1 * ch.val = ch.val; omega
  | ⟨2, _⟩ => show win1_0.index t (2 : Fin 4) * 32 + 1 * r.val = t.val % 16 * 32 + r.val; omega
  | ⟨3, _⟩ => show win1_0.index t (3 : Fin 4) * 512 + 1 * w.val = w.val; omega

theorem emb6 (t : Fin cfg1.N) (ch : Fin 64) (r : Fin 32) (w : Fin 512) :
    ((cfg1.win 6).blk t).view.emb (ix4 (0 : Fin 1) ch r w) = ix4 (ptB t) ch (ptRow t r) w := by
  obtain ⟨-, -, -, -, -, -, -, -, -, -, -, -, -, -, -, -, -, -, -, a0, a1, a2, a3⟩ := idx_facts t
  funext a; apply Fin.ext
  match a with
  | ⟨0, _⟩ => show win1_6.index t (0 : Fin 4) * 1 + 1 * 0 = t.val / 16; omega
  | ⟨1, _⟩ => show win1_6.index t (1 : Fin 4) * 64 + 1 * ch.val = ch.val; omega
  | ⟨2, _⟩ => show win1_6.index t (2 : Fin 4) * 32 + 1 * r.val = t.val % 16 * 32 + r.val; omega
  | ⟨3, _⟩ => show win1_6.index t (3 : Fin 4) * 512 + 1 * w.val = w.val; omega

theorem emb1 (t : Fin cfg1.N) (r : Fin 32) (w : Fin 512) :
    ((cfg1.win 1).blk t).view.emb (ix3 (0 : Fin 1) r w) = ix3 (ptB t) (ptRow t r) w := by
  obtain ⟨-, -, -, -, a0, a1, a2, -⟩ := idx_facts t
  funext a; apply Fin.ext
  match a with
  | ⟨0, _⟩ => show win1_1.index t (0 : Fin 3) * 1 + 1 * 0 = t.val / 16; omega
  | ⟨1, _⟩ => show win1_1.index t (1 : Fin 3) * 32 + 1 * r.val = t.val % 16 * 32 + r.val; omega
  | ⟨2, _⟩ => show win1_1.index t (2 : Fin 3) * 512 + 1 * w.val = w.val; omega

theorem emb2 (t : Fin cfg1.N) (j : Fin 19) (ch : Fin 64) :
    ((cfg1.win 2).blk t).view.emb (ix3 (0 : Fin 1) j ch) = ix3 (ptB t) j ch := by
  obtain ⟨-, -, -, -, -, -, -, a0, a1, a2, b0, b1, b2, d0, d1, d2, e0, e1, e2, -⟩ := idx_facts t
  funext a; apply Fin.ext
  match a with
  | ⟨0, _⟩ => show win1_2.index t (0 : Fin 3) * 1 + 1 * 0 = t.val / 16; omega
  | ⟨1, _⟩ => show win1_2.index t (1 : Fin 3) * 19 + 1 * j.val = j.val; omega
  | ⟨2, _⟩ => show win1_2.index t (2 : Fin 3) * 64 + 1 * ch.val = ch.val; omega

theorem iblk2_apply (c : Dev nD) (t : Fin cfg1.N) (j : Fin 19) (ch : Fin 64) :
    iblk1 (F := Ideal) V c 2 t (ix3 (0 : Fin 1) j ch) = (V c main_v22 : S4x19x64.Idx → EReal) (ix3 (ptB t) j ch) := by
  show (V c main_v22 : S4x19x64.Idx → EReal) (((cfg1.win 2).blk t).view.emb (ix3 (0 : Fin 1) j ch)) = _
  rw [emb2]

theorem emb3 (t : Fin cfg1.N) (j : Fin 19) (ch : Fin 64) :
    ((cfg1.win 3).blk t).view.emb (ix3 (0 : Fin 1) j ch) = ix3 (ptB t) j ch := by
  obtain ⟨-, -, -, -, -, -, -, a0, a1, a2, b0, b1, b2, d0, d1, d2, e0, e1, e2, -⟩ := idx_facts t
  funext a; apply Fin.ext
  match a with
  | ⟨0, _⟩ => show win1_3.index t (0 : Fin 3) * 1 + 1 * 0 = t.val / 16; omega
  | ⟨1, _⟩ => show win1_3.index t (1 : Fin 3) * 19 + 1 * j.val = j.val; omega
  | ⟨2, _⟩ => show win1_3.index t (2 : Fin 3) * 64 + 1 * ch.val = ch.val; omega

theorem iblk3_apply (c : Dev nD) (t : Fin cfg1.N) (j : Fin 19) (ch : Fin 64) :
    iblk1 (F := Ideal) V c 3 t (ix3 (0 : Fin 1) j ch) = (V c main_v23 : S4x19x64.Idx → EReal) (ix3 (ptB t) j ch) := by
  show (V c main_v23 : S4x19x64.Idx → EReal) (((cfg1.win 3).blk t).view.emb (ix3 (0 : Fin 1) j ch)) = _
  rw [emb3]

theorem emb4 (t : Fin cfg1.N) (j : Fin 19) (ch : Fin 64) :
    ((cfg1.win 4).blk t).view.emb (ix3 (0 : Fin 1) j ch) = ix3 (ptB t) j ch := by
  obtain ⟨-, -, -, -, -, -, -, a0, a1, a2, b0, b1, b2, d0, d1, d2, e0, e1, e2, -⟩ := idx_facts t
  funext a; apply Fin.ext
  match a with
  | ⟨0, _⟩ => show win1_4.index t (0 : Fin 3) * 1 + 1 * 0 = t.val / 16; omega
  | ⟨1, _⟩ => show win1_4.index t (1 : Fin 3) * 19 + 1 * j.val = j.val; omega
  | ⟨2, _⟩ => show win1_4.index t (2 : Fin 3) * 64 + 1 * ch.val = ch.val; omega

theorem iblk4_apply (c : Dev nD) (t : Fin cfg1.N) (j : Fin 19) (ch : Fin 64) :
    iblk1 (F := Ideal) V c 4 t (ix3 (0 : Fin 1) j ch) = (V c main_v26 : S4x19x64.Idx → EReal) (ix3 (ptB t) j ch) := by
  show (V c main_v26 : S4x19x64.Idx → EReal) (((cfg1.win 4).blk t).view.emb (ix3 (0 : Fin 1) j ch)) = _
  rw [emb4]

theorem emb5 (t : Fin cfg1.N) (j : Fin 19) (ch : Fin 64) :
    ((cfg1.win 5).blk t).view.emb (ix3 (0 : Fin 1) j ch) = ix3 (ptB t) j ch := by
  obtain ⟨-, -, -, -, -, -, -, a0, a1, a2, b0, b1, b2, d0, d1, d2, e0, e1, e2, -⟩ := idx_facts t
  funext a; apply Fin.ext
  match a with
  | ⟨0, _⟩ => show win1_5.index t (0 : Fin 3) * 1 + 1 * 0 = t.val / 16; omega
  | ⟨1, _⟩ => show win1_5.index t (1 : Fin 3) * 19 + 1 * j.val = j.val; omega
  | ⟨2, _⟩ => show win1_5.index t (2 : Fin 3) * 64 + 1 * ch.val = ch.val; omega

theorem iblk5_apply (c : Dev nD) (t : Fin cfg1.N) (j : Fin 19) (ch : Fin 64) :
    iblk1 (F := Ideal) V c 5 t (ix3 (0 : Fin 1) j ch) = (V c main_v29 : S4x19x64.Idx → EReal) (ix3 (ptB t) j ch) := by
  show (V c main_v29 : S4x19x64.Idx → EReal) (((cfg1.win 5).blk t).view.emb (ix3 (0 : Fin 1) j ch)) = _
  rw [emb5]

theorem iblk0_apply (c : Dev nD) (t : Fin cfg1.N) (ch : Fin 64) (r : Fin 32) (w : Fin 512) :
    iblk1 (F := Ideal) V c 0 t (ix4 (0 : Fin 1) ch r w) = (V c main_arg0 : S4x64x512x512.Idx → EReal) (ix4 (ptB t) ch (ptRow t r) w) := by
  show (V c main_arg0 : S4x64x512x512.Idx → EReal) (((cfg1.win 0).blk t).view.emb (ix4 (0 : Fin 1) ch r w)) = _
  rw [emb0]

theorem iblk1_apply (c : Dev nD) (t : Fin cfg1.N) (r : Fin 32) (w : Fin 512) :
    iblk1 (F := Ideal) V c 1 t (ix3 (0 : Fin 1) r w) = (V c main_arg1 : S4x512x512.Idx → BitVec 32) (ix3 (ptB t) (ptRow t r) w) := by
  show (V c main_arg1 : S4x512x512.Idx → BitVec 32) (((cfg1.win 1).blk t).view.emb (ix3 (0 : Fin 1) r w)) = _
  rw [emb1]

end Blocks

/-! ## From blocks to the array -/

section Array

variable (V : (c : Dev nD) → (b : Ref sig .tc) → Buf (Elt Ideal) ((c : Thread nD τ).loc b))

/-- The result at a pixel: the affine map of the pixel's own class, read off the four per-batch tables. -/
def outPt (c : Dev nD) (b : Fin 4) (ch : Fin 64) (h w : Fin 512) : EReal :=
  affine ((V c main_arg0 : S4x64x512x512.Idx → EReal) (ix4 b ch h w))
    ((V c main_v22 : S4x19x64.Idx → EReal) (ix3 b (cls ((V c main_arg1 : S4x512x512.Idx → BitVec 32) (ix3 b h w))) ch))
    ((V c main_v23 : S4x19x64.Idx → EReal) (ix3 b (cls ((V c main_arg1 : S4x512x512.Idx → BitVec 32) (ix3 b h w))) ch))
    ((V c main_v29 : S4x19x64.Idx → EReal) (ix3 b (cls ((V c main_arg1 : S4x512x512.Idx → BitVec 32) (ix3 b h w))) ch))
    ((V c main_v26 : S4x19x64.Idx → EReal) (ix3 b (cls ((V c main_arg1 : S4x512x512.Idx → BitVec 32) (ix3 b h w))) ch))

/-- The whole result array. -/
def outArr (c : Dev nD) : S4x64x512x512.Idx → EReal := fun i => outPt V c (i 0) (i 1) (i 2) (i 3)

/-- What grid point t writes back is its block of the result array. -/
theorem flushed_eq (c : Dev nD) (hy : InRange (V c main_arg1)) (t : Fin cfg1.N) :
    (dat1 (F := Ideal) V c).flushed 6 t = ((cfg1.win 6).blk t).view.read (Elt Ideal) (outArr V c) := by
  show (cfg1.win 6).cut (grid1.coords t) ((dat1 V c).after 6 t) = _
  rw [after1_6]
  funext y
  obtain ⟨u, ch, r, w, rfl⟩ : ∃ (u : Fin 1) (ch : Fin 64) (r : Fin 32) (w : Fin 512), y = ix4 u ch r w :=
    ⟨y 0, y 1, y 2, y 3, eq_ix4 (n0 := 1) (n1 := 64) (n2 := 32) (n3 := 512) y⟩
  obtain rfl : u = 0 := Subsingleton.elim _ _
  show out1_6 (iblk1 V c 0 t) (iblk1 V c 1 t) (iblk1 V c 2 t) (iblk1 V c 3 t) (iblk1 V c 4 t) (iblk1 V c 5 t) (ix4 (0 : Fin 1) ch r w)
      = outArr V c (((cfg1.win 6).blk t).view.emb (ix4 (0 : Fin 1) ch r w))
  rw [out_apply, emb6]
  simp only [iblk0_apply, iblk1_apply, iblk2_apply, iblk3_apply, iblk4_apply, iblk5_apply]
  rw [blend_ind _ _ (toNat_lt _ (hy _))]
  rfl

/-- An index of the array is in point t's block iff each coordinate is in the block's range on its axis. -/
theorem mem_blk6 (t : Fin cfg1.N) (i : S4x64x512x512.Idx) :
    i ∈ ((cfg1.win 6).blk t).view.set ↔ ∀ a : Fin 4, win1_6.index t a * S1x64x32x512.size a ≤ (i a).val ∧ (i a).val < win1_6.index t a * S1x64x32x512.size a + S1x64x32x512.size a := by
  show i ∈ ((View.whole main_v30).slice (win1_6.rect t)).set ↔ _
  rw [View.set_slice_whole, Rect.mem_set_unit]
  exact Iff.rfl

/-- Pixel row h of batch entry b is in the block of point 16 b + h / 32: the blocks cover the array. -/
theorem cover6 (i : S4x64x512x512.Idx) : ∃ t : Fin cfg1.N, (cfg1.win 6).flush t = true ∧ i ∈ ((cfg1.win 6).blk t).view.set := by
  have h0 : (i 0).val < 4 := (i 0).isLt
  have h1 : (i 1).val < 64 := (i 1).isLt
  have h2 : (i 2).val < 512 := (i 2).isLt
  have h3 : (i 3).val < 512 := (i 3).isLt
  have e : cfg1.N = 64 := N_1
  obtain ⟨t, tv⟩ : ∃ t : Fin cfg1.N, t.val = 16 * (i 0).val + (i 2).val / 32 := ⟨⟨16 * (i 0).val + (i 2).val / 32, by omega⟩, rfl⟩
  obtain ⟨-, -, -, -, -, -, -, -, -, -, -, -, -, -, -, -, -, -, -, a0, a1, a2, a3⟩ := idx_facts t
  refine ⟨t, flush1_6 t, ?_⟩
  rw [mem_blk6]
  intro a
  match a with
  | ⟨0, _⟩ => show win1_6.index t (0 : Fin 4) * 1 ≤ (i 0).val ∧ (i 0).val < win1_6.index t (0 : Fin 4) * 1 + 1; omega
  | ⟨1, _⟩ => show win1_6.index t (1 : Fin 4) * 64 ≤ (i 1).val ∧ (i 1).val < win1_6.index t (1 : Fin 4) * 64 + 64; omega
  | ⟨2, _⟩ => show win1_6.index t (2 : Fin 4) * 32 ≤ (i 2).val ∧ (i 2).val < win1_6.index t (2 : Fin 4) * 32 + 32; omega
  | ⟨3, _⟩ => show win1_6.index t (3 : Fin 4) * 512 ≤ (i 3).val ∧ (i 3).val < win1_6.index t (3 : Fin 4) * 512 + 512; omega

end Array

theorem apply_out (V : (c : Dev nD) → (b : Ref sig .tc) → Buf (Elt Ideal) ((c : Thread nD τ).loc b)) (c : Dev nD) (hy : InRange (V c main_arg1)) (b : Fin 4) (ch : Fin 64) (h w : Fin 512) :
    ((dat1 (F := Ideal) V c).arrAt 6 cfg1.N : S4x64x512x512.Idx → EReal) (ix4 b ch h w)
      = affine ((V c main_arg0 : S4x64x512x512.Idx → EReal) (ix4 b ch h w))
          ((V c main_v22 : S4x19x64.Idx → EReal) (ix3 b (cls ((V c main_arg1 : S4x512x512.Idx → BitVec 32) (ix3 b h w))) ch))
          ((V c main_v23 : S4x19x64.Idx → EReal) (ix3 b (cls ((V c main_arg1 : S4x512x512.Idx → BitVec 32) (ix3 b h w))) ch))
          ((V c main_v29 : S4x19x64.Idx → EReal) (ix3 b (cls ((V c main_arg1 : S4x512x512.Idx → BitVec 32) (ix3 b h w))) ch))
          ((V c main_v26 : S4x19x64.Idx → EReal) (ix3 b (cls ((V c main_arg1 : S4x512x512.Idx → BitVec 32) (ix3 b h w))) ch)) := by
  have hfin : (dat1 (F := Ideal) V c).arrAt 6 cfg1.N = outArr V c :=
    (dat1 V c).arrAt_eq_of_cover 6 (outArr V c) (fun t _ => flushed_eq V c hy t) (cover6)
  exact congrFun hfin (ix4 b ch h w)

end Cert.KernelIdeal.Val

end
-- ==== Proof.KHost.lean ====
import proofs.«404495_j52321291600115_2_alg».proof.Proof.Spec
import proofs.«404495_j52321291600115_2_alg».proof.Proof.Gen.KernelIdeal.Frame
import Idealize.ShloMosaic.Lib.StableHlo.Run
import Idealize.ShloMosaic.Lib.Pipeline.Value

noncomputable section

namespace Cert.KernelIdeal.Val

open Idealize.ShloMosaic Idealize.ShloMosaic.TcCoe Idealize.SL.Sem Idealize.ShloMosaic.ValueIdx AdaIN
open Cert.KernelIdeal Cert.KernelIdeal.Gen

/-! The host operations between the two passes turn the three statistics arrays (as the first pass leaves them, `V1`)
    into the four per-batch tables the second pass reads (`V9`), element by element by the scalar chain of the
    specification; the validity test reads the count at channel 0.  After the second pass (`W11`) the two style
    results are the validity bit times the style tables, and the first result is the second pass's array. -/

/-! ## The layout operations read at an index

Every operation of the host stretches is pointwise except a handful of broadcasts and one slice with a reshape.  Each
of those reads, at an index of its result, one entry of its operand. -/

/-- A scalar broadcast to [4,19,64] reads the scalar everywhere. -/
theorem kh_bcastScalar_apply {α : Type} (x : S_.Idx → α) (j : S4x19x64.Idx) :
    broadcastInDim S4x19x64 ![] bcast_S_S4x19x64 x j = x ix0 :=
  broadcastInDim_apply _ _ _ j ix0 (fun a => a.elim0)

/-- A [4,19,1] array broadcast along the channels reads its only channel. -/
theorem kh_bcastChan_apply {α : Type} (v : S4x19x1.Idx → α) (b : Fin 4) (k : Fin 19) (ch : Fin 64) :
    broadcastInDim S4x19x64 ![0, 1, 2] bcast_S4x19x1_S4x19x64_0_1_2 v (ix3 b k ch) = v (ix3 b k 0) :=
  broadcastInDim_apply _ _ _ (ix3 b k ch) (ix3 b k (0 : Fin 1)) (fun a => match a with | ⟨0, _⟩ => rfl | ⟨1, _⟩ => rfl | ⟨2, _⟩ => rfl)

/-- A [4,19] array given a trailing unit axis reads the same entry. -/
theorem kh_bcastUnit_apply {α : Type} (v : S4x19.Idx → α) (b : Fin 4) (k : Fin 19) :
    broadcastInDim S4x19x1 ![0, 1] bcast_S4x19_S4x19x1_0_1 v (ix3 b k 0) = v (ix2 b k) :=
  broadcastInDim_apply _ _ _ (ix3 b k (0 : Fin 1)) (ix2 b k) (fun a => match a with | ⟨0, _⟩ => rfl | ⟨1, _⟩ => rfl)

/-- A [19,64] table broadcast over the batch (first to [1,19,64], then to [4,19,64]) reads the table's entry. -/
theorem kh_bcastTab_apply {α : Type} (x : S19x64.Idx → α) (b : Fin 4) (k : Fin 19) (ch : Fin 64) :
    broadcastInDim S4x19x64 ![0, 1, 2] bcast_S1x19x64_S4x19x64_0_1_2 (broadcastInDim S1x19x64 ![1, 2] bcast_S19x64_S1x19x64_1_2 x) (ix3 b k ch)
      = x (ix2 k ch) :=
  (broadcastInDim_apply _ _ _ (ix3 b k ch) (ix3 (0 : Fin 1) k ch) (fun a => match a with | ⟨0, _⟩ => rfl | ⟨1, _⟩ => rfl | ⟨2, _⟩ => rfl)).trans
    (broadcastInDim_apply _ _ _ (ix3 (0 : Fin 1) k ch) (ix2 k ch) (fun a => match a with | ⟨0, _⟩ => rfl | ⟨1, _⟩ => rfl))

/-- Channel 0 of a [4,19,64] array, cut out as [4,19,1] and reshaped to [4,19], read at (b, k): the slice starts at the
    origin, and (b, k, 0) in [4,19,1] has the row-major position of (b, k) in [4,19]. -/
theorem kh_chan0_apply (x : S4x19x64.Idx → EReal) (b : Fin 4) (k : Fin 19) :
    shapeCast S4x19 (extractStridedSlice S4x19x1 ![0, 0, 0] x slices_S4x19x64_S4x19x1_0_0_0) shapeCasts_S4x19x1_S4x19 (ix2 b k)
      = x (ix3 b k 0) := by
  refine (shapeCast_apply _ _ (ix2 b k) (ix3 b k 0) ?_).trans (extractStridedSlice_apply _ _ _ (ix3 b k 0) (ix3 b k 0) ?_)
  · rw [Shape.rowMajor_val_three, Shape.rowMajor_val_two]
    show (b.val * 19 + k.val) * 1 + 0 = b.val * 19 + k.val
    omega
  · intro a
    match a with
    | ⟨0, _⟩ => show b.val = 0 + b.val; omega
    | ⟨1, _⟩ => show k.val = 0 + k.val; omega
    | ⟨2, _⟩ => show 0 = 0 + 0; rfl

/-! ## One stretch of host operations over any contents

A stretch is read over arbitrary contents `U` of the buffers before it, so that nothing earlier in the program is
looked into: what it leaves alone, and what it computes at an index in terms of `U` at its operands. -/

section Stretch
variable (U : Valuation τ sig (Elt Ideal))

/-! ### What a stretch leaves alone

Each stretch writes the buffers of its own results and no other; a buffer outside that list holds after the stretch
what it held before. -/

/-- The buffers the scalar chain writes. -/
abbrev kh_wl1 : List (Ref sig .tc) :=
  [main_cst, main_v1, main_v2, main_v3, main_v4, main_v5, main_v6, main_cst_0, main_v7, main_v8, main_cst_1, main_v9, main_v10,
   main_v11, main_cst_2, main_v12, main_v13, main_v14, main_cst_3, main_v15, main_v16, main_v17, main_v18, main_cst_4, main_v19,
   main_v20, main_v21, main_cst_5]
theorem kh_writes1 : (hostOps1 (F := Ideal)).Forall fun op => op.writes ⊆ (kh_wl1.map (Proc.devRef (τ := τ) .tc)).toFinset := by
  simp only [hostOps1, kh_wl1, List.Forall, StableHlo.nullary_writes, StableHlo.unary_writes, StableHlo.binary_writes,
    StableHlo.reshape_writes, Finset.singleton_subset_iff, List.mem_toFinset, List.mem_map]
  repeat' apply And.intro
  all_goals exact ⟨_, by decide, rfl⟩
theorem kh_keep1 {r : Ref sig .tc} (hr : r ∉ kh_wl1) :
    StableHlo.after (hostOps1 (F := Ideal)) U (Proc.devRef .tc r) = U (Proc.devRef .tc r) :=
  StableHlo.after_of_writes_sub _ U kh_writes1 hr

/-- The buffers the first `where` writes. -/
abbrev kh_wl1_1 : List (Ref sig .tc) := [main_call0_v0, main_call0_v1, main_call0_v2, main_v22]
theorem kh_writes1_1 : (hostOps1_1 (F := Ideal)).Forall fun op => op.writes ⊆ (kh_wl1_1.map (Proc.devRef (τ := τ) .tc)).toFinset := by
  simp only [hostOps1_1, kh_wl1_1, List.Forall, StableHlo.unary_writes, StableHlo.ternary_writes, Finset.singleton_subset_iff,
    List.mem_toFinset, List.mem_map]
  repeat' apply And.intro
  all_goals exact ⟨_, by decide, rfl⟩
theorem kh_keep1_1 {r : Ref sig .tc} (hr : r ∉ kh_wl1_1) :
    StableHlo.after (hostOps1_1 (F := Ideal)) U (Proc.devRef .tc r) = U (Proc.devRef .tc r) :=
  StableHlo.after_of_writes_sub _ U kh_writes1_1 hr

/-- The one constant between the first two `where`s. -/
abbrev kh_wl1_2 : List (Ref sig .tc) := [main_cst_6]
theorem kh_writes1_2 : (hostOps1_2 (F := Ideal)).Forall fun op => op.writes ⊆ (kh_wl1_2.map (Proc.devRef (τ := τ) .tc)).toFinset := by
  simp only [hostOps1_2, kh_wl1_2, List.Forall, StableHlo.nullary_writes, Finset.singleton_subset_iff, List.mem_toFinset, List.mem_map]
  exact ⟨_, by decide, rfl⟩
theorem kh_keep1_2 {r : Ref sig .tc} (hr : r ∉ kh_wl1_2) :
    StableHlo.after (hostOps1_2 (F := Ideal)) U (Proc.devRef .tc r) = U (Proc.devRef .tc r) :=
  StableHlo.after_of_writes_sub _ U kh_writes1_2 hr

/-- The buffers the second `where` writes. -/
abbrev kh_wl1_3 : List (Ref sig .tc) := [main_call1_v0, main_call1_v1, main_call1_v2, main_v23]
theorem kh_writes1_3 : (hostOps1_3 (F := Ideal)).Forall fun op => op.writes ⊆ (kh_wl1_3.map (Proc.devRef (τ := τ) .tc)).toFinset := by
  simp only [hostOps1_3, kh_wl1_3, List.Forall, StableHlo.unary_writes, StableHlo.ternary_writes, Finset.singleton_subset_iff,
    List.mem_toFinset, List.mem_map]
  repeat' apply And.intro
  all_goals exact ⟨_, by decide, rfl⟩
theorem kh_keep1_3 {r : Ref sig .tc} (hr : r ∉ kh_wl1_3) :
    StableHlo.after (hostOps1_3 (F := Ideal)) U (Proc.devRef .tc r) = U (Proc.devRef .tc r) :=
  StableHlo.after_of_writes_sub _ U kh_writes1_3 hr

/-- The first style table's two broadcasts and a constant. -/
abbrev kh_wl1_4 : List (Ref sig .tc) := [main_v24, main_v25, main_cst_7]
theorem kh_writes1_4 : (hostOps1_4 (F := Ideal)).Forall fun op => op.writes ⊆ (kh_wl1_4.map (Proc.devRef (τ := τ) .tc)).toFinset := by
  simp only [hostOps1_4, kh_wl1_4, List.Forall, StableHlo.nullary_writes, StableHlo.unary_writes, Finset.singleton_subset_iff,
    List.mem_toFinset, List.mem_map]
  repeat' apply And.intro
  all_goals exact ⟨_, by decide, rfl⟩
theorem kh_keep1_4 {r : Ref sig .tc} (hr : r ∉ kh_wl1_4) :
    StableHlo.after (hostOps1_4 (F := Ideal)) U (Proc.devRef .tc r) = U (Proc.devRef .tc r) :=
  StableHlo.after_of_writes_sub _ U kh_writes1_4 hr

/-- The buffers the third `where` writes. -/
abbrev kh_wl1_5 : List (Ref sig .tc) := [main_call2_v0, main_call2_v1, main_call2_v2, main_v26]
theorem kh_writes1_5 : (hostOps1_5 (F := Ideal)).Forall fun op => op.writes ⊆ (kh_wl1_5.map (Proc.devRef (τ := τ) .tc)).toFinset := by
  simp only [hostOps1_5, kh_wl1_5, List.Forall, StableHlo.unary_writes, StableHlo.ternary_writes, Finset.singleton_subset_iff,
    List.mem_toFinset, List.mem_map]
  repeat' apply And.intro
  all_goals exact ⟨_, by decide, rfl⟩
theorem kh_keep1_5 {r : Ref sig .tc} (hr : r ∉ kh_wl1_5) :
    StableHlo.after (hostOps1_5 (F := Ideal)) U (Proc.devRef .tc r) = U (Proc.devRef .tc r) :=
  StableHlo.after_of_writes_sub _ U kh_writes1_5 hr

/-- The second style table's two broadcasts and a constant. -/
abbrev kh_wl1_6 : List (Ref sig .tc) := [main_v27, main_v28, main_cst_8]
theorem kh_writes1_6 : (hostOps1_6 (F := Ideal)).Forall fun op => op.writes ⊆ (kh_wl1_6.map (Proc.devRef (τ := τ) .tc)).toFinset := by
  simp only [hostOps1_6, kh_wl1_6, List.Forall, StableHlo.nullary_writes, StableHlo.unary_writes, Finset.singleton_subset_iff,
    List.mem_toFinset, List.mem_map]
  repeat' apply And.intro
  all_goals exact ⟨_, by decide, rfl⟩
theorem kh_keep1_6 {r : Ref sig .tc} (hr : r ∉ kh_wl1_6) :
    StableHlo.after (hostOps1_6 (F := Ideal)) U (Proc.devRef .tc r) = U (Proc.devRef .tc r) :=
  StableHlo.after_of_writes_sub _ U kh_writes1_6 hr

/-- The buffers the fourth `where` writes. -/
abbrev kh_wl1_7 : List (Ref sig .tc) := [main_call3_v0, main_call3_v1, main_call3_v2, main_v29]
theorem kh_writes1_7 : (hostOps1_7 (F := Ideal)).Forall fun op => op.writes ⊆ (kh_wl1_7.map (Proc.devRef (τ := τ) .tc)).toFinset := by
  simp only [hostOps1_7, kh_wl1_7, List.Forall, StableHlo.unary_writes, StableHlo.ternary_writes, Finset.singleton_subset_iff,
    List.mem_toFinset, List.mem_map]
  repeat' apply And.intro
  all_goals exact ⟨_, by decide, rfl⟩
theorem kh_keep1_7 {r : Ref sig .tc} (hr : r ∉ kh_wl1_7) :
    StableHlo.after (hostOps1_7 (F := Ideal)) U (Proc.devRef .tc r) = U (Proc.devRef .tc r) :=
  StableHlo.after_of_writes_sub _ U kh_writes1_7 hr

/-- The buffers the operations after the second pass write. -/
abbrev kh_wl2 : List (Ref sig .tc) :=
  [main_v31, main_v32, main_v33, main_v34, main_v35, main_v36, main_v37, main_v38, main_v39, main_v40, main_v41, main_v42]
theorem kh_writes2 : (hostOps2 (F := Ideal)).Forall fun op => op.writes ⊆ (kh_wl2.map (Proc.devRef (τ := τ) .tc)).toFinset := by
  simp only [hostOps2, kh_wl2, List.Forall, StableHlo.unary_writes, StableHlo.binary_writes, Finset.singleton_subset_iff,
    List.mem_toFinset, List.mem_map]
  repeat' apply And.intro
  all_goals exact ⟨_, by decide, rfl⟩
theorem kh_keep2 {r : Ref sig .tc} (hr : r ∉ kh_wl2) :
    StableHlo.after (hostOps2 (F := Ideal)) U (Proc.devRef .tc r) = U (Proc.devRef .tc r) :=
  StableHlo.after_of_writes_sub _ U kh_writes2 hr

/-! ### The scalar chain

Its operations on the three statistics arrays are pointwise, so at an index they are the specification's scalar chain
on the three entries: max with 1, the quotient (the mean), the products and the difference, the quotient by
max (n − 1) 1 (the variance), max with 0, the root, plus ε (the deviation). -/

theorem kh_ops1_v3 (i : S4x19x64.Idx) :
    (StableHlo.after (hostOps1 (F := Ideal)) U (Proc.devRef .tc main_v3) : S4x19x64.Idx → EReal) i
      = meanOf ((U (Proc.devRef .tc main_v0_0) : S4x19x64.Idx → EReal) i) ((U (Proc.devRef .tc main_v0_2) : S4x19x64.Idx → EReal) i) := by
  after_results
  rfl

theorem kh_ops1_v16 (i : S4x19x64.Idx) :
    (StableHlo.after (hostOps1 (F := Ideal)) U (Proc.devRef .tc main_v16) : S4x19x64.Idx → EReal) i
      = stdOf ((U (Proc.devRef .tc main_v0_0) : S4x19x64.Idx → EReal) i) ((U (Proc.devRef .tc main_v0_1) : S4x19x64.Idx → EReal) i)
          ((U (Proc.devRef .tc main_v0_2) : S4x19x64.Idx → EReal) i) := by
  after_results
  rfl

/-- The validity test compares channel 0 of the count with six. -/
theorem kh_ops1_v20 (b : Fin 4) (k : Fin 19) :
    (StableHlo.after (hostOps1 (F := Ideal)) U (Proc.devRef .tc main_v20) : S4x19.Idx → BitVec 1) (ix2 b k)
      = validOf ((U (Proc.devRef .tc main_v0_2) : S4x19x64.Idx → EReal) (ix3 b k 0)) := by
  after_results
  exact congrArg (fun z => Ideal.cmp .ogt z c6) (kh_chan0_apply (U (Proc.devRef .tc main_v0_2)) b k)

/-- The validity bits with a trailing unit axis. -/
theorem kh_ops1_v21 (b : Fin 4) (k : Fin 19) :
    (StableHlo.after (hostOps1 (F := Ideal)) U (Proc.devRef .tc main_v21) : S4x19x1.Idx → BitVec 1) (ix3 b k 0)
      = validOf ((U (Proc.devRef .tc main_v0_2) : S4x19x64.Idx → EReal) (ix3 b k 0)) := by
  have e : StableHlo.after (hostOps1 (F := Ideal)) U (Proc.devRef .tc main_v21)
      = broadcastInDim S4x19x1 ![0, 1] bcast_S4x19_S4x19x1_0_1
          (StableHlo.after (hostOps1 (F := Ideal)) U (Proc.devRef .tc main_v20) : S4x19.Idx → BitVec 1) := by
    after_results
  rw [e]
  exact (kh_bcastUnit_apply _ b k).trans (kh_ops1_v20 U b k)

theorem kh_ops1_cst5 :
    (StableHlo.after (hostOps1 (F := Ideal)) U (Proc.devRef .tc main_cst_5) : S_.Idx → EReal) ix0 = c0 := by
  after_results
  rfl

/-! ### The four inlined `where`s and the stretches between them

A `where` broadcasts the validity bits along the channels and its scalar to the whole shape, and selects: at (b, k, ch)
the bit of (b, k) chooses between the table's entry and the scalar. -/

theorem kh_ops1_1_v22 (b : Fin 4) (k : Fin 19) (ch : Fin 64) :
    (StableHlo.after (hostOps1_1 (F := Ideal)) U (Proc.devRef .tc main_v22) : S4x19x64.Idx → EReal) (ix3 b k ch)
      = Scalar.select ((U (Proc.devRef .tc main_v21) : S4x19x1.Idx → BitVec 1) (ix3 b k 0))
          ((U (Proc.devRef .tc main_v3) : S4x19x64.Idx → EReal) (ix3 b k ch)) ((U (Proc.devRef .tc main_cst_5) : S_.Idx → EReal) ix0) := by
  after_results
  show Scalar.select
      (broadcastInDim S4x19x64 ![0, 1, 2] bcast_S4x19x1_S4x19x64_0_1_2 (U (Proc.devRef .tc main_v21) : S4x19x1.Idx → BitVec 1) (ix3 b k ch))
      ((U (Proc.devRef .tc main_v3) : S4x19x64.Idx → EReal) (ix3 b k ch))
      (broadcastInDim S4x19x64 ![] bcast_S_S4x19x64 (U (Proc.devRef .tc main_cst_5) : S_.Idx → EReal) (ix3 b k ch)) = _
  rw [kh_bcastScalar_apply, kh_bcastChan_apply]

theorem kh_ops1_2_cst6 :
    (StableHlo.after (hostOps1_2 (F := Ideal)) U (Proc.devRef .tc main_cst_6) : S_.Idx → EReal) ix0 = c1 := by
  after_results
  rfl

theorem kh_ops1_3_v23 (b : Fin 4) (k : Fin 19) (ch : Fin 64) :
    (StableHlo.after (hostOps1_3 (F := Ideal)) U (Proc.devRef .tc main_v23) : S4x19x64.Idx → EReal) (ix3 b k ch)
      = Scalar.select ((U (Proc.devRef .tc main_v21) : S4x19x1.Idx → BitVec 1) (ix3 b k 0))
          ((U (Proc.devRef .tc main_v16) : S4x19x64.Idx → EReal) (ix3 b k ch)) ((U (Proc.devRef .tc main_cst_6) : S_.Idx → EReal) ix0) := by
  after_results
  show Scalar.select
      (broadcastInDim S4x19x64 ![0, 1, 2] bcast_S4x19x1_S4x19x64_0_1_2 (U (Proc.devRef .tc main_v21) : S4x19x1.Idx → BitVec 1) (ix3 b k ch))
      ((U (Proc.devRef .tc main_v16) : S4x19x64.Idx → EReal) (ix3 b k ch))
      (broadcastInDim S4x19x64 ![] bcast_S_S4x19x64 (U (Proc.devRef .tc main_cst_6) : S_.Idx → EReal) (ix3 b k ch)) = _
  rw [kh_bcastScalar_apply, kh_bcastChan_apply]

theorem kh_ops1_4_v25 (b : Fin 4) (k : Fin 19) (ch : Fin 64) :
    (StableHlo.after (hostOps1_4 (F := Ideal)) U (Proc.devRef .tc main_v25) : S4x19x64.Idx → EReal) (ix3 b k ch)
      = (U (Proc.devRef .tc main_arg2) : S19x64.Idx → EReal) (ix2 k ch) := by
  after_results
  exact kh_bcastTab_apply (U (Proc.devRef .tc main_arg2) : S19x64.Idx → EReal) b k ch

theorem kh_ops1_4_cst7 :
    (StableHlo.after (hostOps1_4 (F := Ideal)) U (Proc.devRef .tc main_cst_7) : S_.Idx → EReal) ix0 = c0 := by
  after_results
  rfl

theorem kh_ops1_5_v26 (b : Fin 4) (k : Fin 19) (ch : Fin 64) :
    (StableHlo.after (hostOps1_5 (F := Ideal)) U (Proc.devRef .tc main_v26) : S4x19x64.Idx → EReal) (ix3 b k ch)
      = Scalar.select ((U (Proc.devRef .tc main_v21) : S4x19x1.Idx → BitVec 1) (ix3 b k 0))
          ((U (Proc.devRef .tc main_v25) : S4x19x64.Idx → EReal) (ix3 b k ch)) ((U (Proc.devRef .tc main_cst_7) : S_.Idx → EReal) ix0) := by
  after_results
  show Scalar.select
      (broadcastInDim S4x19x64 ![0, 1, 2] bcast_S4x19x1_S4x19x64_0_1_2 (U (Proc.devRef .tc main_v21) : S4x19x1.Idx → BitVec 1) (ix3 b k ch))
      ((U (Proc.devRef .tc main_v25) : S4x19x64.Idx → EReal) (ix3 b k ch))
      (broadcastInDim S4x19x64 ![] bcast_S_S4x19x64 (U (Proc.devRef .tc main_cst_7) : S_.Idx → EReal) (ix3 b k ch)) = _
  rw [kh_bcastScalar_apply, kh_bcastChan_apply]

theorem kh_ops1_6_v28 (b : Fin 4) (k : Fin 19) (ch : Fin 64) :
    (StableHlo.after (hostOps1_6 (F := Ideal)) U (Proc.devRef .tc main_v28) : S4x19x64.Idx → EReal) (ix3 b k ch)
      = (U (Proc.devRef .tc main_arg3) : S19x64.Idx → EReal) (ix2 k ch) := by
  after_results
  exact kh_bcastTab_apply (U (Proc.devRef .tc main_arg3) : S19x64.Idx → EReal) b k ch

theorem kh_ops1_6_cst8 :
    (StableHlo.after (hostOps1_6 (F := Ideal)) U (Proc.devRef .tc main_cst_8) : S_.Idx → EReal) ix0 = c1 := by
  after_results
  rfl

theorem kh_ops1_7_v29 (b : Fin 4) (k : Fin 19) (ch : Fin 64) :
    (StableHlo.after (hostOps1_7 (F := Ideal)) U (Proc.devRef .tc main_v29) : S4x19x64.Idx → EReal) (ix3 b k ch)
      = Scalar.select ((U (Proc.devRef .tc main_v21) : S4x19x1.Idx → BitVec 1) (ix3 b k 0))
          ((U (Proc.devRef .tc main_v28) : S4x19x64.Idx → EReal) (ix3 b k ch)) ((U (Proc.devRef .tc main_cst_8) : S_.Idx → EReal) ix0) := by
  after_results
  show Scalar.select
      (broadcastInDim S4x19x64 ![0, 1, 2] bcast_S4x19x1_S4x19x64_0_1_2 (U (Proc.devRef .tc main_v21) : S4x19x1.Idx → BitVec 1) (ix3 b k ch))
      ((U (Proc.devRef .tc main_v28) : S4x19x64.Idx → EReal) (ix3 b k ch))
      (broadcastInDim S4x19x64 ![] bcast_S_S4x19x64 (U (Proc.devRef .tc main_cst_8) : S_.Idx → EReal) (ix3 b k ch)) = _
  rw [kh_bcastScalar_apply, kh_bcastChan_apply]

/-! ### After the second pass

The validity bit as a number (0 or 1), broadcast along the channels, times the style table broadcast over the batch. -/

theorem kh_ops2_v36 (b : Fin 4) (k : Fin 19) (ch : Fin 64) :
    (StableHlo.after (hostOps2 (F := Ideal)) U (Proc.devRef .tc main_v36) : S4x19x64.Idx → EReal) (ix3 b k ch)
      = bitf ((U (Proc.devRef .tc main_v20) : S4x19.Idx → BitVec 1) (ix2 b k)) * (U (Proc.devRef .tc main_arg2) : S19x64.Idx → EReal) (ix2 k ch) := by
  after_results
  show broadcastInDim S4x19x64 ![0, 1, 2] bcast_S4x19x1_S4x19x64_0_1_2
        (uitofp (F := Ideal) .f32 (broadcastInDim S4x19x1 ![0, 1] bcast_S4x19_S4x19x1_0_1 (U (Proc.devRef .tc main_v20) : S4x19.Idx → BitVec 1))) (ix3 b k ch)
      * broadcastInDim S4x19x64 ![0, 1, 2] bcast_S1x19x64_S4x19x64_0_1_2
        (broadcastInDim S1x19x64 ![1, 2] bcast_S19x64_S1x19x64_1_2 (U (Proc.devRef .tc main_arg2) : S19x64.Idx → EReal)) (ix3 b k ch) = _
  rw [kh_bcastChan_apply, kh_bcastTab_apply]
  show bitf (broadcastInDim S4x19x1 ![0, 1] bcast_S4x19_S4x19x1_0_1 (U (Proc.devRef .tc main_v20) : S4x19.Idx → BitVec 1) (ix3 b k 0)) * _ = _
  rw [kh_bcastUnit_apply]

theorem kh_ops2_v42 (b : Fin 4) (k : Fin 19) (ch : Fin 64) :
    (StableHlo.after (hostOps2 (F := Ideal)) U (Proc.devRef .tc main_v42) : S4x19x64.Idx → EReal) (ix3 b k ch)
      = bitf ((U (Proc.devRef .tc main_v20) : S4x19.Idx → BitVec 1) (ix2 b k)) * (U (Proc.devRef .tc main_arg3) : S19x64.Idx → EReal) (ix2 k ch) := by
  after_results
  show broadcastInDim S4x19x64 ![0, 1, 2] bcast_S4x19x1_S4x19x64_0_1_2
        (uitofp (F := Ideal) .f32 (broadcastInDim S4x19x1 ![0, 1] bcast_S4x19_S4x19x1_0_1 (U (Proc.devRef .tc main_v20) : S4x19.Idx → BitVec 1))) (ix3 b k ch)
      * broadcastInDim S4x19x64 ![0, 1, 2] bcast_S1x19x64_S4x19x64_0_1_2
        (broadcastInDim S1x19x64 ![1, 2] bcast_S19x64_S1x19x64_1_2 (U (Proc.devRef .tc main_arg3) : S19x64.Idx → EReal)) (ix3 b k ch) = _
  rw [kh_bcastChan_apply, kh_bcastTab_apply]
  show bitf (broadcastInDim S4x19x1 ![0, 1] bcast_S4x19_S4x19x1_0_1 (U (Proc.devRef .tc main_v20) : S4x19.Idx → BitVec 1) (ix3 b k 0)) * _ = _
  rw [kh_bcastUnit_apply]

end Stretch

variable (m : (ℓ : Loc nD τ sig) → Buf (Elt Ideal) ℓ) (ρ : Dev nD → PrngReg)

/-- The count the validity test reads: channel 0 of the count array. -/
abbrev nv (c : Dev nD) (b : Fin 4) (k : Fin 19) : EReal := (V1 m ρ c main_v0_2 : S4x19x64.Idx → EReal) (ix3 b k 0)

/-! ## The boundaries one at a time

The contents at each boundary are the stretch before it over the contents at the boundary before that; each step below
uses one stretch's facts over the earlier boundary's contents taken as they are. -/

/-- From the first pass's exit to the second pass's entry, a buffer no stretch between them writes. -/
theorem kh_W9_eq_W1 (c : Dev nD) (r : Ref sig .tc) (h : r ∉ kh_wl1) (h1 : r ∉ kh_wl1_1) (h2 : r ∉ kh_wl1_2) (h3 : r ∉ kh_wl1_3) (h4 : r ∉ kh_wl1_4)
    (h5 : r ∉ kh_wl1_5) (h6 : r ∉ kh_wl1_6) (h7 : r ∉ kh_wl1_7) :
    W9 m ρ c (Proc.devRef .tc r) = W1 m ρ c (Proc.devRef .tc r) :=
  (kh_keep1_7 _ h7).trans <| (kh_keep1_6 _ h6).trans <| (kh_keep1_5 _ h5).trans <| (kh_keep1_4 _ h4).trans <| (kh_keep1_3 _ h3).trans <|
    (kh_keep1_2 _ h2).trans <| (kh_keep1_1 _ h1).trans (kh_keep1 _ h)

/-- The feature map is an input of the first pass, which leaves it as launched, and no stretch writes it. -/
theorem V9_arg0 (c : Dev nD) : V9 m ρ c main_arg0 = m ((c : Thread nD τ).loc main_arg0) :=
  (kh_W9_eq_W1 m ρ c main_arg0 (by decide) (by decide) (by decide) (by decide) (by decide) (by decide) (by decide) (by decide)).trans <|
    (W1_arr m ρ c 0).trans (((dat0 (V0 m ρ) c).arrAt_in 0 rfl _).trans (A_eq0 (V0 m ρ) c 0))

/-- The same for the label map. -/
theorem V9_arg1 (c : Dev nD) : V9 m ρ c main_arg1 = m ((c : Thread nD τ).loc main_arg1) :=
  (kh_W9_eq_W1 m ρ c main_arg1 (by decide) (by decide) (by decide) (by decide) (by decide) (by decide) (by decide) (by decide)).trans <|
    (W1_arr m ρ c 1).trans (((dat0 (V0 m ρ) c).arrAt_in 1 rfl _).trans (A_eq0 (V0 m ρ) c 1))

/-- The two style tables are no array of the first pass: they hold at its exit what the launch gave them. -/
theorem kh_W1_arg2 (c : Dev nD) : W1 m ρ c (Proc.devRef .tc main_arg2) = m ((c : Thread nD τ).loc main_arg2) :=
  W1_of_ne m ρ c main_arg2 (by decide)
theorem kh_W1_arg3 (c : Dev nD) : W1 m ρ c (Proc.devRef .tc main_arg3) = m ((c : Thread nD τ).loc main_arg3) :=
  W1_of_ne m ρ c main_arg3 (by decide)

/-! ### After the scalar chain -/

theorem kh_W2_v3 (c : Dev nD) (i : S4x19x64.Idx) :
    (W2 m ρ c (Proc.devRef .tc main_v3) : S4x19x64.Idx → EReal) i
      = meanOf ((V1 m ρ c main_v0_0 : S4x19x64.Idx → EReal) i) ((V1 m ρ c main_v0_2 : S4x19x64.Idx → EReal) i) :=
  kh_ops1_v3 (W1 m ρ c) i
theorem kh_W2_v16 (c : Dev nD) (i : S4x19x64.Idx) :
    (W2 m ρ c (Proc.devRef .tc main_v16) : S4x19x64.Idx → EReal) i
      = stdOf ((V1 m ρ c main_v0_0 : S4x19x64.Idx → EReal) i) ((V1 m ρ c main_v0_1 : S4x19x64.Idx → EReal) i)
          ((V1 m ρ c main_v0_2 : S4x19x64.Idx → EReal) i) :=
  kh_ops1_v16 (W1 m ρ c) i
theorem kh_W2_v20 (c : Dev nD) (b : Fin 4) (k : Fin 19) :
    (W2 m ρ c (Proc.devRef .tc main_v20) : S4x19.Idx → BitVec 1) (ix2 b k) = validOf (nv m ρ c b k) :=
  kh_ops1_v20 (W1 m ρ c) b k
theorem kh_W2_v21 (c : Dev nD) (b : Fin 4) (k : Fin 19) :
    (W2 m ρ c (Proc.devRef .tc main_v21) : S4x19x1.Idx → BitVec 1) (ix3 b k 0) = validOf (nv m ρ c b k) :=
  kh_ops1_v21 (W1 m ρ c) b k
theorem kh_W2_cst5 (c : Dev nD) : (W2 m ρ c (Proc.devRef .tc main_cst_5) : S_.Idx → EReal) ix0 = c0 :=
  kh_ops1_cst5 (W1 m ρ c)

/-! ### The first `where`: the mean table -/

theorem kh_W3_v22 (c : Dev nD) (b : Fin 4) (k : Fin 19) (ch : Fin 64) :
    (W3 m ρ c (Proc.devRef .tc main_v22) : S4x19x64.Idx → EReal) (ix3 b k ch)
      = meanT ((V1 m ρ c main_v0_0 : S4x19x64.Idx → EReal) (ix3 b k ch)) ((V1 m ρ c main_v0_2 : S4x19x64.Idx → EReal) (ix3 b k ch)) (nv m ρ c b k) := by
  refine (kh_ops1_1_v22 (W2 m ρ c) b k ch).trans ?_
  rw [kh_W2_v21, kh_W2_v3, kh_W2_cst5]
  rfl

theorem V9_v22 (c : Dev nD) (b : Fin 4) (k : Fin 19) (ch : Fin 64) :
    (V9 m ρ c main_v22 : S4x19x64.Idx → EReal) (ix3 b k ch)
      = meanT ((V1 m ρ c main_v0_0 : S4x19x64.Idx → EReal) (ix3 b k ch)) ((V1 m ρ c main_v0_2 : S4x19x64.Idx → EReal) (ix3 b k ch)) (nv m ρ c b k) := by
  have e : W9 m ρ c (Proc.devRef .tc main_v22) = W3 m ρ c (Proc.devRef .tc main_v22) :=
    (kh_keep1_7 _ (by decide)).trans <| (kh_keep1_6 _ (by decide)).trans <| (kh_keep1_5 _ (by decide)).trans <| (kh_keep1_4 _ (by decide)).trans <|
      (kh_keep1_3 _ (by decide)).trans (kh_keep1_2 _ (by decide))
  show (W9 m ρ c (Proc.devRef .tc main_v22) : S4x19x64.Idx → EReal) (ix3 b k ch) = _
  rw [e]
  exact kh_W3_v22 m ρ c b k ch

/-! ### The second `where`: the deviation table

The validity bits and the deviation come from the scalar chain through the first `where` and the constant's stretch,
which write neither. -/

theorem kh_W4_v21 (c : Dev nD) : W4 m ρ c (Proc.devRef .tc main_v21) = W2 m ρ c (Proc.devRef .tc main_v21) :=
  (kh_keep1_2 _ (by decide)).trans (kh_keep1_1 _ (by decide))
theorem kh_W4_v16 (c : Dev nD) : W4 m ρ c (Proc.devRef .tc main_v16) = W2 m ρ c (Proc.devRef .tc main_v16) :=
  (kh_keep1_2 _ (by decide)).trans (kh_keep1_1 _ (by decide))
theorem kh_W4_cst6 (c : Dev nD) : (W4 m ρ c (Proc.devRef .tc main_cst_6) : S_.Idx → EReal) ix0 = c1 :=
  kh_ops1_2_cst6 (W3 m ρ c)

theorem kh_W5_v23 (c : Dev nD) (b : Fin 4) (k : Fin 19) (ch : Fin 64) :
    (W5 m ρ c (Proc.devRef .tc main_v23) : S4x19x64.Idx → EReal) (ix3 b k ch)
      = stdT ((V1 m ρ c main_v0_0 : S4x19x64.Idx → EReal) (ix3 b k ch)) ((V1 m ρ c main_v0_1 : S4x19x64.Idx → EReal) (ix3 b k ch))
          ((V1 m ρ c main_v0_2 : S4x19x64.Idx → EReal) (ix3 b k ch)) (nv m ρ c b k) := by
  refine (kh_ops1_3_v23 (W4 m ρ c) b k ch).trans ?_
  rw [kh_W4_v21, kh_W4_v16, kh_W2_v21, kh_W2_v16, kh_W4_cst6]
  rfl

theorem V9_v23 (c : Dev nD) (b : Fin 4) (k : Fin 19) (ch : Fin 64) :
    (V9 m ρ c main_v23 : S4x19x64.Idx → EReal) (ix3 b k ch)
      = stdT ((V1 m ρ c main_v0_0 : S4x19x64.Idx → EReal) (ix3 b k ch)) ((V1 m ρ c main_v0_1 : S4x19x64.Idx → EReal) (ix3 b k ch))
          ((V1 m ρ c main_v0_2 : S4x19x64.Idx → EReal) (ix3 b k ch)) (nv m ρ c b k) := by
  have e : W9 m ρ c (Proc.devRef .tc main_v23) = W5 m ρ c (Proc.devRef .tc main_v23) :=
    (kh_keep1_7 _ (by decide)).trans <| (kh_keep1_6 _ (by decide)).trans <| (kh_keep1_5 _ (by decide)).trans (kh_keep1_4 _ (by decide))
  show (W9 m ρ c (Proc.devRef .tc main_v23) : S4x19x64.Idx → EReal) (ix3 b k ch) = _
  rw [e]
  exact kh_W5_v23 m ρ c b k ch

/-! ### The third `where`: the first style table -/

theorem kh_W6_v21 (c : Dev nD) : W6 m ρ c (Proc.devRef .tc main_v21) = W2 m ρ c (Proc.devRef .tc main_v21) :=
  (kh_keep1_4 _ (by decide)).trans <| (kh_keep1_3 _ (by decide)).trans (kh_W4_v21 m ρ c)
theorem kh_W5_arg2 (c : Dev nD) : W5 m ρ c (Proc.devRef .tc main_arg2) = m ((c : Thread nD τ).loc main_arg2) :=
  (kh_keep1_3 _ (by decide)).trans <| (kh_keep1_2 _ (by decide)).trans <| (kh_keep1_1 _ (by decide)).trans <| (kh_keep1 _ (by decide)).trans (kh_W1_arg2 m ρ c)
theorem kh_W6_v25 (c : Dev nD) (b : Fin 4) (k : Fin 19) (ch : Fin 64) :
    (W6 m ρ c (Proc.devRef .tc main_v25) : S4x19x64.Idx → EReal) (ix3 b k ch)
      = (m ((c : Thread nD τ).loc main_arg2) : S19x64.Idx → EReal) (ix2 k ch) := by
  refine (kh_ops1_4_v25 (W5 m ρ c) b k ch).trans ?_
  rw [kh_W5_arg2]
theorem kh_W6_cst7 (c : Dev nD) : (W6 m ρ c (Proc.devRef .tc main_cst_7) : S_.Idx → EReal) ix0 = c0 :=
  kh_ops1_4_cst7 (W5 m ρ c)

theorem kh_W7_v26 (c : Dev nD) (b : Fin 4) (k : Fin 19) (ch : Fin 64) :
    (W7 m ρ c (Proc.devRef .tc main_v26) : S4x19x64.Idx → EReal) (ix3 b k ch)
      = smT (nv m ρ c b k) ((m ((c : Thread nD τ).loc main_arg2) : S19x64.Idx → EReal) (ix2 k ch)) := by
  refine (kh_ops1_5_v26 (W6 m ρ c) b k ch).trans ?_
  rw [kh_W6_v21, kh_W2_v21, kh_W6_v25, kh_W6_cst7]
  rfl

theorem V9_v26 (c : Dev nD) (b : Fin 4) (k : Fin 19) (ch : Fin 64) :
    (V9 m ρ c main_v26 : S4x19x64.Idx → EReal) (ix3 b k ch)
      = smT (nv m ρ c b k) ((m ((c : Thread nD τ).loc main_arg2) : S19x64.Idx → EReal) (ix2 k ch)) := by
  have e : W9 m ρ c (Proc.devRef .tc main_v26) = W7 m ρ c (Proc.devRef .tc main_v26) :=
    (kh_keep1_7 _ (by decide)).trans (kh_keep1_6 _ (by decide))
  show (W9 m ρ c (Proc.devRef .tc main_v26) : S4x19x64.Idx → EReal) (ix3 b k ch) = _
  rw [e]
  exact kh_W7_v26 m ρ c b k ch

/-! ### The fourth `where`: the second style table -/

theorem kh_W8_v21 (c : Dev nD) : W8 m ρ c (Proc.devRef .tc main_v21) = W2 m ρ c (Proc.devRef .tc main_v21) :=
  (kh_keep1_6 _ (by decide)).trans <| (kh_keep1_5 _ (by decide)).trans (kh_W6_v21 m ρ c)
theorem kh_W7_arg3 (c : Dev nD) : W7 m ρ c (Proc.devRef .tc main_arg3) = m ((c : Thread nD τ).loc main_arg3) :=
  (kh_keep1_5 _ (by decide)).trans <| (kh_keep1_4 _ (by decide)).trans <| (kh_keep1_3 _ (by decide)).trans <| (kh_keep1_2 _ (by decide)).trans <|
    (kh_keep1_1 _ (by decide)).trans <| (kh_keep1 _ (by decide)).trans (kh_W1_arg3 m ρ c)
theorem kh_W8_v28 (c : Dev nD) (b : Fin 4) (k : Fin 19) (ch : Fin 64) :
    (W8 m ρ c (Proc.devRef .tc main_v28) : S4x19x64.Idx → EReal) (ix3 b k ch)
      = (m ((c : Thread nD τ).loc main_arg3) : S19x64.Idx → EReal) (ix2 k ch) := by
  refine (kh_ops1_6_v28 (W7 m ρ c) b k ch).trans ?_
  rw [kh_W7_arg3]
theorem kh_W8_cst8 (c : Dev nD) : (W8 m ρ c (Proc.devRef .tc main_cst_8) : S_.Idx → EReal) ix0 = c1 :=
  kh_ops1_6_cst8 (W7 m ρ c)

theorem V9_v29 (c : Dev nD) (b : Fin 4) (k : Fin 19) (ch : Fin 64) :
    (V9 m ρ c main_v29 : S4x19x64.Idx → EReal) (ix3 b k ch)
      = ssT (nv m ρ c b k) ((m ((c : Thread nD τ).loc main_arg3) : S19x64.Idx → EReal) (ix2 k ch)) := by
  refine (kh_ops1_7_v29 (W8 m ρ c) b k ch).trans ?_
  rw [kh_W8_v21, kh_W2_v21, kh_W8_v28, kh_W8_cst8]
  rfl

/-! ## After the second pass -/

/-- The second pass's result is its seventh array, which no later operation writes. -/
theorem W11_v30 (c : Dev nD) : W11 m ρ c (Proc.devRef .tc main_v30) = (dat1 (V9 m ρ) c).arrAt 6 cfg1.N :=
  (kh_keep2 _ (by decide)).trans (W10_arr m ρ c 6)

/-- The validity bits are no array of the second pass, and no stretch after the scalar chain writes them. -/
theorem kh_W10_v20 (c : Dev nD) : W10 m ρ c (Proc.devRef .tc main_v20) = W2 m ρ c (Proc.devRef .tc main_v20) :=
  (W10_of_ne m ρ c main_v20 (by decide)).trans <| (kh_keep1_7 _ (by decide)).trans <| (kh_keep1_6 _ (by decide)).trans <| (kh_keep1_5 _ (by decide)).trans <|
    (kh_keep1_4 _ (by decide)).trans <| (kh_keep1_3 _ (by decide)).trans <| (kh_keep1_2 _ (by decide)).trans (kh_keep1_1 _ (by decide))
/-- Nor are the style tables, which nothing writes at all. -/
theorem kh_W10_arg2 (c : Dev nD) : W10 m ρ c (Proc.devRef .tc main_arg2) = m ((c : Thread nD τ).loc main_arg2) :=
  (W10_of_ne m ρ c main_arg2 (by decide)).trans <|
    (kh_W9_eq_W1 m ρ c main_arg2 (by decide) (by decide) (by decide) (by decide) (by decide) (by decide) (by decide) (by decide)).trans (kh_W1_arg2 m ρ c)
theorem kh_W10_arg3 (c : Dev nD) : W10 m ρ c (Proc.devRef .tc main_arg3) = m ((c : Thread nD τ).loc main_arg3) :=
  (W10_of_ne m ρ c main_arg3 (by decide)).trans <|
    (kh_W9_eq_W1 m ρ c main_arg3 (by decide) (by decide) (by decide) (by decide) (by decide) (by decide) (by decide) (by decide)).trans (kh_W1_arg3 m ρ c)

theorem W11_v36 (c : Dev nD) (b : Fin 4) (k : Fin 19) (ch : Fin 64) :
    (W11 m ρ c (Proc.devRef .tc main_v36) : S4x19x64.Idx → EReal) (ix3 b k ch)
      = bitf (validOf (nv m ρ c b k)) * (m ((c : Thread nD τ).loc main_arg2) : S19x64.Idx → EReal) (ix2 k ch) := by
  refine (kh_ops2_v36 (W10 m ρ c) b k ch).trans ?_
  rw [kh_W10_v20, kh_W2_v20, kh_W10_arg2]

theorem W11_v42 (c : Dev nD) (b : Fin 4) (k : Fin 19) (ch : Fin 64) :
    (W11 m ρ c (Proc.devRef .tc main_v42) : S4x19x64.Idx → EReal) (ix3 b k ch)
      = bitf (validOf (nv m ρ c b k)) * (m ((c : Thread nD τ).loc main_arg3) : S19x64.Idx → EReal) (ix2 k ch) := by
  refine (kh_ops2_v42 (W10 m ρ c) b k ch).trans ?_
  rw [kh_W10_v20, kh_W2_v20, kh_W10_arg3]

theorem W11_v20 (c : Dev nD) (b : Fin 4) (k : Fin 19) :
    (W11 m ρ c (Proc.devRef .tc main_v20) : S4x19.Idx → BitVec 1) (ix2 b k) = validOf (nv m ρ c b k) := by
  have e : W11 m ρ c (Proc.devRef .tc main_v20) = W2 m ρ c (Proc.devRef .tc main_v20) :=
    (kh_keep2 _ (by decide)).trans (kh_W10_v20 m ρ c)
  rw [e]
  exact kh_W2_v20 m ρ c b k

end Cert.KernelIdeal.Val

end
-- ==== Proof.KValue.lean ====
import proofs.«404495_j52321291600115_2_alg».proof.Proof.Spec
import proofs.«404495_j52321291600115_2_alg».proof.Proof.Gen.KernelIdeal.Frame
import proofs.«404495_j52321291600115_2_alg».proof.Proof.Stats
import proofs.«404495_j52321291600115_2_alg».proof.Proof.Apply
import proofs.«404495_j52321291600115_2_alg».proof.Proof.KHost

noncomputable section

namespace Cert.KernelIdeal.Val

open Idealize.ShloMosaic Idealize.ShloMosaic.TcCoe Idealize.SL.Sem Idealize.ShloMosaic.ValueIdx AdaIN
open Cert.KernelIdeal Cert.KernelIdeal.Gen

/-! The idealized kernel's four results, index by index, are the specification's: the first pass leaves the three
    statistics, the host chain turns them into the four tables, the second pass applies the pixel's own class's affine
    map; the two style results and the validity mask come from the count alone. -/

variable (m : (ℓ : Loc nD τ sig) → Buf (Elt Ideal) ℓ) (ρ : Dev nD → PrngReg)

/-- The four argument arrays as launched. -/
abbrev xA (c : Dev nD) : S4x64x512x512.Idx → EReal := m ((c : Thread nD τ).loc main_arg0)
abbrev yA (c : Dev nD) : S4x512x512.Idx → BitVec 32 := m ((c : Thread nD τ).loc main_arg1)
abbrev smA (c : Dev nD) : S19x64.Idx → EReal := m ((c : Thread nD τ).loc main_arg2)
abbrev ssA (c : Dev nD) : S19x64.Idx → EReal := m ((c : Thread nD τ).loc main_arg3)

/-- After the first pass the three statistics arrays hold the three sums of the launch arrays. -/
theorem V1_s1 (c : Dev nD) (b : Fin 4) (k : Fin 19) (ch : Fin 64) :
    (V1 m ρ c main_v0_0 : S4x19x64.Idx → EReal) (ix3 b k ch) = sum1 (xA m c) (yA m c) b k ch :=
  (congrFun (hF0 m ρ c 2).symm (ix3 b k ch)).trans (stats_s1 (V0 m ρ) c b k ch)

theorem V1_s2 (c : Dev nD) (b : Fin 4) (k : Fin 19) (ch : Fin 64) :
    (V1 m ρ c main_v0_1 : S4x19x64.Idx → EReal) (ix3 b k ch) = sum2 (xA m c) (yA m c) b k ch :=
  (congrFun (hF0 m ρ c 3).symm (ix3 b k ch)).trans (stats_s2 (V0 m ρ) c b k ch)

theorem V1_cnt (c : Dev nD) (b : Fin 4) (k : Fin 19) (ch : Fin 64) :
    (V1 m ρ c main_v0_2 : S4x19x64.Idx → EReal) (ix3 b k ch) = cntS (yA m c) b k :=
  (congrFun (hF0 m ρ c 4).symm (ix3 b k ch)).trans (stats_cnt (V0 m ρ) c b k ch)

theorem nv_eq (c : Dev nD) (b : Fin 4) (k : Fin 19) : nv m ρ c b k = cntS (yA m c) b k := V1_cnt m ρ c b k 0

/-- The first result: at a pixel, the affine map of the pixel's own class. -/
theorem k_out0 (c : Dev nD) (hy : InRange (yA m c)) (b : Fin 4) (ch : Fin 64) (h w : Fin 512) :
    (W11 m ρ c (Proc.devRef .tc main_v30) : S4x64x512x512.Idx → EReal) (ix4 b ch h w)
      = outAt (xA m c) (yA m c) (smA m c) (ssA m c) b ch h w := by
  have hy' : InRange (V9 m ρ c main_arg1) := by rw [V9_arg1]; exact hy
  rw [W11_v30]
  refine (apply_out (V9 m ρ) c hy' b ch h w).trans ?_
  rw [V9_arg0, V9_arg1, V9_v22, V9_v23, V9_v26, V9_v29, nv_eq, V1_s1, V1_s2, V1_cnt]
  rfl

/-- The two style results: the validity bit times the style table's entry. -/
theorem k_out1 (c : Dev nD) (b : Fin 4) (k : Fin 19) (ch : Fin 64) :
    (W11 m ρ c (Proc.devRef .tc main_v36) : S4x19x64.Idx → EReal) (ix3 b k ch) = styleAt (yA m c) (smA m c) b k ch := by
  rw [W11_v36, nv_eq]; rfl

theorem k_out2 (c : Dev nD) (b : Fin 4) (k : Fin 19) (ch : Fin 64) :
    (W11 m ρ c (Proc.devRef .tc main_v42) : S4x19x64.Idx → EReal) (ix3 b k ch) = styleAt (yA m c) (ssA m c) b k ch := by
  rw [W11_v42, nv_eq]; rfl

/-- The validity mask: more than six pixels of the class in the batch entry. -/
theorem k_out3 (c : Dev nD) (b : Fin 4) (k : Fin 19) :
    (W11 m ρ c (Proc.devRef .tc main_v20) : S4x19.Idx → BitVec 1) (ix2 b k) = validAt (yA m c) b k := by
  rw [W11_v20, nv_eq]; rfl

end Cert.KernelIdeal.Val

end
-- ==== Proof.ScatterGather.lean ====
import proofs.«404495_j52321291600115_2_alg».proof.Proof.Spec
import proofs.«404495_j52321291600115_2_alg».proof.Proof.Gen.ReferenceIdeal

noncomputable section

namespace Cert.ReferenceIdeal.Val

open Idealize.ShloMosaic Idealize.ShloMosaic.TcCoe Idealize.SL.Sem Idealize.ShloMosaic.ValueIdx AdaIN
open Cert.ReferenceIdeal Cert.ReferenceIdeal.Gen

/-! The reference's two accumulating scatters and three takes, read at an index.  A scatter of rows indexed by one
    column of start indices adds, to row s, every update row whose start index IS s (read signed, not clamped: an index
    outside the operand is dropped); a take reads the row at the start index clamped into the table. -/

/-! ## The row scatter: start and window coordinates of an update index, and where it lands -/

/-- On operand axis 0 the window starts at the update row's start index, read signed. -/
theorem rows_start0 (idx : IVec S1048576x1 32) (a : Fin 1048576) (b : Fin 64) :
    scatter_S76x64_S1048576x1_S1048576x64_1_0_0_1.start (ix2 a b) idx 0 = (idx (ix2 a 0)).toInt := by
  unfold ScatterDims.start
  rw [dif_pos (show (0 : Fin 2) ∈ scatter_S76x64_S1048576x1_S1048576x64_1_0_0_1.scatterDimsToOperandDims from List.mem_singleton.mpr rfl)]
  have hsi : scatter_S76x64_S1048576x1_S1048576x64_1_0_0_1.siIdx (ix2 a b)
      ⟨List.idxOf (0 : Fin 2) scatter_S76x64_S1048576x1_S1048576x64_1_0_0_1.scatterDimsToOperandDims,
        List.idxOf_lt_length_iff.2 (List.mem_singleton.mpr rfl)⟩ = ix2 a 0 := by
    funext c; refine Fin.ext ?_
    match c with
    | ⟨0, _⟩ => rfl
    | ⟨1, _⟩ => rfl
  rw [hsi]

/-- Operand axis 1 is not start-indexed: the window starts at 0. -/
theorem rows_start1 (idx : IVec S1048576x1 32) (a : Fin 1048576) (b : Fin 64) :
    scatter_S76x64_S1048576x1_S1048576x64_1_0_0_1.start (ix2 a b) idx 1 = 0 := by
  unfold ScatterDims.start
  rw [dif_neg (show (1 : Fin 2) ∉ scatter_S76x64_S1048576x1_S1048576x64_1_0_0_1.scatterDimsToOperandDims by decide)]

/-- Operand axis 0 is an inserted axis: no window coordinate. -/
theorem rows_window0 (a : Fin 1048576) (b : Fin 64) :
    scatter_S76x64_S1048576x1_S1048576x64_1_0_0_1.window (ix2 a b) 0 = 0 := by
  unfold ScatterDims.window
  rw [dif_neg (show (0 : Fin 2) ∉ scatter_S76x64_S1048576x1_S1048576x64_1_0_0_1.sKept by decide)]

/-- Operand axis 1 takes the update's channel coordinate. -/
theorem rows_window1 (a : Fin 1048576) (b : Fin 64) :
    scatter_S76x64_S1048576x1_S1048576x64_1_0_0_1.window (ix2 a b) 1 = b.val := by
  unfold ScatterDims.window
  rw [dif_pos (show (1 : Fin 2) ∈ scatter_S76x64_S1048576x1_S1048576x64_1_0_0_1.sKept by decide)]
  rfl

/-- Update element (a, b) lands at (s, ch) exactly when row a's start index is s and b is ch. -/
theorem rows_lands_iff (idx : IVec S1048576x1 32) (a : Fin 1048576) (b : Fin 64) (s : Fin 76) (ch : Fin 64) :
    scatter_S76x64_S1048576x1_S1048576x64_1_0_0_1.resultIdx? (ix2 a b) idx = some (ix2 s ch)
      ↔ (idx (ix2 a 0)).toInt = (s.val : Int) ∧ b = ch := by
  unfold ScatterDims.resultIdx?
  constructor
  · intro h
    split at h
    · rename_i hh
      have hf := Option.some.inj h
      have h0 : (scatter_S76x64_S1048576x1_S1048576x64_1_0_0_1.start (ix2 a b) idx 0 + (scatter_S76x64_S1048576x1_S1048576x64_1_0_0_1.window (ix2 a b) 0 : Int)).toNat = s.val :=
        congrArg (fun f : S76x64.Idx => (f 0).val) hf
      have h1 : (scatter_S76x64_S1048576x1_S1048576x64_1_0_0_1.start (ix2 a b) idx 1 + (scatter_S76x64_S1048576x1_S1048576x64_1_0_0_1.window (ix2 a b) 1 : Int)).toNat = ch.val :=
        congrArg (fun f : S76x64.Idx => (f 1).val) hf
      have hh0 := (hh 0).1
      rw [rows_start0, rows_window0] at h0 hh0
      rw [rows_start1, rows_window1] at h1
      refine ⟨by omega, Fin.ext (by omega)⟩
    · exact absurd h (by simp)
  · rintro ⟨ht, rfl⟩
    have hh : ∀ a', 0 ≤ scatter_S76x64_S1048576x1_S1048576x64_1_0_0_1.start (ix2 a b) idx a' + (scatter_S76x64_S1048576x1_S1048576x64_1_0_0_1.window (ix2 a b) a' : Int)
        ∧ scatter_S76x64_S1048576x1_S1048576x64_1_0_0_1.start (ix2 a b) idx a' + (scatter_S76x64_S1048576x1_S1048576x64_1_0_0_1.window (ix2 a b) a' : Int) < (S76x64.size a' : Int) := by
      intro a'
      match a' with
      | ⟨0, _⟩ =>
        show 0 ≤ scatter_S76x64_S1048576x1_S1048576x64_1_0_0_1.start (ix2 a b) idx 0 + (scatter_S76x64_S1048576x1_S1048576x64_1_0_0_1.window (ix2 a b) 0 : Int)
            ∧ scatter_S76x64_S1048576x1_S1048576x64_1_0_0_1.start (ix2 a b) idx 0 + (scatter_S76x64_S1048576x1_S1048576x64_1_0_0_1.window (ix2 a b) 0 : Int) < ((76 : Nat) : Int)
        rw [rows_start0, rows_window0, ht]
        have := s.isLt
        omega
      | ⟨1, _⟩ =>
        show 0 ≤ scatter_S76x64_S1048576x1_S1048576x64_1_0_0_1.start (ix2 a b) idx 1 + (scatter_S76x64_S1048576x1_S1048576x64_1_0_0_1.window (ix2 a b) 1 : Int)
            ∧ scatter_S76x64_S1048576x1_S1048576x64_1_0_0_1.start (ix2 a b) idx 1 + (scatter_S76x64_S1048576x1_S1048576x64_1_0_0_1.window (ix2 a b) 1 : Int) < ((64 : Nat) : Int)
        rw [rows_start1, rows_window1]
        have := b.isLt
        omega
    rw [dif_pos hh]
    congr 1
    funext a'
    refine Fin.ext ?_
    match a' with
    | ⟨0, _⟩ =>
      show (scatter_S76x64_S1048576x1_S1048576x64_1_0_0_1.start (ix2 a b) idx 0 + (scatter_S76x64_S1048576x1_S1048576x64_1_0_0_1.window (ix2 a b) 0 : Int)).toNat = s.val
      rw [rows_start0, rows_window0, ht]
      omega
    | ⟨1, _⟩ =>
      show (scatter_S76x64_S1048576x1_S1048576x64_1_0_0_1.start (ix2 a b) idx 1 + (scatter_S76x64_S1048576x1_S1048576x64_1_0_0_1.window (ix2 a b) 1 : Int)).toNat = b.val
      rw [rows_start1, rows_window1]
      omega

theorem scatter_rows_apply (x : S76x64.Idx → EReal) (idx : IVec S1048576x1 32) (upd : S1048576x64.Idx → EReal) (s : Fin 76) (ch : Fin 64) :
    Host.scatterAdd (F := Ideal) (φ := .f32) scatter_S76x64_S1048576x1_S1048576x64_1_0_0_1 x idx upd (ix2 s ch)
      = x (ix2 s ch) + ∑ j : Fin 1048576, if (idx (ix2 j 0)).toInt = (s.val : Int) then upd (ix2 j ch) else 0 := by
  show Ideal.hostScatterAdd scatter_S76x64_S1048576x1_S1048576x64_1_0_0_1 x idx upd (ix2 s ch) = _
  unfold Ideal.hostScatterAdd
  refine congrArg (fun t => x (ix2 s ch) + t) ?_
  -- the filtered sum is the sum of an indicator; split the update index into row and channel
  rw [Finset.sum_filter, sum_idx2]
  refine Finset.sum_congr rfl (fun a _ => ?_)
  by_cases ht : (idx (ix2 a 0)).toInt = (s.val : Int)
  · -- row a lands on row s: of its channels only ch lands at (s, ch)
    rw [if_pos ht, Finset.sum_eq_single ch]
    · rw [if_pos ((rows_lands_iff idx a ch s ch).2 ⟨ht, rfl⟩)]
    · intro b _ hb
      rw [if_neg (fun h => hb ((rows_lands_iff idx a b s ch).1 h).2)]
    · intro h
      exact absurd (Finset.mem_univ _) h
  · -- row a lands elsewhere (or outside): nothing of it arrives
    rw [if_neg ht]
    refine Finset.sum_eq_zero (fun b _ => ?_)
    rw [if_neg (fun h => ht ((rows_lands_iff idx a b s ch).1 h).1)]

/-! ## The vector scatter -/

/-- A sum over a rank-1 index set is the sum over its coordinate. -/
theorem sum_ix1 {M : Type} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ _ _
    (fun i => congrArg f (eq_ix1 i))

/-- On the operand's one axis the window starts at the update element's start index, read signed. -/
theorem vec_start0 (idx : IVec S1048576x1 32) (a : Fin 1048576) :
    scatter_S76_S1048576x1_S1048576_n_0_0_1.start (ix1 a) idx 0 = (idx (ix2 a 0)).toInt := by
  unfold ScatterDims.start
  rw [dif_pos (show (0 : Fin 1) ∈ scatter_S76_S1048576x1_S1048576_n_0_0_1.scatterDimsToOperandDims from List.mem_singleton.mpr rfl)]
  have hsi : scatter_S76_S1048576x1_S1048576_n_0_0_1.siIdx (ix1 a)
      ⟨List.idxOf (0 : Fin 1) scatter_S76_S1048576x1_S1048576_n_0_0_1.scatterDimsToOperandDims,
        List.idxOf_lt_length_iff.2 (List.mem_singleton.mpr rfl)⟩ = ix2 a 0 := by
    funext c; refine Fin.ext ?_
    match c with
    | ⟨0, _⟩ => rfl
    | ⟨1, _⟩ => rfl
  rw [hsi]

/-- The operand's one axis is an inserted axis: no window coordinate. -/
theorem vec_window0 (a : Fin 1048576) :
    scatter_S76_S1048576x1_S1048576_n_0_0_1.window (ix1 a) 0 = 0 := by
  unfold ScatterDims.window
  rw [dif_neg (show (0 : Fin 1) ∉ scatter_S76_S1048576x1_S1048576_n_0_0_1.sKept by decide)]

/-- Update element a lands at s exactly when its start index is s. -/
theorem vec_lands_iff (idx : IVec S1048576x1 32) (a : Fin 1048576) (s : Fin 76) :
    scatter_S76_S1048576x1_S1048576_n_0_0_1.resultIdx? (ix1 a) idx = some (ix1 s) ↔ (idx (ix2 a 0)).toInt = (s.val : Int) := by
  unfold ScatterDims.resultIdx?
  constructor
  · intro h
    split at h
    · rename_i hh
      have hf := Option.some.inj h
      have h0 : (scatter_S76_S1048576x1_S1048576_n_0_0_1.start (ix1 a) idx 0 + (scatter_S76_S1048576x1_S1048576_n_0_0_1.window (ix1 a) 0 : Int)).toNat = s.val :=
        congrArg (fun f : S76.Idx => (f 0).val) hf
      have hh0 := (hh 0).1
      rw [vec_start0, vec_window0] at h0 hh0
      omega
    · exact absurd h (by simp)
  · intro ht
    have hh : ∀ a', 0 ≤ scatter_S76_S1048576x1_S1048576_n_0_0_1.start (ix1 a) idx a' + (scatter_S76_S1048576x1_S1048576_n_0_0_1.window (ix1 a) a' : Int)
        ∧ scatter_S76_S1048576x1_S1048576_n_0_0_1.start (ix1 a) idx a' + (scatter_S76_S1048576x1_S1048576_n_0_0_1.window (ix1 a) a' : Int) < (S76.size a' : Int) := by
      intro a'
      match a' with
      | ⟨0, _⟩ =>
        show 0 ≤ scatter_S76_S1048576x1_S1048576_n_0_0_1.start (ix1 a) idx 0 + (scatter_S76_S1048576x1_S1048576_n_0_0_1.window (ix1 a) 0 : Int)
            ∧ scatter_S76_S1048576x1_S1048576_n_0_0_1.start (ix1 a) idx 0 + (scatter_S76_S1048576x1_S1048576_n_0_0_1.window (ix1 a) 0 : Int) < ((76 : Nat) : Int)
        rw [vec_start0, vec_window0, ht]
        have := s.isLt
        omega
    rw [dif_pos hh]
    congr 1
    funext a'
    refine Fin.ext ?_
    match a' with
    | ⟨0, _⟩ =>
      show (scatter_S76_S1048576x1_S1048576_n_0_0_1.start (ix1 a) idx 0 + (scatter_S76_S1048576x1_S1048576_n_0_0_1.window (ix1 a) 0 : Int)).toNat = s.val
      rw [vec_start0, vec_window0, ht]
      omega

theorem scatter_vec_apply (x : S76.Idx → EReal) (idx : IVec S1048576x1 32) (upd : S1048576.Idx → EReal) (s : Fin 76) :
    Host.scatterAdd (F := Ideal) (φ := .f32) scatter_S76_S1048576x1_S1048576_n_0_0_1 x idx upd (ix1 s)
      = x (ix1 s) + ∑ j : Fin 1048576, if (idx (ix2 j 0)).toInt = (s.val : Int) then upd (ix1 j) else 0 := by
  show Ideal.hostScatterAdd scatter_S76_S1048576x1_S1048576_n_0_0_1 x idx upd (ix1 s) = _
  unfold Ideal.hostScatterAdd
  refine congrArg (fun t => x (ix1 s) + t) ?_
  rw [Finset.sum_filter, sum_ix1]
  refine Finset.sum_congr rfl (fun a _ => ?_)
  by_cases ht : (idx (ix2 a 0)).toInt = (s.val : Int)
  · rw [if_pos ht, if_pos ((vec_lands_iff idx a s).2 ht)]
  · rw [if_neg ht, if_neg (fun h => ht ((vec_lands_iff idx a s).1 h))]

theorem gather_rows76_apply {α : Type} (x : S76x64.Idx → α) (idx : IVec S1048576x1 32) (j : Fin 1048576) (ch : Fin 64) :
    Host.gather gather_S76x64_S1048576x1_S1048576x64_1_0_n_n_0_1_164 x idx (ix2 j ch)
      = x (ix2 (⟨min (idx (ix2 j 0)).toInt.toNat 75, by omega⟩ : Fin 76) ch) := by
  unfold Host.gather
  congr 1
  funext a
  refine Fin.ext ?_
  match a with
  | ⟨0, _⟩ =>
    -- axis 0 is collapsed and start-indexed: the clamped start index, no batching or offset coordinate
    show GatherDims.start _ (ix2 j ch) idx 0 + GatherDims.batchCoord _ (ix2 j ch) 0 + GatherDims.offCoord _ (ix2 j ch) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S76x64_S1048576x1_S1048576x64_1_0_n_n_0_1_164.startIndexMap from List.mem_singleton.mpr rfl)]
    have hsi : gather_S76x64_S1048576x1_S1048576x64_1_0_n_n_0_1_164.siIdx (ix2 j ch)
        ⟨List.idxOf (0 : Fin 2) gather_S76x64_S1048576x1_S1048576x64_1_0_n_n_0_1_164.startIndexMap,
          List.idxOf_lt_length_iff.2 (List.mem_singleton.mpr rfl)⟩ = ix2 j 0 := by
      funext b; refine Fin.ext ?_
      match b with
      | ⟨0, _⟩ => rfl
      | ⟨1, _⟩ => rfl
    rw [hsi]
    rfl
  | ⟨1, _⟩ =>
    -- axis 1 is the offset axis: start 0, no batching coordinate, the result's channel coordinate
    show GatherDims.start _ (ix2 j ch) idx 1 + GatherDims.batchCoord _ (ix2 j ch) 1 + GatherDims.offCoord _ (ix2 j ch) 1 = ch.val
    rw [GatherDims.batchCoord_eq_zero _ _ _ List.not_mem_nil]
    unfold GatherDims.start
    rw [dif_neg (show (1 : Fin 2) ∉ gather_S76x64_S1048576x1_S1048576x64_1_0_n_n_0_1_164.startIndexMap by decide)]
    unfold GatherDims.offCoord
    rw [dif_pos (show (1 : Fin 2) ∈ gather_S76x64_S1048576x1_S1048576x64_1_0_n_n_0_1_164.sKept by decide)]
    simp only [Nat.zero_add]
    rfl

theorem gather_rows19_apply {α : Type} (x : S19x64.Idx → α) (idx : IVec S1048576x1 32) (j : Fin 1048576) (ch : Fin 64) :
    Host.gather gather_S19x64_S1048576x1_S1048576x64_1_0_n_n_0_1_164 x idx (ix2 j ch)
      = x (ix2 (⟨min (idx (ix2 j 0)).toInt.toNat 18, by omega⟩ : Fin 19) ch) := by
  unfold Host.gather
  congr 1
  funext a
  refine Fin.ext ?_
  match a with
  | ⟨0, _⟩ =>
    -- axis 0 is collapsed and start-indexed: the clamped start index, no batching or offset coordinate
    show GatherDims.start _ (ix2 j ch) idx 0 + GatherDims.batchCoord _ (ix2 j ch) 0 + GatherDims.offCoord _ (ix2 j ch) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S19x64_S1048576x1_S1048576x64_1_0_n_n_0_1_164.startIndexMap from List.mem_singleton.mpr rfl)]
    have hsi : gather_S19x64_S1048576x1_S1048576x64_1_0_n_n_0_1_164.siIdx (ix2 j ch)
        ⟨List.idxOf (0 : Fin 2) gather_S19x64_S1048576x1_S1048576x64_1_0_n_n_0_1_164.startIndexMap,
          List.idxOf_lt_length_iff.2 (List.mem_singleton.mpr rfl)⟩ = ix2 j 0 := by
      funext b; refine Fin.ext ?_
      match b with
      | ⟨0, _⟩ => rfl
      | ⟨1, _⟩ => rfl
    rw [hsi]
    rfl
  | ⟨1, _⟩ =>
    -- axis 1 is the offset axis: start 0, no batching coordinate, the result's channel coordinate
    show GatherDims.start _ (ix2 j ch) idx 1 + GatherDims.batchCoord _ (ix2 j ch) 1 + GatherDims.offCoord _ (ix2 j ch) 1 = ch.val
    rw [GatherDims.batchCoord_eq_zero _ _ _ List.not_mem_nil]
    unfold GatherDims.start
    rw [dif_neg (show (1 : Fin 2) ∉ gather_S19x64_S1048576x1_S1048576x64_1_0_n_n_0_1_164.startIndexMap by decide)]
    unfold GatherDims.offCoord
    rw [dif_pos (show (1 : Fin 2) ∈ gather_S19x64_S1048576x1_S1048576x64_1_0_n_n_0_1_164.sKept by decide)]
    simp only [Nat.zero_add]
    rfl

theorem gather_vec76_apply {α : Type} (x : S76.Idx → α) (idx : IVec S1048576x1 32) (j : Fin 1048576) :
    Host.gather gather_S76_S1048576x1_S1048576_n_0_n_n_0_1_1 x idx (ix1 j)
      = x (ix1 (⟨min (idx (ix2 j 0)).toInt.toNat 75, by omega⟩ : Fin 76)) := by
  unfold Host.gather
  congr 1
  funext a
  refine Fin.ext ?_
  match a with
  | ⟨0, _⟩ =>
    -- the one axis is collapsed and start-indexed: the clamped start index alone
    show GatherDims.start _ (ix1 j) idx 0 + GatherDims.batchCoord _ (ix1 j) 0 + GatherDims.offCoord _ (ix1 j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ gather_S76_S1048576x1_S1048576_n_0_n_n_0_1_1.startIndexMap from List.mem_singleton.mpr rfl)]
    have hsi : gather_S76_S1048576x1_S1048576_n_0_n_n_0_1_1.siIdx (ix1 j)
        ⟨List.idxOf (0 : Fin 1) gather_S76_S1048576x1_S1048576_n_0_n_n_0_1_1.startIndexMap,
          List.idxOf_lt_length_iff.2 (List.mem_singleton.mpr rfl)⟩ = ix2 j 0 := by
      funext b; refine Fin.ext ?_
      match b with
      | ⟨0, _⟩ => rfl
      | ⟨1, _⟩ => rfl
    rw [hsi]
    rfl

end Cert.ReferenceIdeal.Val

end
-- ==== Proof.RefStats.lean ====
import proofs.«404495_j52321291600115_2_alg».proof.Proof.Spec
import proofs.«404495_j52321291600115_2_alg».proof.Proof.RefRead
import proofs.«404495_j52321291600115_2_alg».proof.Proof.ScatterGather
import Idealize.ShloMosaic.Lib.IdealHost

noncomputable section

namespace Cert.ReferenceIdeal.Val

open Idealize.ShloMosaic Idealize.ShloMosaic.TcCoe Idealize.SL.Sem Idealize.ShloMosaic.ValueIdx AdaIN
open Cert.ReferenceIdeal Cert.ReferenceIdeal.Gen Cert.ReferenceIdeal.ReadP

/-! The reference sums over segments: pixel (b, h, w), at position b·262144 + h·512 + w of the flattened image, carries
    the segment id b·19 + label.  With the labels in range the segment (b, k) collects exactly the pixels of batch entry b
    labelled k, so the three segment sums are the specification's three statistics. -/

/-- The position of segment (b, k) among the 76. -/
abbrev seg (b : Fin 4) (k : Fin 19) : Fin 76 := ⟨b.val * 19 + k.val, by omega⟩
/-- The position of pixel (b, h, w) among the 1048576. -/
abbrev pix (b : Fin 4) (h w : Fin 512) : Fin 1048576 := ⟨b.val * 262144 + h.val * 512 + w.val, by omega⟩

/-- A label word in range, read unsigned, is below 19. -/
theorem word_lt (v : BitVec 32) (h0 : 0 ≤ v.toInt) (h1 : v.toInt < 19) : v.toNat < 19 := by
  have hlt := v.isLt
  rw [BitVec.toInt_eq_toNat_cond] at h0 h1
  split_ifs at h0 h1 <;> omega

/-- The batch offset b·19 plus an in-range label does not wrap: read signed it is b·19 + label. -/
theorem seg_word (b : Nat) (hb : b < 4) (v : BitVec 32) (h0 : 0 ≤ v.toInt) (h1 : v.toInt < 19) :
    (IntOp.addi (IntOp.muli (BitVec.ofNat 32 b) 19#32) v).toInt = ((b * 19 + v.toNat % 19 : Nat) : Int) := by
  have hv := word_lt v h0 h1
  have hw : (BitVec.ofNat 32 b * 19#32 + v).toNat = b * 19 + v.toNat := by
    simp only [BitVec.toNat_add, BitVec.toNat_mul, BitVec.toNat_ofNat]; omega
  show (BitVec.ofNat 32 b * 19#32 + v).toInt = _
  rw [BitVec.toInt_eq_toNat_cond, hw, Nat.mod_eq_of_lt hv, if_pos (by omega)]

/-- An in-range label word has class k exactly when it is the word k. -/
theorem cls_eq_iff (v : BitVec 32) (h0 : 0 ≤ v.toInt) (h1 : v.toInt < 19) (k : Fin 19) :
    (cls v).val = k.val ↔ v = BitVec.ofNat 32 k.val := by
  have hv := word_lt v h0 h1
  show v.toNat % 19 = k.val ↔ _
  rw [Nat.mod_eq_of_lt hv]
  constructor
  · intro h
    apply BitVec.eq_of_toNat_eq
    rw [BitVec.toNat_ofNat, h]; omega
  · intro h
    rw [h, BitVec.toNat_ofNat]; omega

/-- The pixels of the flattened image are the triples (b, h, w). -/
def pixEquiv : Fin 4 × Fin 512 × Fin 512 ≃ Fin 1048576 where
  toFun p := pix p.1 p.2.1 p.2.2
  invFun j := (⟨j.val / 262144, by omega⟩, ⟨j.val / 512 % 512, by omega⟩, ⟨j.val % 512, by omega⟩)
  left_inv p := by
    obtain ⟨b, h, w⟩ := p
    refine Prod.ext (Fin.ext ?_) (Prod.ext (Fin.ext ?_) (Fin.ext ?_))
    · show (b.val * 262144 + h.val * 512 + w.val) / 262144 = b.val; omega
    · show (b.val * 262144 + h.val * 512 + w.val) / 512 % 512 = h.val; omega
    · show (b.val * 262144 + h.val * 512 + w.val) % 512 = w.val; omega
  right_inv j := Fin.ext (by
    show j.val / 262144 * 262144 + j.val / 512 % 512 * 512 + j.val % 512 = j.val; omega)

/-- A sum over the flattened image is the triple sum over batch entries, rows and columns. -/
theorem sum_pix {M : Type*} [AddCommMonoid M] (f : Fin 1048576 → M) :
    ∑ j, f j = ∑ b : Fin 4, ∑ h : Fin 512, ∑ w : Fin 512, f (pix b h w) := by
  rw [← Equiv.sum_comp pixEquiv f, Fintype.sum_prod_type]
  refine Finset.sum_congr rfl fun b _ => ?_
  rw [Fintype.sum_prod_type]
  rfl

/-- The label's position in the reshaped label map: pixel (b, h, w) of the flattened image reads label (b, h, w). -/
theorem lab_idx (b : Fin 4) (h w : Fin 512) :
    idx_main_v3 (idx_main_v10 (ix1 (pix b h w))) = ix3 b h w := by
  funext a
  match a with
  | ⟨0, _⟩ => exact Fin.ext (by show (((b.val * 262144 + h.val * 512 + w.val) / 262144) * 262144 + ((b.val * 262144 + h.val * 512 + w.val) % 262144)) / 262144 = b.val; omega)
  | ⟨1, _⟩ => exact Fin.ext (by show (((b.val * 262144 + h.val * 512 + w.val) / 262144) * 262144 + ((b.val * 262144 + h.val * 512 + w.val) % 262144)) / 512 % 512 = h.val; omega)
  | ⟨2, _⟩ => exact Fin.ext (by show (((b.val * 262144 + h.val * 512 + w.val) / 262144) * 262144 + ((b.val * 262144 + h.val * 512 + w.val) % 262144)) % 512 = w.val; omega)

/-- The segment id the reference computes for a pixel: its batch entry's offset plus its label. -/
theorem ref_seg (y : S4x512x512.Idx → BitVec 32) (hy : InRange y) (b : Fin 4) (h w : Fin 512) :
    (val_main_v10 (F := Ideal) y (ix1 (pix b h w))).toInt = ((seg b (cls (y (ix3 b h w)))).val : Int) := by
  rw [val_main_v10_apply, val_main_v9_apply, val_main_v8_apply, val_main_v7_apply, val_main_v5_apply,
    val_main_v4_apply, val_main_v6_apply, val_main_c_apply, val_main_v3_apply, lab_idx]
  have hb : (b.val * 262144 + h.val * 512 + w.val) / 262144 < 4 := by omega
  have hbb : (b.val * 262144 + h.val * 512 + w.val) / 262144 = b.val := by omega
  show (IntOp.addi (IntOp.muli (BitVec.ofNat 32 ((b.val * 262144 + h.val * 512 + w.val) / 262144)) 19#32) (y (ix3 b h w))).toInt = _
  rw [seg_word _ hb _ (hy _).1 (hy _).2, hbb]
  rfl

/-- The feature's position: row (b, h, w), column ch of the flattened features reads x at (b, ch, h, w). -/
theorem feat_idx (b : Fin 4) (h w : Fin 512) (ch : Fin 64) :
    idx_main_v0 (idx_main_v1 (idx_main_v2 (ix2 (pix b h w) ch))) = ix4 b ch h w := by
  have e0 : ((b.val * 262144 + h.val * 512 + w.val) * 64 + ch.val) / 16777216 = b.val := by omega
  have e1 : ((b.val * 262144 + h.val * 512 + w.val) * 64 + ch.val) / 64 % 262144 = h.val * 512 + w.val := by omega
  have e2 : ((b.val * 262144 + h.val * 512 + w.val) * 64 + ch.val) % 64 = ch.val := by omega
  have q1 : ((b.val * 64 + ch.val) * 262144 + (h.val * 512 + w.val)) / 262144 = b.val * 64 + ch.val := by omega
  have q2 : ((b.val * 64 + ch.val) * 262144 + (h.val * 512 + w.val)) / 512 = (b.val * 64 + ch.val) * 512 + h.val := by omega
  funext a
  match a with
  | ⟨0, _⟩ => exact Fin.ext (by show (((((b.val * 262144 + h.val * 512 + w.val) * 64 + ch.val) / 16777216) * 64 + (((b.val * 262144 + h.val * 512 + w.val) * 64 + ch.val) % 64)) * 262144 + (((b.val * 262144 + h.val * 512 + w.val) * 64 + ch.val) / 64 % 262144)) / 16777216 = b.val; rw [e0, e1, e2]; clear e0 e1 e2 q1 q2; omega)
  | ⟨1, _⟩ => exact Fin.ext (by show (((((b.val * 262144 + h.val * 512 + w.val) * 64 + ch.val) / 16777216) * 64 + (((b.val * 262144 + h.val * 512 + w.val) * 64 + ch.val) % 64)) * 262144 + (((b.val * 262144 + h.val * 512 + w.val) * 64 + ch.val) / 64 % 262144)) / 262144 % 64 = ch.val; rw [e0, e1, e2, q1]; clear e0 e1 e2 q1 q2; omega)
  | ⟨2, _⟩ => exact Fin.ext (by show (((((b.val * 262144 + h.val * 512 + w.val) * 64 + ch.val) / 16777216) * 64 + (((b.val * 262144 + h.val * 512 + w.val) * 64 + ch.val) % 64)) * 262144 + (((b.val * 262144 + h.val * 512 + w.val) * 64 + ch.val) / 64 % 262144)) / 512 % 512 = h.val; rw [e0, e1, e2, q2]; clear e0 e1 e2 q1 q2; omega)
  | ⟨3, _⟩ => exact Fin.ext (by show (((((b.val * 262144 + h.val * 512 + w.val) * 64 + ch.val) / 16777216) * 64 + (((b.val * 262144 + h.val * 512 + w.val) * 64 + ch.val) % 64)) * 262144 + (((b.val * 262144 + h.val * 512 + w.val) * 64 + ch.val) / 64 % 262144)) % 512 = w.val; rw [e0, e1, e2]; clear e0 e1 e2 q1 q2; omega)

/-- The flattened features read at a pixel's row: x at (b, ch, h, w). -/
theorem ref_feat (x : S4x64x512x512.Idx → EReal) (b : Fin 4) (h w : Fin 512) (ch : Fin 64) :
    val_main_v2 (F := Ideal) x (ix2 (pix b h w) ch) = x (ix4 b ch h w) := by
  rw [val_main_v2_apply, val_main_v1_apply, val_main_v0_apply, feat_idx]

/-- With the labels in range, pixel (b', h, w) lies in segment (b, k) exactly when b' = b and its label word is k. -/
theorem seg_cond (y : S4x512x512.Idx → BitVec 32) (hy : InRange y) (b b' : Fin 4) (k : Fin 19) (h w : Fin 512) :
    (val_main_v10 (F := Ideal) y (ix1 (pix b' h w))).toInt = ((seg b k).val : Int)
      ↔ b' = b ∧ y (ix3 b' h w) = BitVec.ofNat 32 k.val := by
  rw [ref_seg y hy b' h w]
  have hc := (cls (y (ix3 b' h w))).isLt
  have hk := k.isLt
  show ((b'.val * 19 + (cls (y (ix3 b' h w))).val : Nat) : Int) = ((b.val * 19 + k.val : Nat) : Int) ↔ _
  rw [Nat.cast_inj, ← cls_eq_iff _ (hy _).1 (hy _).2 k]
  constructor
  · intro e
    exact ⟨Fin.ext (by omega), by omega⟩
  · rintro ⟨rfl, e⟩
    rw [e]

/-- A sum over all pixels of the terms whose segment id is (b, k) is the sum over the pixels of batch entry b whose
    label is k. -/
theorem seg_sum {M : Type*} [AddCommMonoid M] (y : S4x512x512.Idx → BitVec 32) (hy : InRange y) (b : Fin 4) (k : Fin 19)
    (G : Fin 1048576 → M) :
    (∑ j : Fin 1048576, if (val_main_v10 (F := Ideal) y (ix1 j)).toInt = ((seg b k).val : Int) then G j else 0)
      = ∑ h : Fin 512, ∑ w : Fin 512, if y (ix3 b h w) = BitVec.ofNat 32 k.val then G (pix b h w) else 0 := by
  rw [sum_pix]
  rw [Finset.sum_eq_single b]
  · refine Finset.sum_congr rfl fun h _ => Finset.sum_congr rfl fun w _ => ?_
    refine if_congr ((seg_cond y hy b b k h w).trans ?_) rfl rfl
    exact ⟨fun e => e.2, fun e => ⟨rfl, e⟩⟩
  · intro b' _ hne
    refine Finset.sum_eq_zero fun h _ => Finset.sum_eq_zero fun w _ => ?_
    exact if_neg fun e => hne ((seg_cond y hy b b' k h w).mp e).1
  · intro hb
    exact absurd (Finset.mem_univ b) hb

/-- The start-index column of the three scatters is the segment-id vector itself. -/
theorem idx13 (j : Fin 1048576) : idx_main_v13 (ix2 j (0 : Fin 1)) = ix1 j := by
  funext a; match a with | ⟨0, _⟩ => rfl
theorem idx16 (j : Fin 1048576) : idx_main_v16 (ix2 j (0 : Fin 1)) = ix1 j := by
  funext a; match a with | ⟨0, _⟩ => rfl
theorem idx20 (j : Fin 1048576) : idx_main_v20 (ix2 j (0 : Fin 1)) = ix1 j := by
  funext a; match a with | ⟨0, _⟩ => rfl

theorem ref_cnt (y : S4x512x512.Idx → BitVec 32) (hy : InRange y) (b : Fin 4) (k : Fin 19) :
    val_main_v14 (F := Ideal) y (ix1 (seg b k)) = cntS y b k := by
  unfold val_main_v14
  rw [scatter_vec_apply, val_main_v12_apply, val_main_cst_0_apply, Ideal.ofBits_def, Ideal.ofBits_zero_f32, zero_add]
  have e : ∀ j : Fin 1048576, val_main_v13 (F := Ideal) y (ix2 j 0) = val_main_v10 (F := Ideal) y (ix1 j) := fun j => by
    rw [val_main_v13_apply, idx13]
  simp only [e]
  refine (seg_sum y hy b k _).trans ?_
  unfold cntS
  refine Finset.sum_congr rfl fun h _ => Finset.sum_congr rfl fun w _ => ?_
  rw [val_main_v11_apply, val_main_cst_apply, Ideal.ofBits_def, Ideal.ofBits_one_f32]
  rfl

theorem ref_s1 (x : S4x64x512x512.Idx → EReal) (y : S4x512x512.Idx → BitVec 32) (hy : InRange y) (b : Fin 4) (k : Fin 19) (ch : Fin 64) :
    val_main_v17 (F := Ideal) x y (ix2 (seg b k) ch) = sum1 x y b k ch := by
  unfold val_main_v17
  rw [scatter_rows_apply, val_main_v15_apply, val_main_cst_1_apply, Ideal.ofBits_def, Ideal.ofBits_zero_f32, zero_add]
  have e : ∀ j : Fin 1048576, val_main_v16 (F := Ideal) y (ix2 j 0) = val_main_v10 (F := Ideal) y (ix1 j) := fun j => by
    rw [val_main_v16_apply, idx16]
  simp only [e]
  refine (seg_sum y hy b k _).trans ?_
  unfold sum1
  refine Finset.sum_congr rfl fun h _ => Finset.sum_congr rfl fun w _ => ?_
  rw [ref_feat]
  unfold ind
  split_ifs
  · rw [mul_one]
  · rw [mul_zero]

theorem ref_s2 (x : S4x64x512x512.Idx → EReal) (y : S4x512x512.Idx → BitVec 32) (hy : InRange y) (b : Fin 4) (k : Fin 19) (ch : Fin 64) :
    val_main_v21 (F := Ideal) x y (ix2 (seg b k) ch) = sum2 x y b k ch := by
  unfold val_main_v21
  rw [scatter_rows_apply, val_main_v19_apply, val_main_cst_2_apply, Ideal.ofBits_def, Ideal.ofBits_zero_f32, zero_add]
  have e : ∀ j : Fin 1048576, val_main_v20 (F := Ideal) y (ix2 j 0) = val_main_v10 (F := Ideal) y (ix1 j) := fun j => by
    rw [val_main_v20_apply, idx20]
  simp only [e]
  refine (seg_sum y hy b k _).trans ?_
  unfold sum2
  refine Finset.sum_congr rfl fun h _ => Finset.sum_congr rfl fun w _ => ?_
  rw [val_main_v18_apply, ref_feat, Ideal.mulf_def]
  unfold ind
  split_ifs
  · rw [mul_one]
  · rw [mul_zero, zero_mul]

end Cert.ReferenceIdeal.Val

end
-- ==== Proof.RefValue.lean ====
import proofs.«404495_j52321291600115_2_alg».proof.Proof.Spec
import proofs.«404495_j52321291600115_2_alg».proof.Proof.RefRead
import proofs.«404495_j52321291600115_2_alg».proof.Proof.ScatterGather
import proofs.«404495_j52321291600115_2_alg».proof.Proof.RefStats

noncomputable section

namespace Cert.ReferenceIdeal.Val

open Idealize.ShloMosaic Idealize.ShloMosaic.TcCoe Idealize.SL.Sem Idealize.ShloMosaic.ValueIdx AdaIN
open Cert.ReferenceIdeal Cert.ReferenceIdeal.Gen Cert.ReferenceIdeal.ReadP

/-! The reference's four results, index by index, are the specification's: the per-segment chain over the three segment
    sums, taken back to each pixel through its segment id, then the affine map. -/

/-! ## Words: the select that wraps a negative index round keeps a non-negative one -/

theorem select_slt_zero_keep (v c : BitVec 32) (hv : 0 ≤ v.toInt) :
    Scalar.select (IntOp.cmpi .slt v 0#32) (IntOp.addi v c) v = v := by
  have h0 : (0#32 : BitVec 32).toInt = 0 := by decide
  have hs : v.slt 0#32 = false := by
    unfold BitVec.slt; rw [h0]; exact decide_eq_false (by omega)
  show Scalar.select (BitVec.ofBool (v.slt 0#32)) (IntOp.addi v c) v = v
  rw [hs]; exact select_zero _ _

/-! ## The start indices of the five takes -/

theorem start50 (y : S4x512x512.Idx → BitVec 32) (j : Fin 1048576) (hv : 0 ≤ (val_main_v10 (F := Ideal) y (ix1 j)).toInt) :
    val_main_v50 (F := Ideal) y (ix2 j 0) = val_main_v10 (F := Ideal) y (ix1 j) := by
  have hi : idx_main_v50 (ix2 j (0 : Fin 1)) = ix1 j := by
    funext a; match a with | ⟨0, _⟩ => rfl
  rw [val_main_v50_apply, hi, val_main_v49_apply, val_main_v46_apply, val_main_v45_apply, val_main_c_9_apply, val_main_v48_apply]
  exact select_slt_zero_keep _ _ hv

theorem start58 (y : S4x512x512.Idx → BitVec 32) (j : Fin 1048576) (hv : 0 ≤ (val_main_v10 (F := Ideal) y (ix1 j)).toInt) :
    val_main_v58 (F := Ideal) y (ix2 j 0) = val_main_v10 (F := Ideal) y (ix1 j) := by
  have hi : idx_main_v58 (ix2 j (0 : Fin 1)) = ix1 j := by
    funext a; match a with | ⟨0, _⟩ => rfl
  rw [val_main_v58_apply, hi, val_main_v57_apply, val_main_v54_apply, val_main_v53_apply, val_main_c_11_apply, val_main_v56_apply]
  exact select_slt_zero_keep _ _ hv

theorem start66 (y : S4x512x512.Idx → BitVec 32) (j : Fin 1048576) (hv : 0 ≤ (val_main_v10 (F := Ideal) y (ix1 j)).toInt) :
    val_main_v66 (F := Ideal) y (ix2 j 0) = val_main_v10 (F := Ideal) y (ix1 j) := by
  have hi : idx_main_v66 (ix2 j (0 : Fin 1)) = ix1 j := by
    funext a; match a with | ⟨0, _⟩ => rfl
  rw [val_main_v66_apply, hi, val_main_v65_apply, val_main_v62_apply, val_main_v61_apply, val_main_c_14_apply, val_main_v64_apply]
  exact select_slt_zero_keep _ _ hv

theorem start75 (y : S4x512x512.Idx → BitVec 32) (j : Fin 1048576) (hv : 0 ≤ (val_main_v69 (F := Ideal) y (ix1 j)).toInt) :
    val_main_v75 (F := Ideal) y (ix2 j 0) = val_main_v69 (F := Ideal) y (ix1 j) := by
  have hi : idx_main_v75 (ix2 j (0 : Fin 1)) = ix1 j := by
    funext a; match a with | ⟨0, _⟩ => rfl
  rw [val_main_v75_apply, hi, val_main_v74_apply, val_main_v71_apply, val_main_v70_apply, val_main_c_17_apply, val_main_v73_apply]
  exact select_slt_zero_keep _ _ hv

theorem start83 (y : S4x512x512.Idx → BitVec 32) (j : Fin 1048576) (hv : 0 ≤ (val_main_v69 (F := Ideal) y (ix1 j)).toInt) :
    val_main_v83 (F := Ideal) y (ix2 j 0) = val_main_v69 (F := Ideal) y (ix1 j) := by
  have hi : idx_main_v83 (ix2 j (0 : Fin 1)) = ix1 j := by
    funext a; match a with | ⟨0, _⟩ => rfl
  rw [val_main_v83_apply, hi, val_main_v82_apply, val_main_v79_apply, val_main_v78_apply, val_main_c_20_apply, val_main_v81_apply]
  exact select_slt_zero_keep _ _ hv

/-! ## The per-segment tables at a segment and a channel -/

theorem idx24_25 (s : Fin 76) (ch : Fin 64) : idx_main_v24 (idx_main_v25 (ix2 s ch)) = ix1 s := by
  funext a; match a with | ⟨0, _⟩ => rfl
theorem idx24_27 (s : Fin 76) (ch : Fin 64) : idx_main_v24 (idx_main_v27 (ix2 s ch)) = ix1 s := by
  funext a; match a with | ⟨0, _⟩ => rfl
theorem idx35_36 (s : Fin 76) (ch : Fin 64) : idx_main_v35 (idx_main_v36 (ix2 s ch)) = ix1 s := by
  funext a; match a with | ⟨0, _⟩ => rfl

theorem nsafe25_at (y : S4x512x512.Idx → BitVec 32) (s : Fin 76) (ch : Fin 64) :
    val_main_v25 (F := Ideal) y (ix2 s ch) = nSafe (val_main_v14 (F := Ideal) y (ix1 s)) := by
  rw [val_main_v25_apply, val_main_v24_apply, val_main_v23_apply, val_main_v22_apply, val_main_cst_3_apply, idx24_25]
  rfl

theorem nsafe27_at (y : S4x512x512.Idx → BitVec 32) (s : Fin 76) (ch : Fin 64) :
    val_main_v27 (F := Ideal) y (ix2 s ch) = nSafe (val_main_v14 (F := Ideal) y (ix1 s)) := by
  rw [val_main_v27_apply, val_main_v24_apply, val_main_v23_apply, val_main_v22_apply, val_main_cst_3_apply, idx24_27]
  rfl

theorem mean_at (x : S4x64x512x512.Idx → EReal) (y : S4x512x512.Idx → BitVec 32) (s : Fin 76) (ch : Fin 64) :
    val_main_v26 (F := Ideal) x y (ix2 s ch)
      = meanOf (val_main_v17 (F := Ideal) x y (ix2 s ch)) (val_main_v14 (F := Ideal) y (ix1 s)) := by
  rw [val_main_v26_apply, nsafe25_at]
  rfl

theorem den_at (y : S4x512x512.Idx → BitVec 32) (s : Fin 76) (ch : Fin 64) :
    val_main_v36 (F := Ideal) y (ix2 s ch) = max (val_main_v14 (F := Ideal) y (ix1 s) - c1) c1 := by
  rw [val_main_v36_apply, val_main_v35_apply, val_main_v34_apply, val_main_v33_apply, val_main_cst_5_apply,
    val_main_v32_apply, val_main_v31_apply, val_main_cst_4_apply, idx35_36]
  rfl

theorem var_at (x : S4x64x512x512.Idx → EReal) (y : S4x512x512.Idx → BitVec 32) (s : Fin 76) (ch : Fin 64) :
    val_main_v37 (F := Ideal) x y (ix2 s ch)
      = varOf (val_main_v17 (F := Ideal) x y (ix2 s ch)) (val_main_v21 (F := Ideal) x y (ix2 s ch)) (val_main_v14 (F := Ideal) y (ix1 s)) := by
  rw [val_main_v37_apply, val_main_v30_apply, val_main_v29_apply, val_main_v28_apply, nsafe27_at, mean_at, den_at]
  rfl

theorem std_at (x : S4x64x512x512.Idx → EReal) (y : S4x512x512.Idx → BitVec 32) (s : Fin 76) (ch : Fin 64) :
    val_main_v42 (F := Ideal) x y (ix2 s ch)
      = stdOf (val_main_v17 (F := Ideal) x y (ix2 s ch)) (val_main_v21 (F := Ideal) x y (ix2 s ch)) (val_main_v14 (F := Ideal) y (ix1 s)) := by
  rw [val_main_v42_apply, val_main_v41_apply, val_main_cst_7_apply, val_main_v40_apply, val_main_v39_apply,
    val_main_v38_apply, val_main_cst_6_apply, var_at]
  simp only [Ideal.addf_def, Ideal.hostUnary_sqrt_def, Ideal.maximumf_def, Ideal.ofBits_def, stdOf, c0, ceps]

theorem valid_at (y : S4x512x512.Idx → BitVec 32) (s : Fin 76) :
    val_main_v44 (F := Ideal) y (ix1 s) = validOf (val_main_v14 (F := Ideal) y (ix1 s)) := by
  rw [val_main_v44_apply, val_main_v43_apply, val_main_cst_8_apply]
  rfl

/-! ## Where a pixel sits in the flattened arrays -/

theorem idx_label (b : Fin 4) (h w : Fin 512) : idx_main_v3 (idx_main_v69 (ix1 (pix b h w))) = ix3 b h w :=
  funext fun a => Fin.ext (by
    have hb := b.isLt; have hh := h.isLt; have hw := w.isLt
    match a with
    | ⟨0, _⟩ => show ((b.val * 262144 + h.val * 512 + w.val) / 262144 * 262144 + (b.val * 262144 + h.val * 512 + w.val) % 262144) / 262144 = b.val; omega
    | ⟨1, _⟩ => show ((b.val * 262144 + h.val * 512 + w.val) / 262144 * 262144 + (b.val * 262144 + h.val * 512 + w.val) % 262144) / 512 % 512 = h.val; omega
    | ⟨2, _⟩ => show ((b.val * 262144 + h.val * 512 + w.val) / 262144 * 262144 + (b.val * 262144 + h.val * 512 + w.val) % 262144) % 512 = w.val; omega)

theorem idx_feat (b : Fin 4) (ch : Fin 64) (h w : Fin 512) :
    idx_main_v0 (idx_main_v1 (idx_main_v2 (ix2 (pix b h w) ch))) = ix4 b ch h w :=
  funext fun a => Fin.ext (by
    have hb := b.isLt; have hc := ch.isLt; have hh := h.isLt; have hw := w.isLt
    have e1 : ((b.val * 262144 + h.val * 512 + w.val) * 64 + ch.val) / 16777216 = b.val := by omega
    have e2 : ((b.val * 262144 + h.val * 512 + w.val) * 64 + ch.val) % 64 = ch.val := by omega
    have e3 : ((b.val * 262144 + h.val * 512 + w.val) * 64 + ch.val) / 64 % 262144 = h.val * 512 + w.val := by omega
    match a with
    | ⟨0, _⟩ => show ((((b.val * 262144 + h.val * 512 + w.val) * 64 + ch.val) / 16777216 * 64 + ((b.val * 262144 + h.val * 512 + w.val) * 64 + ch.val) % 64) * 262144 + ((b.val * 262144 + h.val * 512 + w.val) * 64 + ch.val) / 64 % 262144) / 16777216 = b.val; rw [e1, e2, e3]; clear e1 e2 e3; omega
    | ⟨1, _⟩ => show ((((b.val * 262144 + h.val * 512 + w.val) * 64 + ch.val) / 16777216 * 64 + ((b.val * 262144 + h.val * 512 + w.val) * 64 + ch.val) % 64) * 262144 + ((b.val * 262144 + h.val * 512 + w.val) * 64 + ch.val) / 64 % 262144) / 262144 % 64 = ch.val; rw [e1, e2, e3]; clear e1 e2 e3; omega
    | ⟨2, _⟩ => show ((((b.val * 262144 + h.val * 512 + w.val) * 64 + ch.val) / 16777216 * 64 + ((b.val * 262144 + h.val * 512 + w.val) * 64 + ch.val) % 64) * 262144 + ((b.val * 262144 + h.val * 512 + w.val) * 64 + ch.val) / 64 % 262144) / 512 % 512 = h.val; rw [e1, e2, e3]; clear e1 e2 e3; omega
    | ⟨3, _⟩ => show ((((b.val * 262144 + h.val * 512 + w.val) * 64 + ch.val) / 16777216 * 64 + ((b.val * 262144 + h.val * 512 + w.val) * 64 + ch.val) % 64) * 262144 + ((b.val * 262144 + h.val * 512 + w.val) * 64 + ch.val) / 64 % 262144) % 512 = w.val; rw [e1, e2, e3]; clear e1 e2 e3; omega)

theorem idx_out (b : Fin 4) (ch : Fin 64) (h w : Fin 512) :
    idx_main_v90 (idx_main_v91 (idx_main_v92 (ix4 b ch h w))) = ix2 (pix b h w) ch :=
  funext fun a => Fin.ext (by
    have hb := b.isLt; have hc := ch.isLt; have hh := h.isLt; have hw := w.isLt
    have e1 : (((b.val * 64 + ch.val) * 512 + h.val) * 512 + w.val) / 16777216 = b.val := by omega
    have e2 : (((b.val * 64 + ch.val) * 512 + h.val) * 512 + w.val) % 262144 = h.val * 512 + w.val := by omega
    have e3 : (((b.val * 64 + ch.val) * 512 + h.val) * 512 + w.val) / 262144 % 64 = ch.val := by omega
    match a with
    | ⟨0, _⟩ => show (((((b.val * 64 + ch.val) * 512 + h.val) * 512 + w.val) / 16777216 * 262144 + (((b.val * 64 + ch.val) * 512 + h.val) * 512 + w.val) % 262144) * 64 + (((b.val * 64 + ch.val) * 512 + h.val) * 512 + w.val) / 262144 % 64) / 64 = b.val * 262144 + h.val * 512 + w.val; rw [e1, e2, e3]; clear e1 e2 e3; omega
    | ⟨1, _⟩ => show (((((b.val * 64 + ch.val) * 512 + h.val) * 512 + w.val) / 16777216 * 262144 + (((b.val * 64 + ch.val) * 512 + h.val) * 512 + w.val) % 262144) * 64 + (((b.val * 64 + ch.val) * 512 + h.val) * 512 + w.val) / 262144 % 64) % 64 = ch.val; rw [e1, e2, e3]; clear e1 e2 e3; omega)

theorem label_at (y : S4x512x512.Idx → BitVec 32) (b : Fin 4) (h w : Fin 512) :
    val_main_v69 (F := Ideal) y (ix1 (pix b h w)) = y (ix3 b h w) := by
  rw [val_main_v69_apply, val_main_v3_apply, idx_label]

theorem feat_at (x : S4x64x512x512.Idx → EReal) (b : Fin 4) (ch : Fin 64) (h w : Fin 512) :
    val_main_v2 (F := Ideal) x (ix2 (pix b h w) ch) = x (ix4 b ch h w) := by
  rw [val_main_v2_apply, val_main_v1_apply, val_main_v0_apply, idx_feat]

/-! ## The five takes at a pixel -/

theorem seg_nonneg (y : S4x512x512.Idx → BitVec 32) (hy : InRange y) (b : Fin 4) (h w : Fin 512) :
    0 ≤ (val_main_v10 (F := Ideal) y (ix1 (pix b h w))).toInt := by
  rw [ref_seg y hy b h w]; exact Int.natCast_nonneg _

/-- A start index that is the pixel's segment id, read signed and clamped into the 76 rows, is its segment. -/
theorem fin76_of_seg (y : S4x512x512.Idx → BitVec 32) (hy : InRange y) (b : Fin 4) (h w : Fin 512) (v : BitVec 32)
    (hv : v = val_main_v10 (F := Ideal) y (ix1 (pix b h w))) (hlt : min v.toInt.toNat 75 < 76) :
    (⟨min v.toInt.toNat 75, hlt⟩ : Fin 76) = seg b (cls (y (ix3 b h w))) := by
  subst hv
  apply Fin.ext
  show min (val_main_v10 (F := Ideal) y (ix1 (pix b h w))).toInt.toNat 75 = b.val * 19 + (cls (y (ix3 b h w))).val
  rw [ref_seg y hy b h w]
  have h1 := (cls (y (ix3 b h w))).isLt
  have h2 := b.isLt
  show min (((b.val * 19 + (cls (y (ix3 b h w))).val : Nat) : Int)).toNat 75 = b.val * 19 + (cls (y (ix3 b h w))).val
  omega

/-- A start index that is an in-range label, read signed and clamped into the 19 rows, is the label's class. -/
theorem fin19_of_label (yv v : BitVec 32) (hy : 0 ≤ yv.toInt ∧ yv.toInt < 19) (hv : v = yv) (hlt : min v.toInt.toNat 18 < 19) :
    (⟨min v.toInt.toNat 18, hlt⟩ : Fin 19) = cls yv := by
  subst hv
  apply Fin.ext
  show min v.toInt.toNat 18 = v.toNat % 19
  have h1 := BitVec.toInt_eq_toNat_cond v
  have h2 := v.isLt
  obtain ⟨h3, h4⟩ := hy
  split at h1 <;> omega

theorem label_nonneg (y : S4x512x512.Idx → BitVec 32) (hy : InRange y) (b : Fin 4) (h w : Fin 512) :
    0 ≤ (val_main_v69 (F := Ideal) y (ix1 (pix b h w))).toInt := by
  rw [label_at]; exact (hy _).1

theorem take_v51 (y : S4x512x512.Idx → BitVec 32) (hy : InRange y) (b : Fin 4) (h w : Fin 512) :
    val_main_v51 (F := Ideal) y (ix1 (pix b h w)) = val_main_v44 (F := Ideal) y (ix1 (seg b (cls (y (ix3 b h w))))) := by
  unfold val_main_v51
  rw [gather_vec76_apply, fin76_of_seg y hy b h w _ (start50 y _ (seg_nonneg y hy b h w))]

theorem take_v59 (x : S4x64x512x512.Idx → EReal) (y : S4x512x512.Idx → BitVec 32) (hy : InRange y) (b : Fin 4) (ch : Fin 64) (h w : Fin 512) :
    val_main_v59 (F := Ideal) x y (ix2 (pix b h w) ch) = val_main_v26 (F := Ideal) x y (ix2 (seg b (cls (y (ix3 b h w)))) ch) := by
  unfold val_main_v59
  rw [gather_rows76_apply, fin76_of_seg y hy b h w _ (start58 y _ (seg_nonneg y hy b h w))]

theorem take_v67 (x : S4x64x512x512.Idx → EReal) (y : S4x512x512.Idx → BitVec 32) (hy : InRange y) (b : Fin 4) (ch : Fin 64) (h w : Fin 512) :
    val_main_v67 (F := Ideal) x y (ix2 (pix b h w) ch) = val_main_v42 (F := Ideal) x y (ix2 (seg b (cls (y (ix3 b h w)))) ch) := by
  unfold val_main_v67
  rw [gather_rows76_apply, fin76_of_seg y hy b h w _ (start66 y _ (seg_nonneg y hy b h w))]

theorem take_v76 (y : S4x512x512.Idx → BitVec 32) (sm : S19x64.Idx → EReal) (hy : InRange y) (b : Fin 4) (ch : Fin 64) (h w : Fin 512) :
    val_main_v76 (F := Ideal) y sm (ix2 (pix b h w) ch) = sm (ix2 (cls (y (ix3 b h w))) ch) := by
  unfold val_main_v76
  rw [gather_rows19_apply, fin19_of_label (y (ix3 b h w)) _ (hy _) ((start75 y _ (label_nonneg y hy b h w)).trans (label_at y b h w))]

theorem take_v84 (y : S4x512x512.Idx → BitVec 32) (ss : S19x64.Idx → EReal) (hy : InRange y) (b : Fin 4) (ch : Fin 64) (h w : Fin 512) :
    val_main_v84 (F := Ideal) y ss (ix2 (pix b h w) ch) = ss (ix2 (cls (y (ix3 b h w))) ch) := by
  unfold val_main_v84
  rw [gather_rows19_apply, fin19_of_label (y (ix3 b h w)) _ (hy _) ((start83 y _ (label_nonneg y hy b h w)).trans (label_at y b h w))]

/-! ## The validity bit and the four selected values at a pixel -/

theorem vpix_at (y : S4x512x512.Idx → BitVec 32) (hy : InRange y) (b : Fin 4) (h w : Fin 512) :
    val_main_v52 (F := Ideal) y (ix2 (pix b h w) 0) = validOf (cntS y b (cls (y (ix3 b h w)))) := by
  have hi : idx_main_v52 (ix2 (pix b h w) (0 : Fin 1)) = ix1 (pix b h w) := by
    funext a; match a with | ⟨0, _⟩ => rfl
  rw [val_main_v52_apply, hi, take_v51 y hy, valid_at, ref_cnt y hy]

theorem idx_call0 (j : Fin 1048576) (ch : Fin 64) : idx_main_call0_v1 (ix2 j ch) = ix2 j (0 : Fin 1) := by
  funext a; match a with | ⟨0, _⟩ => rfl | ⟨1, _⟩ => rfl
theorem idx_call1 (j : Fin 1048576) (ch : Fin 64) : idx_main_call1_v1 (ix2 j ch) = ix2 j (0 : Fin 1) := by
  funext a; match a with | ⟨0, _⟩ => rfl | ⟨1, _⟩ => rfl
theorem idx_call2 (j : Fin 1048576) (ch : Fin 64) : idx_main_call2_v1 (ix2 j ch) = ix2 j (0 : Fin 1) := by
  funext a; match a with | ⟨0, _⟩ => rfl | ⟨1, _⟩ => rfl
theorem idx_call3 (j : Fin 1048576) (ch : Fin 64) : idx_main_call3_v1 (ix2 j ch) = ix2 j (0 : Fin 1) := by
  funext a; match a with | ⟨0, _⟩ => rfl | ⟨1, _⟩ => rfl

theorem mean_pix (x : S4x64x512x512.Idx → EReal) (y : S4x512x512.Idx → BitVec 32) (hy : InRange y) (b : Fin 4) (ch : Fin 64) (h w : Fin 512) :
    val_main_v60 (F := Ideal) x y (ix2 (pix b h w) ch)
      = meanT (sum1 x y b (cls (y (ix3 b h w))) ch) (cntS y b (cls (y (ix3 b h w)))) (cntS y b (cls (y (ix3 b h w)))) := by
  rw [val_main_v60_apply, val_main_call0_v1_apply, val_main_call0_v2_apply, val_main_call0_v0_apply, val_main_cst_13_apply,
    idx_call0, vpix_at y hy, take_v59 x y hy, mean_at, ref_s1 x y hy, ref_cnt y hy]
  simp only [Ideal.ofBits_def, meanT, c0]

theorem std_pix (x : S4x64x512x512.Idx → EReal) (y : S4x512x512.Idx → BitVec 32) (hy : InRange y) (b : Fin 4) (ch : Fin 64) (h w : Fin 512) :
    val_main_v68 (F := Ideal) x y (ix2 (pix b h w) ch)
      = stdT (sum1 x y b (cls (y (ix3 b h w))) ch) (sum2 x y b (cls (y (ix3 b h w))) ch) (cntS y b (cls (y (ix3 b h w)))) (cntS y b (cls (y (ix3 b h w)))) := by
  rw [val_main_v68_apply, val_main_call1_v1_apply, val_main_call1_v2_apply, val_main_call1_v0_apply, val_main_cst_16_apply,
    idx_call1, vpix_at y hy, take_v67 x y hy, std_at, ref_s1 x y hy, ref_s2 x y hy, ref_cnt y hy]
  simp only [Ideal.ofBits_def, stdT, c1]

theorem sm_pix (y : S4x512x512.Idx → BitVec 32) (sm : S19x64.Idx → EReal) (hy : InRange y) (b : Fin 4) (ch : Fin 64) (h w : Fin 512) :
    val_main_v77 (F := Ideal) y sm (ix2 (pix b h w) ch)
      = smT (cntS y b (cls (y (ix3 b h w)))) (sm (ix2 (cls (y (ix3 b h w))) ch)) := by
  rw [val_main_v77_apply, val_main_call2_v1_apply, val_main_call2_v2_apply, val_main_call2_v0_apply, val_main_cst_19_apply,
    idx_call2, vpix_at y hy, take_v76 y sm hy]
  simp only [Ideal.ofBits_def, smT, c0]

theorem ss_pix (y : S4x512x512.Idx → BitVec 32) (ss : S19x64.Idx → EReal) (hy : InRange y) (b : Fin 4) (ch : Fin 64) (h w : Fin 512) :
    val_main_v85 (F := Ideal) y ss (ix2 (pix b h w) ch)
      = ssT (cntS y b (cls (y (ix3 b h w)))) (ss (ix2 (cls (y (ix3 b h w))) ch)) := by
  rw [val_main_v85_apply, val_main_call3_v1_apply, val_main_call3_v2_apply, val_main_call3_v0_apply, val_main_cst_22_apply,
    idx_call3, vpix_at y hy, take_v84 y ss hy]
  simp only [Ideal.ofBits_def, ssT, c1]

/-! ## The affine map at a pixel -/

theorem affine_pix (x : S4x64x512x512.Idx → EReal) (y : S4x512x512.Idx → BitVec 32) (sm ss : S19x64.Idx → EReal) (hy : InRange y)
    (b : Fin 4) (ch : Fin 64) (h w : Fin 512) :
    val_main_v89 (F := Ideal) x y sm ss (ix2 (pix b h w) ch) = outAt x y sm ss b ch h w := by
  rw [val_main_v89_apply, val_main_v88_apply, val_main_v87_apply, val_main_v86_apply, feat_at, mean_pix x y hy, std_pix x y hy,
    sm_pix y sm hy, ss_pix y ss hy]
  rfl

/-! ## The validity table and the two style tables at a batch entry and a class -/

theorem idx93 (b : Fin 4) (k : Fin 19) : idx_main_v93 (ix2 b k) = ix1 (seg b k) := by
  funext a; match a with | ⟨0, _⟩ => rfl

theorem valid_bk_at (y : S4x512x512.Idx → BitVec 32) (hy : InRange y) (b : Fin 4) (k : Fin 19) :
    val_main_v93 (F := Ideal) y (ix2 b k) = validAt y b k := by
  rw [val_main_v93_apply, idx93, valid_at, ref_cnt y hy b k]
  rfl

theorem idx94_97 (b : Fin 4) (k : Fin 19) (ch : Fin 64) : idx_main_v94 (idx_main_v97 (ix3 b k ch)) = ix2 b k := by
  funext a; match a with | ⟨0, _⟩ => rfl | ⟨1, _⟩ => rfl
theorem idx95_98 (b : Fin 4) (k : Fin 19) (ch : Fin 64) : idx_main_v95 (idx_main_v98 (ix3 b k ch)) = ix2 k ch := by
  funext a; match a with | ⟨0, _⟩ => rfl | ⟨1, _⟩ => rfl
theorem idx100_103 (b : Fin 4) (k : Fin 19) (ch : Fin 64) : idx_main_v100 (idx_main_v103 (ix3 b k ch)) = ix2 b k := by
  funext a; match a with | ⟨0, _⟩ => rfl | ⟨1, _⟩ => rfl
theorem idx101_104 (b : Fin 4) (k : Fin 19) (ch : Fin 64) : idx_main_v101 (idx_main_v104 (ix3 b k ch)) = ix2 k ch := by
  funext a; match a with | ⟨0, _⟩ => rfl | ⟨1, _⟩ => rfl

/-! ## The four results -/

theorem ref_out0 (x : S4x64x512x512.Idx → EReal) (y : S4x512x512.Idx → BitVec 32) (sm ss : S19x64.Idx → EReal) (hy : InRange y) (b : Fin 4) (ch : Fin 64) (h w : Fin 512) :
    val_main_v92 (F := Ideal) x y sm ss (ix4 b ch h w) = outAt x y sm ss b ch h w := by
  rw [val_main_v92_apply, val_main_v91_apply, val_main_v90_apply, idx_out]
  exact affine_pix x y sm ss hy b ch h w

theorem ref_out1 (y : S4x512x512.Idx → BitVec 32) (sm : S19x64.Idx → EReal) (hy : InRange y) (b : Fin 4) (k : Fin 19) (ch : Fin 64) :
    val_main_v99 (F := Ideal) y sm (ix3 b k ch) = styleAt y sm b k ch := by
  rw [val_main_v99_apply, val_main_v97_apply, val_main_v96_apply, val_main_v94_apply, val_main_v98_apply, val_main_v95_apply,
    idx94_97, idx95_98, valid_bk_at y hy b k]
  rfl

theorem ref_out2 (y : S4x512x512.Idx → BitVec 32) (ss : S19x64.Idx → EReal) (hy : InRange y) (b : Fin 4) (k : Fin 19) (ch : Fin 64) :
    val_main_v105 (F := Ideal) y ss (ix3 b k ch) = styleAt y ss b k ch := by
  rw [val_main_v105_apply, val_main_v103_apply, val_main_v102_apply, val_main_v100_apply, val_main_v104_apply, val_main_v101_apply,
    idx100_103, idx101_104, valid_bk_at y hy b k]
  rfl

theorem ref_out3 (y : S4x512x512.Idx → BitVec 32) (hy : InRange y) (b : Fin 4) (k : Fin 19) :
    val_main_v93 (F := Ideal) y (ix2 b k) = validAt y b k :=
  valid_bk_at y hy b k

end Cert.ReferenceIdeal.Val

end
-- ==== Proof.lean ====
/-
  The certificate: the Pallas kernel pair (a masked-sum statistics pass per batch entry and class, a host chain to
  per-batch tables, an affine blend pass) against the jnp reference (segment sums over segment id = batch · 19 + label,
  the same chain per segment, takes back to the pixels), over the extended reals, for finite float inputs and labels
  in 0 … 18.

  Both idealized programs compute, index by index, the one specification of Proof/Spec.lean:
    · the three statistics of a (batch entry, class) — pixel count, sum and sum of squares of x over the class's
      pixels — are the same sums, gathered block by block by the kernel and segment by segment by the reference
      (finite sums over the extended reals re-index freely; a masked term is the term times an indicator);
    · both apply one scalar chain to them (mean, unbiased variance, standard deviation + ε, validity > 6 pixels);
    · with the labels in range exactly one of the kernel's nineteen masks is 1 at a pixel, so its blend is the affine
      map of the pixel's own class, which is what the reference takes through the segment id.
  The frames are the generated ones (the reference's: its run with the results dropped); the ideal pass rewrote nothing.
-/
import proofs.«404495_j52321291600115_2_alg».proof.Defs
import proofs.«404495_j52321291600115_2_alg».proof.Proof.Gen.Kernel
import proofs.«404495_j52321291600115_2_alg».proof.Proof.Gen.Kernel.Frame
import proofs.«404495_j52321291600115_2_alg».proof.Proof.Gen.KernelIdeal
import proofs.«404495_j52321291600115_2_alg».proof.Proof.Gen.KernelIdeal.Frame
import proofs.«404495_j52321291600115_2_alg».proof.Proof.Gen.ReferenceIdeal
import proofs.«404495_j52321291600115_2_alg».proof.Proof.Gen.Pre_finite_inputs
import proofs.«404495_j52321291600115_2_alg».proof.Proof.RefRun
import proofs.«404495_j52321291600115_2_alg».proof.Proof.RefRead
import proofs.«404495_j52321291600115_2_alg».proof.Proof.Spec
import proofs.«404495_j52321291600115_2_alg».proof.Proof.Pre
import proofs.«404495_j52321291600115_2_alg».proof.Proof.KRun
import proofs.«404495_j52321291600115_2_alg».proof.Proof.KValue
import proofs.«404495_j52321291600115_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx AdaIN

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2)
    (Cert.ReferenceIdeal.RunP.run (F := Ideal) m ρ)

section Algebraic

open Cert.KernelIdeal Cert.KernelIdeal.Gen Cert.KernelIdeal.Val

/-- The two idealized programs end with equal results: the kernel's four result arrays, read off its run, are the
    specification's, and so are the reference's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hy : ∀ c : Dev nD, InRange (yA m c) := fun c =>
    Cert.Pre_finite_inputs.Val.inRange_of_pre _ _ _ _ (hpre c)
  refine ⟨fun c => W11 m ρ c (Proc.devRef .tc main_v30), fun c => W11 m ρ c (Proc.devRef .tc main_v36),
    fun c => W11 m ρ c (Proc.devRef .tc main_v42), fun c => W11 m ρ c (Proc.devRef .tc main_v20), ?_, ?_⟩
  · exact (θ_run Cert.KernelIdeal.defs _ _).mono (fun _ h c =>
      ⟨h c _ (mem_uc main_v30 (by decide)), h c _ (mem_uc main_v36 (by decide)), h c _ (mem_uc main_v42 (by decide)),
        h c _ (mem_uc main_v20 (by decide)),
        (h c _ (mem_uc main_arg0 (by decide))).trans (W11_main_arg0 m ρ c),
        (h c _ (mem_uc main_arg1 (by decide))).trans (W11_main_arg1 m ρ c),
        (h c _ (mem_uc main_arg2 (by decide))).trans (W11_main_arg2 m ρ c),
        (h c _ (mem_uc main_arg3 (by decide))).trans (W11_main_arg3 m ρ c)⟩) (run_all m ρ)
  · refine (θ_run Cert.ReferenceIdeal.defs _ _).mono (fun _ h c => ?_) (Cert.ReferenceIdeal.RunP.run (F := Ideal) m' ρ')
    obtain ⟨h0, h1, h2, h3, ha⟩ := h c
    obtain ⟨e0, e1, e2, e3⟩ := hagree c
    refine ⟨?_, ?_, ?_, ?_, ha⟩
    · rw [h0, Cert.ReferenceIdeal.ReadP.val_main_v92_eq, e0, e1, e2, e3]
      funext i
      rw [eq_ix4 i]
      exact (Cert.ReferenceIdeal.Val.ref_out0 _ _ _ _ (hy c) _ _ _ _).trans (k_out0 m ρ c (hy c) _ _ _ _).symm
    · rw [h1, Cert.ReferenceIdeal.ReadP.val_main_v99_eq, e1, e2]
      funext i
      rw [eq_ix3 i]
      exact (Cert.ReferenceIdeal.Val.ref_out1 _ _ (hy c) _ _ _).trans (k_out1 m ρ c _ _ _).symm
    · rw [h2, Cert.ReferenceIdeal.ReadP.val_main_v105_eq, e1, e3]
      funext i
      rw [eq_ix3 i]
      exact (Cert.ReferenceIdeal.Val.ref_out2 _ _ (hy c) _ _ _).trans (k_out2 m ρ c _ _ _).symm
    · rw [h3, Cert.ReferenceIdeal.ReadP.val_main_v93_eq, e1]
      funext i
      rw [eq_ix2 i]
      exact (Cert.ReferenceIdeal.Val.ref_out3 _ (hy c) _ _).trans (k_out3 m ρ c _ _).symm

end Algebraic

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
